-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v38) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S5x128 : Shape := ⟨2, ![5, 128]⟩
abbrev S128x5 : Shape := ⟨2, ![128, 5]⟩
abbrev S5 : Shape := ⟨1, ![5]⟩
abbrev S256x5 : Shape := ⟨2, ![256, 5]⟩
abbrev S256x2 : Shape := ⟨2, ![256, 2]⟩
abbrev S2 : Shape := ⟨1, ![2]⟩
abbrev S2x640000 : Shape := ⟨2, ![2, 640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_
  bcast_S_S256x5 : S_.BroadcastsInDim S256x5 (![] : Fin 0 → Fin S256x5.rank)
  reducesTo_S256x5_S_d0_1 : S256x5.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S256x2 .f32) (main_arg8 : FVec F S2 .f32) (main_v33 : IVec S_ 1) : IVec S_ 1 :=
  let main_v34 : FVec F S256x2 .f32 := Host.absf main_arg7
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S5x128 .f32) (main_arg5 : FVec F S256x5 .f32) (main_arg6 : FVec F S5 .f32) (main_arg7 : FVec F S256x2 .f32) (main_arg8 : FVec F S2 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x128 .f32 := Host.absf main_arg4
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S256x5 .f32 := Host.absf main_arg5
  let main_cst_8 : FVec F S_ .f32 := constant S_ .f32 0x7F800000#32
  let main_v25 : FVec F S256x5 .f32 := broadcastInDim S256x5 ![] bcast_S_S256x5 main_cst_8
  let main_v26 : IVec S256x5 1 := cmpf .olt main_v24 main_v25
  let main_c_9 : IVec S_ 1 := constantI S_ 1 1#1
  let main_v27 : IVec S_ 1 := (fun x v => Host.reduce IntOp.andi x v reducesTo_S256x5_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S5x128 .f32) (main_arg2 : FVec F S128x5 .f32) (main_arg3 : FVec F S5 .f32) (main_arg4 : FVec F S5x128 .f32) (main_arg5 : FVec F S256x5 .f32) (main_arg6 : FVec F S5 .f32) (main_arg7 : FVec F S256x2 .f32) (main_arg8 : FVec F S2 .f32) (main_arg9 : IVec S2x640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128 .f32 := Host.absf main_arg1
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128x5 .f32 := Host.absf main_arg2
  let main_cst_2 : FVec F S_ .f32 := constant S_ .f32 0x7F800000#32
  let main_v10 : FVec F S128x5 .f32 := broadcastInDim S128x5 ![] bcast_S_S128x5 main_cst_2
  let main_v11 : IVec S128x5 1 := cmpf .olt main_v9 main_v10
  let main_c_3 : IVec S_ 1 := constantI S_ 1 1#1
  let main_v12 : IVec S_ 1 := (fun x v => Host.reduce IntOp.andi x v reducesTo_S128x5_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S5x128 : Shape := ⟨2, ![5, 128]⟩
abbrev S128x5 : Shape := ⟨2, ![128, 5]⟩
abbrev S5 : Shape := ⟨1, ![5]⟩
abbrev S256x5 : Shape := ⟨2, ![256, 5]⟩
abbrev S256x2 : Shape := ⟨2, ![256, 2]⟩
abbrev S2 : Shape := ⟨1, ![2]⟩
abbrev S2x640000 : Shape := ⟨2, ![2, 640000]⟩
abbrev S1x640000 : Shape := ⟨2, ![1, 640000]⟩
abbrev S640000 : Shape := ⟨1, ![640000]⟩
abbrev S1x5 : Shape := ⟨2, ![1, 5]⟩
abbrev S5000x128 : Shape := ⟨2, ![5000, 128]⟩
abbrev S5000x5 : Shape := ⟨2, ![5000, 5]⟩
abbrev S5000 : Shape := ⟨1, ![5000]⟩
abbrev S5000x1 : Shape := ⟨2, ![5000, 1]⟩
abbrev S_ : Shape := ⟨0, ![]⟩
abbrev S640000x1 : Shape := ⟨2, ![640000, 1]⟩
abbrev S640000x128 : Shape := ⟨2, ![640000, 128]⟩
abbrev S10000x128 : Shape := ⟨2, ![10000, 128]⟩
abbrev S10000x5 : Shape := ⟨2, ![10000, 5]⟩
abbrev S10000 : Shape := ⟨1, ![10000]⟩
abbrev S10000x1 : Shape := ⟨2, ![10000, 1]⟩
abbrev S128x2 : Shape := ⟨2, ![128, 2]⟩
abbrev S1x2 : Shape := ⟨2, ![1, 2]⟩
abbrev S5000x2 : Shape := ⟨2, ![5000, 2]⟩

abbrev nBuf : Space → Nat
  | .hbm => 62
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S5x128, .f32⟩
  | .hbm, ⟨2, _⟩ => ⟨S128x5, .f32⟩
  | .hbm, ⟨3, _⟩ => ⟨S5, .f32⟩
  | .hbm, ⟨4, _⟩ => ⟨S5x128, .f32⟩
  | .hbm, ⟨5, _⟩ => ⟨S256x5, .f32⟩
  | .hbm, ⟨6, _⟩ => ⟨S5, .f32⟩
  | .hbm, ⟨7, _⟩ => ⟨S256x2, .f32⟩
  | .hbm, ⟨8, _⟩ => ⟨S2, .f32⟩
  | .hbm, ⟨9, _⟩ => ⟨S2x640000, .i32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S1x5, .f32⟩
  | .hbm, ⟨15, _⟩ => ⟨S50000x128, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S128x5, .f32⟩
  | .hbm, ⟨35, _⟩ => ⟨S128x5, .f32⟩
  | .hbm, ⟨36, _⟩ => ⟨S1x5, .f32⟩
  | .hbm, ⟨37, _⟩ => ⟨S640000x128, .f32⟩
  | .hbm, ⟨38, _⟩ => ⟨S_, .f32⟩
  | .hbm, ⟨39, _⟩ => ⟨S50000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S50000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S50000x128, .f32⟩
  | .hbm, ⟨58, _⟩ => ⟨S128x2, .f32⟩
  | .hbm, ⟨59, _⟩ => ⟨S128x2, .f32⟩
  | .hbm, ⟨60, _⟩ => ⟨S1x2, .f32⟩
  | .hbm, ⟨61, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x5, .f32⟩
  | .local _ .vmem, ⟨3, _⟩ => ⟨S1x5, .f32⟩
  | .local _ .vmem, ⟨4, _⟩ => ⟨S5x128, .f32⟩
  | .local _ .vmem, ⟨5, _⟩ => ⟨S5000x128, .f32⟩
  | .local _ .vmem, ⟨6, _⟩ => ⟨S5000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S128x5, .f32⟩
  | .local _ .vmem, ⟨12, _⟩ => ⟨S128x5, .f32⟩
  | .local _ .vmem, ⟨13, _⟩ => ⟨S1x5, .f32⟩
  | .local _ .vmem, ⟨14, _⟩ => ⟨S5x128, .f32⟩
  | .local _ .vmem, ⟨15, _⟩ => ⟨S10000x128, .f32⟩
  | .local _ .vmem, ⟨16, _⟩ => ⟨S10000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x2, .f32⟩
  | .local _ .vmem, ⟨22, _⟩ => ⟨S128x2, .f32⟩
  | .local _ .vmem, ⟨23, _⟩ => ⟨S1x2, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S5x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S5_S1x5 : S5.ShapeCasts S1x5
  inb_S5000x128_S5000x128_0_0 : ∀ a, (![0, 0] : Fin 2 → Nat) a + S5000x128.size a ≤ S5000x128.size a
  h_S5000x128 : 0 < S5000x128.numel
  inb_S128x5_S128x5_0_0 : ∀ a, (![0, 0] : Fin 2 → Nat) a + S128x5.size a ≤ S128x5.size a
  h_S128x5 : 0 < S128x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  reduces_S5000x5_S5000 : S5000x5.Reduces [1] S5000
  shapeCasts_S5000_S5000x1 : S5000.ShapeCasts S5000x1
  broadcasts_S5000x1_S5000x5 : S5000x1.Broadcasts S5000x5
  inb_S5x128_S5x128_0_0 : ∀ a, (![0, 0] : Fin 2 → Nat) a + S5x128.size a ≤ S5x128.size a
  h_S5x128 : 0 < S5x128.numel
  bcast_S_S640000 : S_.BroadcastsInDim S640000 (![] : Fin 0 → Fin S640000.rank)
  bcast_S640000_S640000x1_0 : S640000.BroadcastsInDim S640000x1 (![0] : Fin 1 → Fin S640000x1.rank)
  slices_S256x5_S128x5_0_0 : S256x5.Slices ![0, 0] S128x5
  slices_S256x5_S128x5_128_0 : S256x5.Slices ![128, 0] S128x5
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S128x5_S128x5 : S128x5.ShapeCasts S128x5
  broadcasts_S1x5_S10000x5 : S1x5.Broadcasts S10000x5
  reduces_S10000x5_S10000 : S10000x5.Reduces [1] S10000
  shapeCasts_S10000_S10000x1 : S10000.ShapeCasts S10000x1
  broadcasts_S10000x1_S10000x5 : S10000x1.Broadcasts S10000x5
  bcast_S_S50000x128 : S_.BroadcastsInDim S50000x128 (![] : Fin 0 → Fin S50000x128.rank)
  slices_S256x2_S128x2_0_0 : S256x2.Slices ![0, 0] S128x2
  slices_S256x2_S128x2_128_0 : S256x2.Slices ![128, 0] S128x2
  shapeCasts_S2_S1x2 : S2.ShapeCasts S1x2
  shapeCasts_S5000x128_S5000x128 : S5000x128.ShapeCasts S5000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  broadcasts_S5000x1_S5000x2 : S5000x1.Broadcasts S5000x2
  slices_S5000x2_o0_0_S5000x1 : S5000x2.Slices ![0, 0] S5000x1
  broadcasts_S5000x1_S5000x128 : S5000x1.Broadcasts S5000x128
  slices_S5000x2_o0_1_S5000x1 : S5000x2.Slices ![0, 1] S5000x1
  dot_S5000x128_S128x5_S5000x5_1_0_0_1_n_n_wf : DotDims.WF S5000x128 S128x5 S5000x5 [1] [0] [0] [1] [] []
  dot_S5000x5_S5x128_S5000x128_1_0_0_1_n_n_wf : DotDims.WF S5000x5 S5x128 S5000x128 [1] [0] [0] [1] [] []
  gather_S50000x128_S640000x1_S640000x128_1_0_n_n_0_1_1128_wf : GatherDims.WF S50000x128 S640000x1 S640000x128 [1] [0] [] [0] [] 1 ![1, 128]
  dot_S10000x128_S128x5_S10000x5_1_0_0_1_n_n_wf : DotDims.WF S10000x128 S128x5 S10000x5 [1] [0] [0] [1] [] []
  dot_S10000x5_S5x128_S10000x128_1_0_0_1_n_n_wf : DotDims.WF S10000x5 S5x128 S10000x128 [1] [0] [0] [1] [] []
  scatter_S50000x128_S640000x1_S640000x128_1_0_0_1_wf : ScatterDims.WF S50000x128 S640000x1 S640000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x5.size a ≤ S128x5.size a
  hwx0_1 : ∀ i : grid0.Coords, EltTy.bits .f32 = 32 ∨ (Rect.block (s := S128x5) S128x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128.size a ≤ S5x128.size a
  hwx0_3 : ∀ i : grid0.Coords, EltTy.bits .f32 = 32 ∨ (Rect.block (s := S5x128) S5x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S640000x128.size a
  hwx1_0 : ∀ i : grid1.Coords, EltTy.bits .f32 = 32 ∨ (Rect.block (s := S640000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S640000x128.size a
  hwx1_1 : ∀ i : grid1.Coords, EltTy.bits .f32 = 32 ∨ (Rect.block (s := S640000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x5.size a ≤ S128x5.size a
  hwx1_2 : ∀ i : grid1.Coords, EltTy.bits .f32 = 32 ∨ (Rect.block (s := S128x5) S128x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x5.size a ≤ S128x5.size a
  hwx1_3 : ∀ i : grid1.Coords, EltTy.bits .f32 = 32 ∨ (Rect.block (s := S128x5) S128x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5x128.size a ≤ S5x128.size a
  hwx1_5 : ∀ i : grid1.Coords, EltTy.bits .f32 = 32 ∨ (Rect.block (s := S5x128) S5x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S640000x128.size a
  hwx1_6 : ∀ i : grid1.Coords, EltTy.bits .f32 = 32 ∨ (Rect.block (s := S640000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S5000x128_S128x5_S5000x5_1_0_0_1_n_n : DotDims S5000x128 S128x5 S5000x5 where
  lhsContracting := [1]
  rhsContracting := [0]
  lhsNonContracting := [0]
  rhsNonContracting := [1]
  lhsBatch := []
  rhsBatch := []
  wf := dot_S5000x128_S128x5_S5000x5_1_0_0_1_n_n_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S10000x128_S128x5_S10000x5_1_0_0_1_n_n : DotDims S10000x128 S128x5 S10000x5 where
  lhsContracting := [1]
  rhsContracting := [0]
  lhsNonContracting := [0]
  rhsNonContracting := [1]
  lhsBatch := []
  rhsBatch := []
  wf := dot_S10000x128_S128x5_S10000x5_1_0_0_1_n_n_wf
def dot_S10000x5_S5x128_S10000x128_1_0_0_1_n_n : DotDims S10000x5 S5x128 S10000x128 where
  lhsContracting := [1]
  rhsContracting := [0]
  lhsNonContracting := [0]
  rhsNonContracting := [1]
  lhsBatch := []
  rhsBatch := []
  wf := dot_S10000x5_S5x128_S10000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S5x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S5x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v5) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S5x128 : Shape := ⟨2, ![5, 128]⟩
abbrev S128x5 : Shape := ⟨2, ![128, 5]⟩
abbrev S5 : Shape := ⟨1, ![5]⟩
abbrev S256x5 : Shape := ⟨2, ![256, 5]⟩
abbrev S256x2 : Shape := ⟨2, ![256, 2]⟩
abbrev S2 : Shape := ⟨1, ![2]⟩
abbrev S2x640000 : Shape := ⟨2, ![2, 640000]⟩
abbrev S1x640000 : Shape := ⟨2, ![1, 640000]⟩
abbrev S640000 : Shape := ⟨1, ![640000]⟩
abbrev S50000x5 : Shape := ⟨2, ![50000, 5]⟩
abbrev S1x5 : Shape := ⟨2, ![1, 5]⟩
abbrev S_ : Shape := ⟨0, ![]⟩
abbrev S50000 : Shape := ⟨1, ![50000]⟩
abbrev S50000x1 : Shape := ⟨2, ![50000, 1]⟩
abbrev S640000x1 : Shape := ⟨2, ![640000, 1]⟩
abbrev S640000x128 : Shape := ⟨2, ![640000, 128]⟩
abbrev S640000x256 : Shape := ⟨2, ![640000, 256]⟩
abbrev S640000x5 : Shape := ⟨2, ![640000, 5]⟩
abbrev S50000x256 : Shape := ⟨2, ![50000, 256]⟩
abbrev S50000x2 : Shape := ⟨2, ![50000, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S5x128, .f32⟩
  | .hbm, ⟨2, _⟩ => ⟨S128x5, .f32⟩
  | .hbm, ⟨3, _⟩ => ⟨S5, .f32⟩
  | .hbm, ⟨4, _⟩ => ⟨S5x128, .f32⟩
  | .hbm, ⟨5, _⟩ => ⟨S256x5, .f32⟩
  | .hbm, ⟨6, _⟩ => ⟨S5, .f32⟩
  | .hbm, ⟨7, _⟩ => ⟨S256x2, .f32⟩
  | .hbm, ⟨8, _⟩ => ⟨S2, .f32⟩
  | .hbm, ⟨9, _⟩ => ⟨S2x640000, .i32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S50000x5, .f32⟩
  | .hbm, ⟨15, _⟩ => ⟨S1x5, .f32⟩
  | .hbm, ⟨16, _⟩ => ⟨S50000x5, .f32⟩
  | .hbm, ⟨17, _⟩ => ⟨S50000x5, .f32⟩
  | .hbm, ⟨18, _⟩ => ⟨S_, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x5, .f32⟩
  | .hbm, ⟨25, _⟩ => ⟨S50000x5, .f32⟩
  | .hbm, ⟨26, _⟩ => ⟨S50000x5, .f32⟩
  | .hbm, ⟨27, _⟩ => ⟨S_, .f32⟩
  | .hbm, ⟨28, _⟩ => ⟨S50000, .f32⟩
  | .hbm, ⟨29, _⟩ => ⟨S50000x1, .f32⟩
  | .hbm, ⟨30, _⟩ => ⟨S50000x5, .f32⟩
  | .hbm, ⟨31, _⟩ => ⟨S50000x5, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S640000x256, .f32⟩
  | .hbm, ⟨53, _⟩ => ⟨S640000x5, .f32⟩
  | .hbm, ⟨54, _⟩ => ⟨S1x5, .f32⟩
  | .hbm, ⟨55, _⟩ => ⟨S640000x5, .f32⟩
  | .hbm, ⟨56, _⟩ => ⟨S640000x5, .f32⟩
  | .hbm, ⟨57, _⟩ => ⟨S_, .f32⟩
  | .hbm, ⟨58, _⟩ => ⟨S640000x5, .f32⟩
  | .hbm, ⟨59, _⟩ => ⟨S640000x5, .i1⟩
  | .hbm, ⟨60, _⟩ => ⟨S_, .f32⟩
  | .hbm, ⟨61, _⟩ => ⟨S640000x5, .f32⟩
  | .hbm, ⟨62, _⟩ => ⟨S640000x5, .f32⟩
  | .hbm, ⟨63, _⟩ => ⟨S640000x5, .f32⟩
  | .hbm, ⟨64, _⟩ => ⟨S_, .f32⟩
  | .hbm, ⟨65, _⟩ => ⟨S640000, .f32⟩
  | .hbm, ⟨66, _⟩ => ⟨S_, .f32⟩
  | .hbm, ⟨67, _⟩ => ⟨S640000, .f32⟩
  | .hbm, ⟨68, _⟩ => ⟨S640000, .f32⟩
  | .hbm, ⟨69, _⟩ => ⟨S640000x1, .f32⟩
  | .hbm, ⟨70, _⟩ => ⟨S640000x5, .f32⟩
  | .hbm, ⟨71, _⟩ => ⟨S640000x5, .f32⟩
  | .hbm, ⟨72, _⟩ => ⟨S640000x5, .f32⟩
  | .hbm, ⟨73, _⟩ => ⟨S_, .f32⟩
  | .hbm, ⟨74, _⟩ => ⟨S640000, .f32⟩
  | .hbm, ⟨75, _⟩ => ⟨S640000x1, .f32⟩
  | .hbm, ⟨76, _⟩ => ⟨S640000x5, .f32⟩
  | .hbm, ⟨77, _⟩ => ⟨S640000x5, .f32⟩
  | .hbm, ⟨78, _⟩ => ⟨S640000x128, .f32⟩
  | .hbm, ⟨79, _⟩ => ⟨S_, .f32⟩
  | .hbm, ⟨80, _⟩ => ⟨S50000x128, .f32⟩
  | .hbm, ⟨81, _⟩ => ⟨S_, .i32⟩
  | .hbm, ⟨82, _⟩ => ⟨S640000, .i32⟩
  | .hbm, ⟨83, _⟩ => ⟨S640000, .i1⟩
  | .hbm, ⟨84, _⟩ => ⟨S_, .i32⟩
  | .hbm, ⟨85, _⟩ => ⟨S640000, .i32⟩
  | .hbm, ⟨86, _⟩ => ⟨S640000, .i32⟩
  | .hbm, ⟨87, _⟩ => ⟨S640000, .i32⟩
  | .hbm, ⟨88, _⟩ => ⟨S640000x1, .i32⟩
  | .hbm, ⟨89, _⟩ => ⟨S50000x128, .f32⟩
  | .hbm, ⟨90, _⟩ => ⟨S_, .i32⟩
  | .hbm, ⟨91, _⟩ => ⟨S640000, .i32⟩
  | .hbm, ⟨92, _⟩ => ⟨S640000, .i1⟩
  | .hbm, ⟨93, _⟩ => ⟨S_, .i32⟩
  | .hbm, ⟨94, _⟩ => ⟨S640000, .i32⟩
  | .hbm, ⟨95, _⟩ => ⟨S640000, .i32⟩
  | .hbm, ⟨96, _⟩ => ⟨S640000, .i32⟩
  | .hbm, ⟨97, _⟩ => ⟨S640000x1, .i32⟩
  | .hbm, ⟨98, _⟩ => ⟨S50000x128, .f32⟩
  | .hbm, ⟨99, _⟩ => ⟨S50000x256, .f32⟩
  | .hbm, ⟨100, _⟩ => ⟨S50000x2, .f32⟩
  | .hbm, ⟨101, _⟩ => ⟨S1x2, .f32⟩
  | .hbm, ⟨102, _⟩ => ⟨S50000x2, .f32⟩
  | .hbm, ⟨103, _⟩ => ⟨S50000x2, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x2, .f32⟩
  | .hbm, ⟨111, _⟩ => ⟨S50000x2, .f32⟩
  | .hbm, ⟨112, _⟩ => ⟨S50000x2, .f32⟩
  | .hbm, ⟨113, _⟩ => ⟨S_, .f32⟩
  | .hbm, ⟨114, _⟩ => ⟨S50000, .f32⟩
  | .hbm, ⟨115, _⟩ => ⟨S50000x1, .f32⟩
  | .hbm, ⟨116, _⟩ => ⟨S50000x2, .f32⟩
  | .hbm, ⟨117, _⟩ => ⟨S50000x2, .f32⟩
  | .hbm, ⟨118, _⟩ => ⟨S50000x1, .f32⟩
  | .hbm, ⟨119, _⟩ => ⟨S50000x128, .f32⟩
  | .hbm, ⟨120, _⟩ => ⟨S50000x128, .f32⟩
  | .hbm, ⟨121, _⟩ => ⟨S50000x1, .f32⟩
  | .hbm, ⟨122, _⟩ => ⟨S50000x128, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_11 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  reducesTo_S50000x5_S50000_d1 : S50000x5.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x5_0_1 : S50000x1.BroadcastsInDim S50000x5 (![0, 1] : Fin 2 → Fin S50000x5.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S1x5_S640000x5_0_1 : S1x5.BroadcastsInDim S640000x5 (![0, 1] : Fin 2 → Fin S640000x5.rank)
  bcast_S_S640000x5 : S_.BroadcastsInDim S640000x5 (![] : Fin 0 → Fin S640000x5.rank)
  reducesTo_S640000x5_S640000_d1 : S640000x5.ReducesTo [1] S640000
  bcast_S640000x1_S640000x5_0_1 : S640000x1.BroadcastsInDim S640000x5 (![0, 1] : Fin 2 → Fin S640000x5.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  bcast_S50000x1_S50000x2_0_1 : S50000x1.BroadcastsInDim S50000x2 (![0, 1] : Fin 2 → Fin S50000x2.rank)
  slices_S50000x2_S50000x1_0_0 : S50000x2.Slices ![0, 0] S50000x1
  bcast_S50000x1_S50000x128_0_1 : S50000x1.BroadcastsInDim S50000x128 (![0, 1] : Fin 2 → Fin S50000x128.rank)
  slices_S50000x2_S50000x1_0_1 : S50000x2.Slices ![0, 1] S50000x1
  dot_S50000x128_S128x5_S50000x5_1_0_0_1_n_n_wf : DotDims.WF S50000x128 S128x5 S50000x5 [1] [0] [0] [1] [] []
  dot_S50000x5_S5x128_S50000x128_1_0_0_1_n_n_wf : DotDims.WF S50000x5 S5x128 S50000x128 [1] [0] [0] [1] [] []
  gather_S50000x128_S640000x1_S640000x128_1_0_n_n_0_1_1128_wf : GatherDims.WF S50000x128 S640000x1 S640000x128 [1] [0] [] [0] [] 1 ![1, 128]
  dot_S640000x256_S256x5_S640000x5_1_0_0_1_n_n_wf : DotDims.WF S640000x256 S256x5 S640000x5 [1] [0] [0] [1] [] []
  dot_S640000x5_S5x128_S640000x128_1_0_0_1_n_n_wf : DotDims.WF S640000x5 S5x128 S640000x128 [1] [0] [0] [1] [] []
  scatter_S50000x128_S640000x1_S640000x128_1_0_0_1_wf : ScatterDims.WF S50000x128 S640000x1 S640000x128 [1] [0] [0] 1
  dot_S50000x256_S256x2_S50000x2_1_0_0_1_n_n_wf : DotDims.WF S50000x256 S256x2 S50000x2 [1] [0] [0] [1] [] []

variable [Facts₀]

def dot_S50000x128_S128x5_S50000x5_1_0_0_1_n_n : DotDims S50000x128 S128x5 S50000x5 where
  lhsContracting := [1]
  rhsContracting := [0]
  lhsNonContracting := [0]
  rhsNonContracting := [1]
  lhsBatch := []
  rhsBatch := []
  wf := dot_S50000x128_S128x5_S50000x5_1_0_0_1_n_n_wf
def dot_S50000x5_S5x128_S50000x128_1_0_0_1_n_n : DotDims S50000x5 S5x128 S50000x128 where
  lhsContracting := [1]
  rhsContracting := [0]
  lhsNonContracting := [0]
  rhsNonContracting := [1]
  lhsBatch := []
  rhsBatch := []
  wf := dot_S50000x5_S5x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x256_S256x5_S640000x5_1_0_0_1_n_n : DotDims S640000x256 S256x5 S640000x5 where
  lhsContracting := [1]
  rhsContracting := [0]
  lhsNonContracting := [0]
  rhsNonContracting := [1]
  lhsBatch := []
  rhsBatch := []
  wf := dot_S640000x256_S256x5_S640000x5_1_0_0_1_n_n_wf
def dot_S640000x5_S5x128_S640000x128_1_0_0_1_n_n : DotDims S640000x5 S5x128 S640000x128 where
  lhsContracting := [1]
  rhsContracting := [0]
  lhsNonContracting := [0]
  rhsNonContracting := [1]
  lhsBatch := []
  rhsBatch := []
  wf := dot_S640000x5_S5x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.Spec.lean ====
/-
  The mathematics both programs compute, one output row at a time, on the extended reals.

  Every result of the two programs is row-wise: row r of a result depends on row r of the large operands and on
  the small weight matrices only. A row's weights are a softmax: from logits l over A anchors,
  softmax l a = exp (l a - M) / ∑ a', exp (l a' - M) with M = max (-∞) (max over a of l a), the -∞ being the f32
  pattern both programs print.

  * node prompt : x + softmax (x · W + b) · An
  * edge prompt : softmax (leaky (xs · Ws + xd · Wd + b)) · An, leaky z = z if z ≥ 0 else slope · z, the slope the
    f32 pattern 0x3C23D70A on both sides
  * fusion      : g 0 · n + g 1 · e with g = softmax (n · G1 + e · G2 + gb)

  A contraction over 256 = 128 + 128 coordinates is the sum of the contractions over the two halves
  (`sum_halves`): addition on the extended reals is commutative and associative, nothing else is used.
-/
import Idealize.ShloMosaic.PureOps.Ideal
import Idealize.ShloMosaic.Lib.ValueIdx

noncomputable section

open scoped BigOperators

namespace Cert.Rows

open Idealize.ShloMosaic Idealize.ShloMosaic.ValueIdx

/-- -∞, as the f32 pattern. -/
abbrev negInf : EReal := Ideal.ofBits .f32 0xFF800000#32
/-- The leaky slope, as the f32 pattern (the float nearest 1/100). -/
abbrev slope : EReal := Ideal.ofBits .f32 0x3C23D70A#32
/-- Zero, as the f32 pattern. -/
abbrev zero32 : EReal := Ideal.ofBits .f32 0x00000000#32

/-- A row's maximum from -∞, joined once more with -∞ (both programs do). -/
def rowMax {A : ℕ} (l : Fin A → EReal) : EReal :=
  max negInf ((Finset.univ : Finset (Fin A)).fold max negInf l)

/-- The shifted exponentials of a row of logits. -/
def rowExp {A : ℕ} (l : Fin A → EReal) (a : Fin A) : EReal := Ideal.exp (l a - rowMax l)

/-- The softmax of a row of logits. -/
def softmax {A : ℕ} (l : Fin A → EReal) (a : Fin A) : EReal :=
  Ideal.div (rowExp l a) (∑ a' : Fin A, rowExp l a')

/-- The leaky rectifier: the value itself where it is at least zero, else the slope times it. -/
def lrelu (z : EReal) : EReal := Scalar.select (Ideal.cmp .oge z zero32) z (slope * z)

/-- One row of the node prompt. -/
def npRow (x : Fin 128 → EReal) (W : Fin 128 → Fin 5 → EReal) (b : Fin 5 → EReal) (An : Fin 5 → Fin 128 → EReal)
    (d : Fin 128) : EReal :=
  x d + ∑ a : Fin 5, softmax (fun a => (∑ k : Fin 128, x k * W k a) + b a) a * An a d

/-- One row of the edge prompt, from the two endpoint rows and the two halves of the weight matrix. -/
def epRow (xs xd : Fin 128 → EReal) (Ws Wd : Fin 128 → Fin 5 → EReal) (b : Fin 5 → EReal)
    (An : Fin 5 → Fin 128 → EReal) (d : Fin 128) : EReal :=
  ∑ a : Fin 5, softmax (fun a => lrelu (((∑ k : Fin 128, xs k * Ws k a) + ∑ k : Fin 128, xd k * Wd k a) + b a)) a * An a d

/-- One row of the gated fusion, from the node row, the aggregated edge row and the two halves of the gate matrix. -/
def fuRow (n e : Fin 128 → EReal) (G1 G2 : Fin 128 → Fin 2 → EReal) (gb : Fin 2 → EReal) (d : Fin 128) : EReal :=
  softmax (fun a => ((∑ k : Fin 128, n k * G1 k a) + ∑ k : Fin 128, e k * G2 k a) + gb a) 0 * n d
    + softmax (fun a => ((∑ k : Fin 128, n k * G1 k a) + ∑ k : Fin 128, e k * G2 k a) + gb a) 1 * e d

/-- The node prompt of an array of N rows. -/
def NP {N : ℕ} (x : (⟨2, ![N, 128]⟩ : Shape).Idx → EReal) (W : Fin 128 → Fin 5 → EReal) (b : Fin 5 → EReal)
    (An : Fin 5 → Fin 128 → EReal) : (⟨2, ![N, 128]⟩ : Shape).Idx → EReal :=
  fun i => npRow (fun k => x (ix2 (n0 := N) (i 0) k)) W b An (i 1)

/-- The edge prompt of two arrays of N endpoint rows. -/
def EP {N : ℕ} (xs xd : (⟨2, ![N, 128]⟩ : Shape).Idx → EReal) (Ws Wd : Fin 128 → Fin 5 → EReal) (b : Fin 5 → EReal)
    (An : Fin 5 → Fin 128 → EReal) : (⟨2, ![N, 128]⟩ : Shape).Idx → EReal :=
  fun i => epRow (fun k => xs (ix2 (n0 := N) (i 0) k)) (fun k => xd (ix2 (n0 := N) (i 0) k)) Ws Wd b An (i 1)

/-- The gated fusion of two arrays of N rows. -/
def FU {N : ℕ} (n e : (⟨2, ![N, 128]⟩ : Shape).Idx → EReal) (G1 G2 : Fin 128 → Fin 2 → EReal) (gb : Fin 2 → EReal) :
    (⟨2, ![N, 128]⟩ : Shape).Idx → EReal :=
  fun i => fuRow (fun k => n (ix2 (n0 := N) (i 0) k)) (fun k => e (ix2 (n0 := N) (i 0) k)) G1 G2 gb (i 1)

/-- A sum over 256 coordinates is the sum over the first 128 plus the sum over the last 128. -/
theorem sum_halves (f : Fin 256 → EReal) :
    ∑ k : Fin 256, f k = (∑ k : Fin 128, f (Fin.castAdd 128 k)) + ∑ k : Fin 128, f (Fin.natAdd 128 k) :=
  Fin.sum_univ_add (a := 128) (b := 128) (f : Fin (128 + 128) → EReal)

end Cert.Rows

end
-- ==== Proof.KDefs.lean ====
/-
  The kernel program's four results as functions of its ten argument arrays, through the row functions of the
  specification: the gathers and the two scatter-adds are the host's operations between the kernels (the start
  indices of an endpoint row of the edge list, `endIdx`: an index below zero is moved up by the number of nodes),
  everything the three kernels compute is row-wise.
-/
import proofs.«175747_j34248069218340_1_alg».proof.Proof.Gen.KernelIdeal
import proofs.«175747_j34248069218340_1_alg».proof.Proof.Spec

noncomputable section

namespace Cert.KernelIdeal.Fold

open Cert.KernelIdeal Cert.KernelIdeal.Gen Cert.Rows Idealize.ShloMosaic Idealize.ShloMosaic.ValueIdx

section Host
variable {F : FTy → Type} [FloatOps F]

/-- An endpoint row of the edge list as start indices: negative entries moved up by 50000. -/
def endIdx (row : IVec S640000 32) : IVec S640000x1 32 :=
  broadcastInDim S640000x1 ![0] bcast_S640000_S640000x1_0
    (select (cmpi .slt row (broadcastInDim S640000 ![] bcast_S_S640000 (constantI S_ 32 0#32)))
      (addi row (broadcastInDim S640000 ![] bcast_S_S640000 (constantI S_ 32 50000#32))) row)

/-- The sources' row of the edge list. -/
def srcRow (ei : IVec S2x640000 32) : IVec S640000 32 :=
  shapeCast S640000 (extractStridedSlice S1x640000 ![0, 0] ei slices_S2x640000_S1x640000_0_0) shapeCasts_S1x640000_S640000
/-- The destinations' row of the edge list. -/
def dstRow (ei : IVec S2x640000 32) : IVec S640000 32 :=
  shapeCast S640000 (extractStridedSlice S1x640000 ![1, 0] ei slices_S2x640000_S1x640000_1_0) shapeCasts_S1x640000_S640000

/-- The rows of x at the given start indices. -/
def gatherRows (x : FVec F S50000x128 .f32) (idx : IVec S640000x1 32) : FVec F S640000x128 .f32 :=
  Host.gather gather_S50000x128_S640000x1_S640000x128_1_0_n_n_0_1_1128 x idx

/-- The per-edge rows added into zeros at the sources' indices, then again at the destinations'. -/
def scatter2 (i1 i2 : IVec S640000x1 32) (u : FVec F S640000x128 .f32) : FVec F S50000x128 .f32 :=
  Host.scatterAdd scatter_S50000x128_S640000x1_S640000x128_1_0_0_1
    (Host.scatterAdd scatter_S50000x128_S640000x1_S640000x128_1_0_0_1
      (broadcastInDim S50000x128 ![] bcast_S_S50000x128 (constant S_ .f32 0x00000000#32)) i1 u) i2 u

end Host

/-- The node-prompted x. -/
def npx (a0 : FVec Ideal S50000x128 .f32) (a1 : FVec Ideal S5x128 .f32) (a2 : FVec Ideal S128x5 .f32) (a3 : FVec Ideal S5 .f32) :
    FVec Ideal S50000x128 .f32 :=
  NP (N := 50000) a0 (fun k a => a2 (ix2 k a)) (fun a => a3 (ix1 a)) (fun a d => a1 (ix2 a d))

/-- The edge prompt: one row per edge from the two endpoint rows of x. -/
def eprompt (a0 : FVec Ideal S50000x128 .f32) (a4 : FVec Ideal S5x128 .f32) (a5 : FVec Ideal S256x5 .f32) (a6 : FVec Ideal S5 .f32)
    (a9 : IVec S2x640000 32) : FVec Ideal S640000x128 .f32 :=
  EP (N := 640000) (gatherRows a0 (endIdx (srcRow a9))) (gatherRows a0 (endIdx (dstRow a9)))
    (fun k a => a5 (ix2 (Fin.castAdd 128 k) a)) (fun k a => a5 (ix2 (Fin.natAdd 128 k) a)) (fun a => a6 (ix1 a))
    (fun a d => a4 (ix2 a d))

/-- The edge prompts added up at both endpoints of every edge. -/
def eagg (a0 : FVec Ideal S50000x128 .f32) (a4 : FVec Ideal S5x128 .f32) (a5 : FVec Ideal S256x5 .f32) (a6 : FVec Ideal S5 .f32)
    (a9 : IVec S2x640000 32) : FVec Ideal S50000x128 .f32 :=
  scatter2 (endIdx (srcRow a9)) (endIdx (dstRow a9)) (eprompt a0 a4 a5 a6 a9)

/-- The gated fusion of the node-prompted x and the aggregated edge prompts. -/
def fused (a0 : FVec Ideal S50000x128 .f32) (a1 : FVec Ideal S5x128 .f32) (a2 : FVec Ideal S128x5 .f32) (a3 : FVec Ideal S5 .f32)
    (a4 : FVec Ideal S5x128 .f32) (a5 : FVec Ideal S256x5 .f32) (a6 : FVec Ideal S5 .f32) (a7 : FVec Ideal S256x2 .f32)
    (a8 : FVec Ideal S2 .f32) (a9 : IVec S2x640000 32) : FVec Ideal S50000x128 .f32 :=
  FU (N := 50000) (npx a0 a1 a2 a3) (eagg a0 a4 a5 a6 a9)
    (fun k a => a7 (ix2 (Fin.castAdd 128 k) a)) (fun k a => a7 (ix2 (Fin.natAdd 128 k) a)) (fun a => a8 (ix1 a))

end Cert.KernelIdeal.Fold

end
-- ==== Proof.KPay0.lean ====
import proofs.«175747_j34248069218340_1_alg».proof.Proof.Gen.KernelIdeal.Skeleton
import proofs.«175747_j34248069218340_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

open scoped BigOperators

namespace Cert.KernelIdeal.Pay

open Idealize.ShloMosaic Idealize.ShloMosaic.ValueIdx Cert.KernelIdeal Cert.KernelIdeal.Gen Cert.Rows

/-! ## Layout: a column kept as a unit axis and laid along the rows; the index a row reduction inserts -/

section Layout
variable {α : Type}

/-- A column of `n` entries cast to `[n, 1]` and broadcast to `[n, A]` reads, at `(p, a)`, the column at `p`. -/
theorem k0_keepdims_apply {n A : ℕ} (v : (⟨1, ![n]⟩ : Shape).Idx → α)
    (h1 : (⟨1, ![n]⟩ : Shape).ShapeCasts ⟨2, ![n, 1]⟩) (h2 : (⟨2, ![n, 1]⟩ : Shape).Broadcasts ⟨2, ![n, A]⟩)
    (p : Fin n) (a : Fin A) :
    broadcastTo ⟨2, ![n, A]⟩ (shapeCast ⟨2, ![n, 1]⟩ v h1) h2 (ix2 p a) = v (ix1 p) := by
  have hb : broadcastTo ⟨2, ![n, A]⟩ (shapeCast ⟨2, ![n, 1]⟩ v h1) h2 (ix2 p a)
      = shapeCast ⟨2, ![n, 1]⟩ v h1 (ix2 p (0 : Fin 1)) := by
    refine broadcastTo_apply _ h2 (ix2 p a) (ix2 p (0 : Fin 1)) fun ax => ?_
    match ax with
    | ⟨0, _⟩ =>
      show p.val = if n = 1 then 0 else p.val
      split
      · have := p.isLt; omega
      · rfl
    | ⟨1, _⟩ => rfl
  rw [hb]
  exact shapeCast_apply v h1 _ _ (by
    rw [Shape.rowMajor_val_one, Shape.rowMajor_val_two]
    show p.val = p.val * 1 + 0
    omega)

/-- The index a reduction along the rows inserts over row `p` at coordinate `a` is `(p, a)`. -/
theorem k0_lift_row {n A : ℕ} (h : (⟨2, ![n, A]⟩ : Shape).Reduces [1] ⟨1, ![n]⟩) (p : Fin n) (a : Fin A) :
    h.lift (ix1 p) a = ix2 p a := by
  funext c; apply Fin.ext
  match c with
  | ⟨0, _⟩ => rfl
  | ⟨1, _⟩ => rfl

end Layout

/-! ## The two reductions along a row, and a plain product into the zero splat -/

/-- A row's maximum from the pattern of -∞: the fold of `max` over the row's entries. -/
theorem k0_rowMaximum_apply {n A : ℕ} (v : FVec Ideal ⟨2, ![n, A]⟩ .f32) (h : (⟨2, ![n, A]⟩ : Shape).Reduces [1] ⟨1, ![n]⟩)
    (hφ : FKind.Formats .f32) (hacc : (0xFF800000#32 : BitVec 32) = FKind.maximumf.neutral .f32 hφ) (p : Fin n) :
    multiReduction (F := Ideal) .maximumf [1] ⟨1, ![n]⟩ v 0xFF800000#32 h hφ hacc (ix1 p)
      = (Finset.univ : Finset (Fin A)).fold max negInf (fun a => v (ix2 p a)) := by
  refine (Ideal.multiReduction_maximumf_single v _ h hφ hacc (ix1 p)).trans ?_
  have e : (v ∘ h.lift (ix1 p)) = fun a : Fin A => v (ix2 p a) := funext fun a => congrArg v (k0_lift_row h p a)
  exact congrArg (fun f : Fin A → EReal => (Finset.univ : Finset (Fin A)).fold max negInf f) e

/-- A row's sum from the zero pattern: the sum of the row's entries. -/
theorem k0_rowSum_apply {n A : ℕ} (v : FVec Ideal ⟨2, ![n, A]⟩ .f32) (h : (⟨2, ![n, A]⟩ : Shape).Reduces [1] ⟨1, ![n]⟩)
    (hφ : FKind.Formats .f32) (hacc : (0x00000000#32 : BitVec 32) = FKind.add.neutral .f32 hφ) (p : Fin n) :
    multiReduction (F := Ideal) .add [1] ⟨1, ![n]⟩ v 0x00000000#32 h hφ hacc (ix1 p) = ∑ a : Fin A, v (ix2 p a) := by
  refine (Ideal.multiReduction_add_single v _ h hφ hacc (ix1 p)).trans ?_
  exact Finset.sum_congr rfl fun a _ => congrArg v (k0_lift_row h p a)

/-- A rows-by-columns product accumulated into the zero splat, at `(a, b)`: the sum over the contracted coordinate of
    the products of the entries. -/
theorem k0_matmul_plain_zero_apply {m k n : ℕ} {φ₁ φ₂ : FTy} (d : DotDims ⟨2, ![m, k]⟩ ⟨2, ![k, n]⟩ ⟨2, ![m, n]⟩)
    (hd : d = DotDims.plain m k n) (prec : Option ContractPrecision)
    (X : FVec Ideal ⟨2, ![m, k]⟩ φ₁) (Y : FVec Ideal ⟨2, ![k, n]⟩ φ₂) (a : Fin m) (b : Fin n) :
    matmul (F := Ideal) d prec X Y (constant (F := Ideal) ⟨2, ![m, n]⟩ .f32 0x00000000#32) (ix2 a b)
      = ∑ c : Fin k, X (ix2 a c) * Y (ix2 c b) := by
  subst hd
  rw [matmul_zero_eq_dotGeneral]
  exact StackMember.dotGeneral_plain_apply prec X Y a b

theorem k0_dot1_eq : dot_S5000x128_S128x5_S5000x5_1_0_0_1_n_n = DotDims.plain 5000 128 5 := rfl
theorem k0_dot2_eq : dot_S5000x5_S5x128_S5000x128_1_0_0_1_n_n = DotDims.plain 5000 5 128 := rfl

/-! ## The softmax of the rows, as the body writes it -/

section Softmax
variable {n A : ℕ}

/-- Each row's maximum joined with -∞, as the body writes it: a column of `n` entries. -/
def k0_maxRows (v : FVec Ideal ⟨2, ![n, A]⟩ .f32) (hr : (⟨2, ![n, A]⟩ : Shape).Reduces [1] ⟨1, ![n]⟩)
    (hφ : FKind.Formats .f32) (hmax : (0xFF800000#32 : BitVec 32) = FKind.maximumf.neutral .f32 hφ) :
    FVec Ideal ⟨1, ![n]⟩ .f32 :=
  maximumf (broadcast ⟨1, ![n]⟩ (Scalar.ofBits (F := Ideal) .f32 0xFF800000#32))
    (multiReduction (F := Ideal) .maximumf [1] ⟨1, ![n]⟩ v 0xFF800000#32 hr hφ hmax)

/-- At row `p` it is the row maximum of the specification. -/
theorem k0_maxRows_apply (v : FVec Ideal ⟨2, ![n, A]⟩ .f32) (hr : (⟨2, ![n, A]⟩ : Shape).Reduces [1] ⟨1, ![n]⟩)
    (hφ : FKind.Formats .f32) (hmax : (0xFF800000#32 : BitVec 32) = FKind.maximumf.neutral .f32 hφ) (p : Fin n) :
    k0_maxRows v hr hφ hmax (ix1 p) = rowMax (fun a => v (ix2 p a)) :=
  congrArg (max negInf) (k0_rowMaximum_apply v hr hφ hmax p)

/-- The exponentials of the logits less their row's maximum, as the body writes them. -/
def k0_expRows (v : FVec Ideal ⟨2, ![n, A]⟩ .f32) (hr : (⟨2, ![n, A]⟩ : Shape).Reduces [1] ⟨1, ![n]⟩)
    (hc : (⟨1, ![n]⟩ : Shape).ShapeCasts ⟨2, ![n, 1]⟩) (hb : (⟨2, ![n, 1]⟩ : Shape).Broadcasts ⟨2, ![n, A]⟩)
    (hφ : FKind.Formats .f32) (hmax : (0xFF800000#32 : BitVec 32) = FKind.maximumf.neutral .f32 hφ) :
    FVec Ideal ⟨2, ![n, A]⟩ .f32 :=
  exp (subf v (broadcastTo ⟨2, ![n, A]⟩ (shapeCast ⟨2, ![n, 1]⟩ (k0_maxRows v hr hφ hmax) hc) hb))

/-- At `(p, a)` they are the shifted exponentials of the specification, of row `p`. -/
theorem k0_expRows_apply (v : FVec Ideal ⟨2, ![n, A]⟩ .f32) (hr : (⟨2, ![n, A]⟩ : Shape).Reduces [1] ⟨1, ![n]⟩)
    (hc : (⟨1, ![n]⟩ : Shape).ShapeCasts ⟨2, ![n, 1]⟩) (hb : (⟨2, ![n, 1]⟩ : Shape).Broadcasts ⟨2, ![n, A]⟩)
    (hφ : FKind.Formats .f32) (hmax : (0xFF800000#32 : BitVec 32) = FKind.maximumf.neutral .f32 hφ)
    (p : Fin n) (a : Fin A) :
    k0_expRows v hr hc hb hφ hmax (ix2 p a) = rowExp (fun a => v (ix2 p a)) a := by
  show Ideal.exp (v (ix2 p a)
    - broadcastTo ⟨2, ![n, A]⟩ (shapeCast ⟨2, ![n, 1]⟩ (k0_maxRows v hr hφ hmax) hc) hb (ix2 p a)) = _
  rw [k0_keepdims_apply, k0_maxRows_apply]
  rfl

/-- The softmax over the columns, as the body writes it: the exponentials over their row's sum. -/
def k0_softmaxRows (v : FVec Ideal ⟨2, ![n, A]⟩ .f32) (hr : (⟨2, ![n, A]⟩ : Shape).Reduces [1] ⟨1, ![n]⟩)
    (hc : (⟨1, ![n]⟩ : Shape).ShapeCasts ⟨2, ![n, 1]⟩) (hb : (⟨2, ![n, 1]⟩ : Shape).Broadcasts ⟨2, ![n, A]⟩)
    (hφ : FKind.Formats .f32) (hmax : (0xFF800000#32 : BitVec 32) = FKind.maximumf.neutral .f32 hφ)
    (hadd : (0x00000000#32 : BitVec 32) = FKind.add.neutral .f32 hφ) : FVec Ideal ⟨2, ![n, A]⟩ .f32 :=
  divf (k0_expRows v hr hc hb hφ hmax)
    (broadcastTo ⟨2, ![n, A]⟩ (shapeCast ⟨2, ![n, 1]⟩
      (multiReduction (F := Ideal) .add [1] ⟨1, ![n]⟩ (k0_expRows v hr hc hb hφ hmax) 0x00000000#32 hr hφ hadd) hc) hb)

/-- At `(p, a)` it is the softmax of the specification, of row `p` of the logits. -/
theorem k0_softmaxRows_apply (v : FVec Ideal ⟨2, ![n, A]⟩ .f32) (hr : (⟨2, ![n, A]⟩ : Shape).Reduces [1] ⟨1, ![n]⟩)
    (hc : (⟨1, ![n]⟩ : Shape).ShapeCasts ⟨2, ![n, 1]⟩) (hb : (⟨2, ![n, 1]⟩ : Shape).Broadcasts ⟨2, ![n, A]⟩)
    (hφ : FKind.Formats .f32) (hmax : (0xFF800000#32 : BitVec 32) = FKind.maximumf.neutral .f32 hφ)
    (hadd : (0x00000000#32 : BitVec 32) = FKind.add.neutral .f32 hφ) (p : Fin n) (a : Fin A) :
    k0_softmaxRows v hr hc hb hφ hmax hadd (ix2 p a) = softmax (fun a => v (ix2 p a)) a := by
  show Ideal.div (k0_expRows v hr hc hb hφ hmax (ix2 p a))
    (broadcastTo ⟨2, ![n, A]⟩ (shapeCast ⟨2, ![n, 1]⟩
      (multiReduction (F := Ideal) .add [1] ⟨1, ![n]⟩ (k0_expRows v hr hc hb hφ hmax) 0x00000000#32 hr hφ hadd) hc) hb
      (ix2 p a)) = _
  rw [k0_keepdims_apply, k0_rowSum_apply, k0_expRows_apply]
  simp only [k0_expRows_apply]
  rfl

end Softmax

/-! ## The node-prompt body -/

/-- f32 is a format the row reductions are taken at, and the two accumulators are the reductions' neutral patterns. -/
theorem k0_formats : FKind.Formats .f32 := .inl rfl
theorem k0_negInf_neutral : (0xFF800000#32 : BitVec 32) = FKind.maximumf.neutral .f32 k0_formats := rfl
theorem k0_zero_neutral : (0x00000000#32 : BitVec 32) = FKind.add.neutral .f32 k0_formats := rfl

/-- The logits of the node prompt, as the body writes them: the product with the weights plus the bias row laid along
    the rows. -/
def k0_logits (x0 : Vec Ideal S5000x128 .f32) (x1 : Vec Ideal S128x5 .f32) (x2 : Vec Ideal S1x5 .f32) : FVec Ideal S5000x5 .f32 :=
  addf (matmul (F := Ideal) (φ₁ := .f32) (φ₂ := .f32) dot_S5000x128_S128x5_S5000x5_1_0_0_1_n_n none x0 x1 (constant (F := Ideal) S5000x5 .f32 0x00000000#32))
    (broadcastTo S5000x5 (shapeCast S1x5 x2 shapeCasts_S1x5_S1x5) broadcasts_S1x5_S5000x5)

/-- At `(p, a)`: row `p` of the x block against column `a` of the weights, plus the bias at `a`. -/
theorem k0_logits_apply (x0 : Vec Ideal S5000x128 .f32) (x1 : Vec Ideal S128x5 .f32) (x2 : Vec Ideal S1x5 .f32)
    (p : Fin 5000) (a : Fin 5) :
    k0_logits x0 x1 x2 (ix2 p a) = (∑ k : Fin 128, x0 (ix2 p k) * x1 (ix2 k a)) + x2 (ix2 0 a) := by
  show matmul (F := Ideal) (φ₁ := .f32) (φ₂ := .f32) dot_S5000x128_S128x5_S5000x5_1_0_0_1_n_n none x0 x1 (constant (F := Ideal) S5000x5 .f32 0x00000000#32) (ix2 p a)
    + broadcastTo S5000x5 (shapeCast S1x5 x2 shapeCasts_S1x5_S1x5) broadcasts_S1x5_S5000x5 (ix2 p a) = _
  rw [k0_matmul_plain_zero_apply _ k0_dot1_eq, shapeCast_self, broadcastTo_1b_ab_apply]

/-- The body's stored value is the x block plus the product of the softmax of the logits with the anchors. -/
theorem k0_pay_eq (x0 : Vec Ideal S5000x128 .f32) (x1 : Vec Ideal S128x5 .f32) (x2 : Vec Ideal S1x5 .f32) (x3 : Vec Ideal S5x128 .f32) :
    k0_pay1 (F := Ideal) x0 x1 x2 x3
      = addf x0 (matmul (F := Ideal) (φ₁ := .f32) (φ₂ := .f32) dot_S5000x5_S5x128_S5000x128_1_0_0_1_n_n none
          (k0_softmaxRows (k0_logits x0 x1 x2) reduces_S5000x5_S5000 shapeCasts_S5000_S5000x1 broadcasts_S5000x1_S5000x5
            k0_formats k0_negInf_neutral k0_zero_neutral)
          x3 (constant (F := Ideal) S5000x128 .f32 0x00000000#32)) := rfl

/-- What the node-prompt body stores at row p, column q of its block: the node-prompt row function of row p of the
    x block, the attention weights, the bias row and the anchors. -/
theorem pay0_apply (x0 : Vec Ideal S5000x128 .f32) (x1 : Vec Ideal S128x5 .f32) (x2 : Vec Ideal S1x5 .f32) (x3 : Vec Ideal S5x128 .f32)
    (p : Fin 5000) (q : Fin 128) :
    k0_pay1 (F := Ideal) x0 x1 x2 x3 (ix2 p q)
      = npRow (fun k => x0 (ix2 p k)) (fun k a => x1 (ix2 k a)) (fun a => x2 (ix2 0 a)) (fun a d => x3 (ix2 a d)) q := by
  rw [k0_pay_eq]
  show x0 (ix2 p q) + matmul (F := Ideal) (φ₁ := .f32) (φ₂ := .f32) dot_S5000x5_S5x128_S5000x128_1_0_0_1_n_n none
          (k0_softmaxRows (k0_logits x0 x1 x2) reduces_S5000x5_S5000 shapeCasts_S5000_S5000x1 broadcasts_S5000x1_S5000x5
            k0_formats k0_negInf_neutral k0_zero_neutral)
          x3 (constant (F := Ideal) S5000x128 .f32 0x00000000#32) (ix2 p q) = _
  rw [k0_matmul_plain_zero_apply _ k0_dot2_eq]
  simp only [k0_softmaxRows_apply, k0_logits_apply]
  rfl

end Cert.KernelIdeal.Pay

end
-- ==== Proof.KReg0.lean ====
import proofs.«175747_j34248069218340_1_alg».proof.Proof.Gen.KernelIdeal.Frame
import proofs.«175747_j34248069218340_1_alg».proof.Proof.KPay0
import Idealize.ShloMosaic.Lib.Pipeline.Value

set_option maxRecDepth 16384

noncomputable section

namespace Cert.KernelIdeal.Reg

open Cert.KernelIdeal Cert.KernelIdeal.Gen Cert.Rows Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as the constant function. -/
theorem np_origin : (![0, 0] : Fin 2 → Nat) = fun _ => 0 := funext fun a => by fin_cases a <;> rfl

/-- The block indices of region 0's windows at grid point t: the row array and the output move by t along the rows
    and stay at column block 0; the weights, the bias row and the anchors stay at block (0, 0). -/
theorem np_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of block t is row 5000 t + p of the 50000. -/
theorem np_row_lt (t : Fin cfg0.N) (p : Fin 5000) : 5000 * t.val + p.val < 50000 := by
  have hN : grid0.N = 10 := N_0
  have ht : t.val < grid0.N := t.isLt
  have hp : p.val < 5000 := p.isLt
  omega

/-- The x block at point t, row p, is row 5000 t + p of the x array. -/
theorem np_x_block (c : Dev nD) (t : Fin cfg0.N) (p : Fin 5000) (k : Fin 128) :
    iblk0 (F := Ideal) V c 0 t (ix2 p k) = V c main_arg0 (ix2 (⟨5000 * t.val + p.val, np_row_lt t p⟩ : Fin 50000) k) := by
  obtain ⟨e0, e1, -⟩ := np_index_facts t
  unfold iblk0
  show V c main_arg0 (((cfg0.win 0).blk t).view.emb (ix2 p k)) = _
  congr 1
  funext a
  apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- The weight block at any point is the weight array. -/
theorem np_W_block (c : Dev nD) (t : Fin cfg0.N) (k : Fin 128) (a : Fin 5) :
    iblk0 (F := Ideal) V c 1 t (ix2 k a) = V c main_arg2 (ix2 k a) := by
  obtain ⟨-, -, e0, e1, -⟩ := np_index_facts t
  unfold iblk0
  show V c main_arg2 (((cfg0.win 1).blk t).view.emb (ix2 k a)) = _
  congr 1
  funext x
  apply Fin.ext
  match x with
  | ⟨0, _⟩ => show win0_1.index t (0 : Fin 2) * 128 + 1 * k.val = k.val; omega
  | ⟨1, _⟩ => show win0_1.index t (1 : Fin 2) * 5 + 1 * a.val = a.val; omega

/-- The bias block at any point is the bias row. -/
theorem np_b_block (c : Dev nD) (t : Fin cfg0.N) (a : Fin 5) :
    iblk0 (F := Ideal) V c 2 t (ix2 0 a) = V c main_v4 (ix2 0 a) := by
  obtain ⟨-, -, -, -, e0, e1, -⟩ := np_index_facts t
  unfold iblk0
  show V c main_v4 (((cfg0.win 2).blk t).view.emb (ix2 0 a)) = _
  congr 1
  funext x
  apply Fin.ext
  match x with
  | ⟨0, _⟩ => show win0_2.index t (0 : Fin 2) * 1 + 1 * 0 = 0; omega
  | ⟨1, _⟩ => show win0_2.index t (1 : Fin 2) * 5 + 1 * a.val = a.val; omega

/-- The anchor block at any point is the anchor array. -/
theorem np_An_block (c : Dev nD) (t : Fin cfg0.N) (a : Fin 5) (d : Fin 128) :
    iblk0 (F := Ideal) V c 3 t (ix2 a d) = V c main_arg1 (ix2 a d) := by
  obtain ⟨-, -, -, -, -, -, e0, e1, -⟩ := np_index_facts t
  unfold iblk0
  show V c main_arg1 (((cfg0.win 3).blk t).view.emb (ix2 a d)) = _
  congr 1
  funext x
  apply Fin.ext
  match x with
  | ⟨0, _⟩ => show win0_3.index t (0 : Fin 2) * 5 + 1 * a.val = a.val; omega
  | ⟨1, _⟩ => show win0_3.index t (1 : Fin 2) * 128 + 1 * d.val = d.val; omega

/-- Element (p, q) of the output block at point t sits at row 5000 t + p, column q of the output array. -/
theorem np_out_emb (t : Fin cfg0.N) (p : Fin 5000) (q : Fin 128) :
    ((cfg0.win 4).blk t).view.emb (ix2 p q) = ix2 (⟨5000 * t.val + p.val, np_row_lt t p⟩ : Fin 50000) q := by
  obtain ⟨-, -, -, -, -, -, -, -, e0, e1⟩ := np_index_facts t
  funext a
  apply Fin.ext
  match a with
  | ⟨0, _⟩ => show win0_4.index t (0 : Fin 2) * 5000 + 1 * p.val = 5000 * t.val + p.val; omega
  | ⟨1, _⟩ => show win0_4.index t (1 : Fin 2) * 128 + 1 * q.val = q.val; omega

/-- What grid point t writes back is block t of the node prompt of the arrays the region found at entry: the body's
    payload at (p, q) is the node-prompt row function of row p of the x block, and the x block's row p is the x
    array's row 5000 t + p, the small operands being read whole. -/
theorem np_flushed (c : Dev nD) (t : Fin cfg0.N) :
    (dat0 (F := Ideal) V c).flushed 4 t
      = ((cfg0.win 4).blk t).view.read (Elt Ideal)
          (NP (N := 50000) (V c main_arg0) (fun k a => V c main_arg2 (ix2 k a)) (fun a => V c main_v4 (ix2 0 a))
            (fun a d => V c main_arg1 (ix2 a d))) := by
  show (cfg0.win 4).cut (grid0.coords t) ((dat0 (F := Ideal) V c).after 4 t) = _
  rw [after0_4]
  unfold out0_4
  rw [View.canon_unit_zero np_origin]
  simp only [View.ld_unit_zero (S := S5000x128) np_origin, View.ld_unit_zero (S := S128x5) np_origin,
    View.ld_unit_zero (S := S1x5) np_origin, View.ld_unit_zero (S := S5x128) np_origin]
  refine funext fun (j : S5000x128.Idx) => ?_
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (ix2 p q)
    = NP (N := 50000) (V c main_arg0) (fun k a => V c main_arg2 (ix2 k a)) (fun a => V c main_v4 (ix2 0 a))
        (fun a d => V c main_arg1 (ix2 a d)) (((cfg0.win 4).blk t).view.emb (ix2 p q))
  rw [np_out_emb t p q]
  refine (Pay.pay0_apply (iblk0 V c 0 t) (iblk0 V c 1 t) (iblk0 V c 2 t) (iblk0 V c 3 t) p q).trans ?_
  show npRow _ _ _ _ q = npRow _ _ _ _ q
  congr 1
  · funext k; exact np_x_block V c t p k
  · funext k a; exact np_W_block V c t k a
  · funext a; exact np_b_block V c t a
  · funext a d; exact np_An_block V c t a d

/-- An index of the output array is in point t's block iff each coordinate is in the block's range on its axis. -/
theorem np_mem_blk (t : Fin cfg0.N) (i : S50000x128.Idx) :
    i ∈ ((cfg0.win 4).blk t).view.set
      ↔ ∀ a : Fin 2, win0_4.index t a * S5000x128.size a ≤ (i a).val
          ∧ (i a).val < win0_4.index t a * S5000x128.size a + S5000x128.size a := by
  show i ∈ ((View.whole main_v5).slice (win0_4.rect t)).set ↔ _
  rw [View.set_slice_whole, Rect.mem_set_unit]
  exact Iff.rfl

/-- Every element of the output array is written back by some point: row r by point r / 5000. -/
theorem np_cover (i : S50000x128.Idx) :
    ∃ t : Fin cfg0.N, (cfg0.win 4).flush t = true ∧ i ∈ ((cfg0.win 4).blk t).view.set := by
  have hN : grid0.N = 10 := N_0
  have h0 : (i 0).val < 50000 := (i 0).isLt
  have h1 : (i 1).val < 128 := (i 1).isLt
  have ht : (i 0).val / 5000 < grid0.N := by omega
  refine ⟨⟨(i 0).val / 5000, ht⟩, flush0_4 _, ?_⟩
  rw [np_mem_blk]
  obtain ⟨-, -, -, -, -, -, -, -, e0, e1⟩ := np_index_facts ⟨(i 0).val / 5000, ht⟩
  have e0' : win0_4.index ⟨(i 0).val / 5000, ht⟩ (0 : Fin 2) = (i 0).val / 5000 := e0
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    omega

/-- Region 0's output array when the region ends: the node prompt of the arrays the region found at entry — every
    grid point writes the block of 5000 rows it owns, the ten blocks cover the 50000 rows. -/
theorem final0 (c : Dev nD) :
    (dat0 (F := Ideal) V c).arrAt 4 cfg0.N
      = NP (N := 50000) (V c main_arg0) (fun k a => V c main_arg2 (ix2 k a)) (fun a => V c main_v4 (ix2 0 a))
          (fun a d => V c main_arg1 (ix2 a d)) :=
  (dat0 (F := Ideal) V c).arrAt_eq_of_cover 4 _ (fun t _ => np_flushed V c t) np_cover

end Cert.KernelIdeal.Reg

end
-- ==== Proof.KPay1.lean ====
import proofs.«175747_j34248069218340_1_alg».proof.Proof.Gen.KernelIdeal.Skeleton
import proofs.«175747_j34248069218340_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen Cert.Rows

/-! ### The two kinds of product: operand indices, axis by axis -/

private theorem lhsA_0 (p : Fin 10000) (a : Fin 5) (k : dot_S10000x128_S128x5_S10000x5_1_0_0_1_n_n.contr.Idx) :
    ((dot_S10000x128_S128x5_S10000x5_1_0_0_1_n_n.lhsIdx (ix2 p a) k 0 : Fin _) : ℕ) = p.val := by
  simp [DotDims.lhsIdx, dot_S10000x128_S128x5_S10000x5_1_0_0_1_n_n]; rfl

private theorem lhsA_1 (p : Fin 10000) (a : Fin 5) (k : dot_S10000x128_S128x5_S10000x5_1_0_0_1_n_n.contr.Idx) :
    ((dot_S10000x128_S128x5_S10000x5_1_0_0_1_n_n.lhsIdx (ix2 p a) k 1 : Fin _) : ℕ) = (k ⟨0, by decide⟩).val :=
  DotDims.lhsIdx_val_of_single (d := dot_S10000x128_S128x5_S10000x5_1_0_0_1_n_n) (cl := 1) rfl (ix2 p a) k

private theorem rhsA_0 (p : Fin 10000) (a : Fin 5) (k : dot_S10000x128_S128x5_S10000x5_1_0_0_1_n_n.contr.Idx) :
    ((dot_S10000x128_S128x5_S10000x5_1_0_0_1_n_n.rhsIdx (ix2 p a) k 0 : Fin _) : ℕ) = (k ⟨0, by decide⟩).val :=
  DotDims.rhsIdx_val_of_single (d := dot_S10000x128_S128x5_S10000x5_1_0_0_1_n_n) (cr := 0) rfl (ix2 p a) k

private theorem rhsA_1 (p : Fin 10000) (a : Fin 5) (k : dot_S10000x128_S128x5_S10000x5_1_0_0_1_n_n.contr.Idx) :
    ((dot_S10000x128_S128x5_S10000x5_1_0_0_1_n_n.rhsIdx (ix2 p a) k 1 : Fin _) : ℕ) = a.val := by
  simp [DotDims.rhsIdx, dot_S10000x128_S128x5_S10000x5_1_0_0_1_n_n]; rfl

/-- A 10000x128 by 128x5 product into the zero splat, at row p and column a: the sum over the 128 contracted
    coordinates of the products of the entries. -/
private theorem matmulA_apply (X : FVec Ideal S10000x128 .f32) (W : FVec Ideal S128x5 .f32) (p : Fin 10000) (a : Fin 5) :
    matmul (F := Ideal) dot_S10000x128_S128x5_S10000x5_1_0_0_1_n_n none X W (constant (F := Ideal) S10000x5 .f32 0x00000000#32) (ix2 p a)
      = ∑ k : Fin 128, X (ix2 p k) * W (ix2 k a) := by
  show FloatOps.matmul _ none X W _ (ix2 p a) = _
  rw [Ideal.matmul_constant_zero_apply,
    ← Equiv.sum_comp (contrEquiv1 dot_S10000x128_S128x5_S10000x5_1_0_0_1_n_n 128 rfl rfl).symm]
  refine Finset.sum_congr rfl fun c _ => ?_
  have hc := contrEquiv1_symm_val dot_S10000x128_S128x5_S10000x5_1_0_0_1_n_n 128 rfl rfl c
  have hl : dot_S10000x128_S128x5_S10000x5_1_0_0_1_n_n.lhsIdx (ix2 p a)
      ((contrEquiv1 dot_S10000x128_S128x5_S10000x5_1_0_0_1_n_n 128 rfl rfl).symm c) = ix2 p c := by
    funext ax; apply Fin.ext
    match ax with
    | ⟨0, _⟩ => exact lhsA_0 _ _ _
    | ⟨1, _⟩ => exact (lhsA_1 _ _ _).trans hc
  have hr : dot_S10000x128_S128x5_S10000x5_1_0_0_1_n_n.rhsIdx (ix2 p a)
      ((contrEquiv1 dot_S10000x128_S128x5_S10000x5_1_0_0_1_n_n 128 rfl rfl).symm c) = ix2 c a := by
    funext ax; apply Fin.ext
    match ax with
    | ⟨0, _⟩ => exact (rhsA_0 _ _ _).trans hc
    | ⟨1, _⟩ => exact rhsA_1 _ _ _
  rw [hl, hr]

private theorem lhsB_0 (p : Fin 10000) (q : Fin 128) (k : dot_S10000x5_S5x128_S10000x128_1_0_0_1_n_n.contr.Idx) :
    ((dot_S10000x5_S5x128_S10000x128_1_0_0_1_n_n.lhsIdx (ix2 p q) k 0 : Fin _) : ℕ) = p.val := by
  simp [DotDims.lhsIdx, dot_S10000x5_S5x128_S10000x128_1_0_0_1_n_n]; rfl

private theorem lhsB_1 (p : Fin 10000) (q : Fin 128) (k : dot_S10000x5_S5x128_S10000x128_1_0_0_1_n_n.contr.Idx) :
    ((dot_S10000x5_S5x128_S10000x128_1_0_0_1_n_n.lhsIdx (ix2 p q) k 1 : Fin _) : ℕ) = (k ⟨0, by decide⟩).val :=
  DotDims.lhsIdx_val_of_single (d := dot_S10000x5_S5x128_S10000x128_1_0_0_1_n_n) (cl := 1) rfl (ix2 p q) k

private theorem rhsB_0 (p : Fin 10000) (q : Fin 128) (k : dot_S10000x5_S5x128_S10000x128_1_0_0_1_n_n.contr.Idx) :
    ((dot_S10000x5_S5x128_S10000x128_1_0_0_1_n_n.rhsIdx (ix2 p q) k 0 : Fin _) : ℕ) = (k ⟨0, by decide⟩).val :=
  DotDims.rhsIdx_val_of_single (d := dot_S10000x5_S5x128_S10000x128_1_0_0_1_n_n) (cr := 0) rfl (ix2 p q) k

private theorem rhsB_1 (p : Fin 10000) (q : Fin 128) (k : dot_S10000x5_S5x128_S10000x128_1_0_0_1_n_n.contr.Idx) :
    ((dot_S10000x5_S5x128_S10000x128_1_0_0_1_n_n.rhsIdx (ix2 p q) k 1 : Fin _) : ℕ) = q.val := by
  simp [DotDims.rhsIdx, dot_S10000x5_S5x128_S10000x128_1_0_0_1_n_n]; rfl

/-- A 10000x5 by 5x128 product into the zero splat, at row p and column q: the sum over the 5 contracted
    coordinates of the products of the entries. -/
private theorem matmulB_apply (G : FVec Ideal S10000x5 .f32) (An : FVec Ideal S5x128 .f32) (p : Fin 10000) (q : Fin 128) :
    matmul (F := Ideal) dot_S10000x5_S5x128_S10000x128_1_0_0_1_n_n none G An (constant (F := Ideal) S10000x128 .f32 0x00000000#32) (ix2 p q)
      = ∑ a : Fin 5, G (ix2 p a) * An (ix2 a q) := by
  show FloatOps.matmul _ none G An _ (ix2 p q) = _
  rw [Ideal.matmul_constant_zero_apply,
    ← Equiv.sum_comp (contrEquiv1 dot_S10000x5_S5x128_S10000x128_1_0_0_1_n_n 5 rfl rfl).symm]
  refine Finset.sum_congr rfl fun c _ => ?_
  have hc := contrEquiv1_symm_val dot_S10000x5_S5x128_S10000x128_1_0_0_1_n_n 5 rfl rfl c
  have hl : dot_S10000x5_S5x128_S10000x128_1_0_0_1_n_n.lhsIdx (ix2 p q)
      ((contrEquiv1 dot_S10000x5_S5x128_S10000x128_1_0_0_1_n_n 5 rfl rfl).symm c) = ix2 p c := by
    funext ax; apply Fin.ext
    match ax with
    | ⟨0, _⟩ => exact lhsB_0 _ _ _
    | ⟨1, _⟩ => exact (lhsB_1 _ _ _).trans hc
  have hr : dot_S10000x5_S5x128_S10000x128_1_0_0_1_n_n.rhsIdx (ix2 p q)
      ((contrEquiv1 dot_S10000x5_S5x128_S10000x128_1_0_0_1_n_n 5 rfl rfl).symm c) = ix2 c q := by
    funext ax; apply Fin.ext
    match ax with
    | ⟨0, _⟩ => exact (rhsB_0 _ _ _).trans hc
    | ⟨1, _⟩ => exact rhsB_1 _ _ _
  rw [hl, hr]

/-! ### Layout: a column kept as a unit axis, and its broadcast along the rows -/

/-- An [a] array cast to [a, 1] reads, at (i, u), the operand at i. -/
private theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one entry of row p. -/
private theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over row p of a 10000x5 array, the index with column a put back on the reduced axis is (p, a). -/
private theorem lift_row (h : S10000x5.Reduces [1] S10000) (p : Fin 10000) (a : Fin 5) :
    h.lift (ix1 p) a = ix2 p a := by
  funext ax; apply Fin.ext
  match ax with
  | ⟨0, _⟩ => rfl
  | ⟨1, _⟩ => rfl

/-! ### The body's arithmetic as named stages -/

/-- The logits array: the two products added, plus the bias row on every row. -/
private def logitsK (x0 x1 : FVec Ideal S10000x128 .f32) (x2 x3 : FVec Ideal S128x5 .f32) (x4 : FVec Ideal S1x5 .f32) :
    FVec Ideal S10000x5 .f32 :=
  addf
    (addf
      (matmul dot_S10000x128_S128x5_S10000x5_1_0_0_1_n_n none
        (shapeCast S10000x128 x0 shapeCasts_S10000x128_S10000x128) (shapeCast S128x5 x2 shapeCasts_S128x5_S128x5)
        (constant S10000x5 .f32 0x00000000#32))
      (matmul dot_S10000x128_S128x5_S10000x5_1_0_0_1_n_n none
        (shapeCast S10000x128 x1 shapeCasts_S10000x128_S10000x128) (shapeCast S128x5 x3 shapeCasts_S128x5_S128x5)
        (constant S10000x5 .f32 0x00000000#32)))
    (broadcastTo S10000x5 (shapeCast S1x5 x4 shapeCasts_S1x5_S1x5) broadcasts_S1x5_S10000x5)

/-- The leaky rectifier on every entry. -/
private def leakyK (z : FVec Ideal S10000x5 .f32) : FVec Ideal S10000x5 .f32 :=
  select (cmpf .oge z (broadcast S10000x5 (Scalar.ofBits .f32 0x00000000#32))) z
    (mulf (broadcast S10000x5 (Scalar.ofBits .f32 0x3C23D70A#32)) z)

/-- Each row's maximum from -∞, joined once more with -∞. -/
private def rowMaxK (z : FVec Ideal S10000x5 .f32) : FVec Ideal S10000 .f32 :=
  maximumf (broadcast S10000 (Scalar.ofBits .f32 0xFF800000#32))
    (multiReduction .maximumf [1] S10000 z 0xFF800000#32 reduces_S10000x5_S10000 (.inl rfl) rfl)

/-- The shifted exponentials. -/
private def expK (z : FVec Ideal S10000x5 .f32) : FVec Ideal S10000x5 .f32 :=
  exp (subf z (broadcastTo S10000x5 (shapeCast S10000x1 (rowMaxK z) shapeCasts_S10000_S10000x1) broadcasts_S10000x1_S10000x5))

/-- Each row's sum of shifted exponentials. -/
private def sumK (z : FVec Ideal S10000x5 .f32) : FVec Ideal S10000 .f32 :=
  multiReduction .add [1] S10000 (expK z) 0x00000000#32 reduces_S10000x5_S10000 (.inl rfl) rfl

/-- The softmax weights. -/
private def softmaxK (z : FVec Ideal S10000x5 .f32) : FVec Ideal S10000x5 .f32 :=
  divf (expK z) (broadcastTo S10000x5 (shapeCast S10000x1 (sumK z) shapeCasts_S10000_S10000x1) broadcasts_S10000x1_S10000x5)

/-- The stored value is the weights times the anchors, the weights the softmax of the rectified logits. -/
private theorem k1_pay1_eq (x0 x1 : Vec Ideal S10000x128 .f32) (x2 x3 : Vec Ideal S128x5 .f32) (x4 : Vec Ideal S1x5 .f32)
    (x5 : Vec Ideal S5x128 .f32) :
    k1_pay1 (F := Ideal) x0 x1 x2 x3 x4 x5
      = matmul (φ₂ := .f32) dot_S10000x5_S5x128_S10000x128_1_0_0_1_n_n none (softmaxK (leakyK (logitsK x0 x1 x2 x3 x4))) x5
          (constant S10000x128 .f32 0x00000000#32) := rfl

/-! ### Each stage read at an index -/

/-- The logits at row p, column a. -/
private theorem logitsK_apply (x0 x1 : FVec Ideal S10000x128 .f32) (x2 x3 : FVec Ideal S128x5 .f32) (x4 : FVec Ideal S1x5 .f32)
    (p : Fin 10000) (a : Fin 5) :
    logitsK x0 x1 x2 x3 x4 (ix2 p a)
      = ((∑ k : Fin 128, x0 (ix2 p k) * x2 (ix2 k a)) + ∑ k : Fin 128, x1 (ix2 p k) * x3 (ix2 k a)) + x4 (ix2 0 a) := by
  unfold logitsK
  rw [shapeCast_self, shapeCast_self, shapeCast_self, shapeCast_self, shapeCast_self]
  rw [addf_apply, addf_apply, matmulA_apply, matmulA_apply, broadcastTo_1b_ab_apply]

/-- The rectified array at an index is the leaky rectifier of the entry. -/
private theorem leakyK_apply (z : FVec Ideal S10000x5 .f32) (i : S10000x5.Idx) : leakyK z i = lrelu (z i) := rfl

/-- The row maximum at row p. -/
private theorem rowMaxK_apply (z : FVec Ideal S10000x5 .f32) (p : Fin 10000) :
    rowMaxK z (ix1 p) = rowMax (fun a : Fin 5 => z (ix2 p a)) := by
  unfold rowMaxK rowMax
  show max (Ideal.ofBits .f32 0xFF800000#32)
    (multiReduction (F := Ideal) .maximumf [1] S10000 z 0xFF800000#32 reduces_S10000x5_S10000 (.inl rfl) rfl (ix1 p)) = _
  refine congrArg (max _) ?_
  refine (Ideal.multiReduction_maximumf_single z 0xFF800000#32 reduces_S10000x5_S10000 (.inl rfl) rfl (ix1 p)).trans ?_
  have hz : (z ∘ reduces_S10000x5_S10000.lift (ix1 p)) = fun a : Fin 5 => z (ix2 p a) :=
    funext fun a => congrArg z (lift_row _ p a)
  exact congrArg (fun f : Fin 5 → EReal => (Finset.univ : Finset (Fin 5)).fold max negInf f) hz

/-- The shifted exponential at row p, column a. -/
private theorem expK_apply (z : FVec Ideal S10000x5 .f32) (p : Fin 10000) (a : Fin 5) :
    expK z (ix2 p a) = rowExp (fun a : Fin 5 => z (ix2 p a)) a := by
  unfold expK rowExp
  show Ideal.exp (z (ix2 p a)
    - broadcastTo S10000x5 (shapeCast S10000x1 (rowMaxK z) shapeCasts_S10000_S10000x1) broadcasts_S10000x1_S10000x5 (ix2 p a)) = _
  rw [broadcastTo_col_apply, shapeCast_col_apply, rowMaxK_apply]

/-- The row sum of shifted exponentials at row p. -/
private theorem sumK_apply (z : FVec Ideal S10000x5 .f32) (p : Fin 10000) :
    sumK z (ix1 p) = ∑ a : Fin 5, rowExp (fun a : Fin 5 => z (ix2 p a)) a := by
  unfold sumK
  refine (Ideal.multiReduction_add_single (expK z) 0x00000000#32 reduces_S10000x5_S10000 (.inl rfl) rfl (ix1 p)).trans ?_
  show ∑ a : Fin 5, expK z (reduces_S10000x5_S10000.lift (ix1 p) a) = _
  refine Finset.sum_congr rfl fun a _ => ?_
  rw [lift_row, expK_apply]

/-- The softmax weight at row p, column a. -/
private theorem softmaxK_apply (z : FVec Ideal S10000x5 .f32) (p : Fin 10000) (a : Fin 5) :
    softmaxK z (ix2 p a) = softmax (fun a : Fin 5 => z (ix2 p a)) a := by
  unfold softmaxK softmax
  show Ideal.div (expK z (ix2 p a))
    (broadcastTo S10000x5 (shapeCast S10000x1 (sumK z) shapeCasts_S10000_S10000x1) broadcasts_S10000x1_S10000x5 (ix2 p a)) = _
  rw [broadcastTo_col_apply, shapeCast_col_apply, sumK_apply, expK_apply]

/-- What the edge-prompt body stores at row p, column q of its block: the edge-prompt row function of row p of the
    two endpoint blocks, the two weight halves, the bias row and the anchors. -/
theorem pay1_apply (x0 x1 : Vec Ideal S10000x128 .f32) (x2 x3 : Vec Ideal S128x5 .f32) (x4 : Vec Ideal S1x5 .f32) (x5 : Vec Ideal S5x128 .f32)
    (p : Fin 10000) (q : Fin 128) :
    k1_pay1 (F := Ideal) x0 x1 x2 x3 x4 x5 (ix2 p q)
      = epRow (fun k => x0 (ix2 p k)) (fun k => x1 (ix2 p k)) (fun k a => x2 (ix2 k a)) (fun k a => x3 (ix2 k a))
          (fun a => x4 (ix2 0 a)) (fun a d => x5 (ix2 a d)) q := by
  rw [k1_pay1_eq, matmulB_apply]
  unfold epRow
  have hL : (fun a : Fin 5 => leakyK (logitsK x0 x1 x2 x3 x4) (ix2 p a))
      = fun a : Fin 5 => lrelu (((∑ k : Fin 128, x0 (ix2 p k) * x2 (ix2 k a)) + ∑ k : Fin 128, x1 (ix2 p k) * x3 (ix2 k a)) + x4 (ix2 0 a)) :=
    funext fun a => by rw [leakyK_apply, logitsK_apply]
  refine Finset.sum_congr rfl fun a _ => ?_
  rw [softmaxK_apply, hL]

end Cert.KernelIdeal.Pay

end
-- ==== Proof.KReg1.lean ====
import proofs.«175747_j34248069218340_1_alg».proof.Proof.Gen.KernelIdeal.Frame
import proofs.«175747_j34248069218340_1_alg».proof.Proof.KPay1
import Idealize.ShloMosaic.Lib.Pipeline.Value

set_option maxRecDepth 16384

noncomputable section

namespace Cert.KernelIdeal.Reg

open Cert.KernelIdeal Cert.KernelIdeal.Gen Cert.Rows Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The origin of a rank-2 rectangle, however its zeros are spelt. -/
theorem ep_origin_zero : (![0, 0] : Fin 2 → Nat) = fun _ => 0 := funext fun a => by fin_cases a <;> rfl

/-- The printed index maps, decided over the grid of 64 points: the two endpoint arrays and the output move down
    one block of rows per point and stay in column block 0; the weight matrices, the bias and the anchors sit at
    block (0, 0) throughout. -/
theorem ep_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the source-endpoint block at point t is row 10000 t + p of the source-endpoint array. -/
theorem ep_src_block (c : Dev nD) (t : Fin cfg1.N) (p : Fin 10000) (k : Fin 128) (h : 10000 * t.val + p.val < 640000) :
    iblk1 (F := Ideal) V c 0 t (ix2 p k) = V c main_v12 (ix2 ⟨10000 * t.val + p.val, h⟩ k) := by
  unfold iblk1
  show V c main_v12 (((cfg1.win 0).blk t).view.emb (ix2 p k)) = _
  refine congrArg _ ?_
  funext a
  apply Fin.ext
  obtain ⟨e0, e1, -⟩ := ep_index_facts t
  match a with
  | ⟨0, _⟩ => show win1_0.index t (0 : Fin 2) * 10000 + 1 * p.val = 10000 * t.val + p.val; omega
  | ⟨1, _⟩ => show win1_0.index t (1 : Fin 2) * 128 + 1 * k.val = k.val; omega

/-- Row p of the destination-endpoint block at point t is row 10000 t + p of the destination-endpoint array. -/
theorem ep_dst_block (c : Dev nD) (t : Fin cfg1.N) (p : Fin 10000) (k : Fin 128) (h : 10000 * t.val + p.val < 640000) :
    iblk1 (F := Ideal) V c 1 t (ix2 p k) = V c main_v19 (ix2 ⟨10000 * t.val + p.val, h⟩ k) := by
  unfold iblk1
  show V c main_v19 (((cfg1.win 1).blk t).view.emb (ix2 p k)) = _
  refine congrArg _ ?_
  funext a
  apply Fin.ext
  obtain ⟨-, -, e0, e1, -⟩ := ep_index_facts t
  match a with
  | ⟨0, _⟩ => show win1_1.index t (0 : Fin 2) * 10000 + 1 * p.val = 10000 * t.val + p.val; omega
  | ⟨1, _⟩ => show win1_1.index t (1 : Fin 2) * 128 + 1 * k.val = k.val; omega

/-- The source half of the weight matrix is one block, the whole matrix, at every point. -/
theorem ep_wsrc_block (c : Dev nD) (t : Fin cfg1.N) (k : Fin 128) (a : Fin 5) :
    iblk1 (F := Ideal) V c 2 t (ix2 k a) = V c main_v20 (ix2 k a) := by
  unfold iblk1
  show V c main_v20 (((cfg1.win 2).blk t).view.emb (ix2 k a)) = _
  refine congrArg _ ?_
  funext b
  apply Fin.ext
  obtain ⟨-, -, -, -, e0, e1, -⟩ := ep_index_facts t
  match b with
  | ⟨0, _⟩ => show win1_2.index t (0 : Fin 2) * 128 + 1 * k.val = k.val; omega
  | ⟨1, _⟩ => show win1_2.index t (1 : Fin 2) * 5 + 1 * a.val = a.val; omega

/-- The destination half of the weight matrix is one block, the whole matrix, at every point. -/
theorem ep_wdst_block (c : Dev nD) (t : Fin cfg1.N) (k : Fin 128) (a : Fin 5) :
    iblk1 (F := Ideal) V c 3 t (ix2 k a) = V c main_v21 (ix2 k a) := by
  unfold iblk1
  show V c main_v21 (((cfg1.win 3).blk t).view.emb (ix2 k a)) = _
  refine congrArg _ ?_
  funext b
  apply Fin.ext
  obtain ⟨-, -, -, -, -, -, e0, e1, -⟩ := ep_index_facts t
  match b with
  | ⟨0, _⟩ => show win1_3.index t (0 : Fin 2) * 128 + 1 * k.val = k.val; omega
  | ⟨1, _⟩ => show win1_3.index t (1 : Fin 2) * 5 + 1 * a.val = a.val; omega

/-- The bias row is one block, the whole row, at every point. -/
theorem ep_bias_block (c : Dev nD) (t : Fin cfg1.N) (a : Fin 5) :
    iblk1 (F := Ideal) V c 4 t (ix2 0 a) = V c main_v22 (ix2 0 a) := by
  unfold iblk1
  show V c main_v22 (((cfg1.win 4).blk t).view.emb (ix2 0 a)) = _
  refine congrArg _ ?_
  funext b
  apply Fin.ext
  obtain ⟨-, -, -, -, -, -, -, -, e0, e1, -⟩ := ep_index_facts t
  match b with
  | ⟨0, _⟩ => show win1_4.index t (0 : Fin 2) * 1 + 1 * 0 = 0; omega
  | ⟨1, _⟩ => show win1_4.index t (1 : Fin 2) * 5 + 1 * a.val = a.val; omega

/-- The anchors are one block, the whole matrix, at every point. -/
theorem ep_anchor_block (c : Dev nD) (t : Fin cfg1.N) (a : Fin 5) (d : Fin 128) :
    iblk1 (F := Ideal) V c 5 t (ix2 a d) = V c main_arg4 (ix2 a d) := by
  unfold iblk1
  show V c main_arg4 (((cfg1.win 5).blk t).view.emb (ix2 a d)) = _
  refine congrArg _ ?_
  funext b
  apply Fin.ext
  obtain ⟨-, -, -, -, -, -, -, -, -, -, e0, e1, -⟩ := ep_index_facts t
  match b with
  | ⟨0, _⟩ => show win1_5.index t (0 : Fin 2) * 5 + 1 * a.val = a.val; omega
  | ⟨1, _⟩ => show win1_5.index t (1 : Fin 2) * 128 + 1 * d.val = d.val; omega

/-- Entry (p, q) of the output block at point t is entry (10000 t + p, q) of the output array. -/
theorem ep_out_block_emb (t : Fin cfg1.N) (p : Fin 10000) (q : Fin 128) (h : 10000 * t.val + p.val < 640000) :
    ((cfg1.win 6).blk t).view.emb (ix2 p q) = ix2 ⟨10000 * t.val + p.val, h⟩ q := by
  funext a
  apply Fin.ext
  obtain ⟨-, -, -, -, -, -, -, -, -, -, -, -, e0, e1⟩ := ep_index_facts t
  match a with
  | ⟨0, _⟩ => show win1_6.index t (0 : Fin 2) * 10000 + 1 * p.val = 10000 * t.val + p.val; omega
  | ⟨1, _⟩ => show win1_6.index t (1 : Fin 2) * 128 + 1 * q.val = q.val; omega

/-- WHAT POINT t WRITES BACK: block t of the edge prompt of the arrays the region found at entry. -/
theorem ep_flushed_eq (c : Dev nD) (t : Fin cfg1.N) :
    (dat1 (F := Ideal) V c).flushed 6 t = ((cfg1.win 6).blk t).view.read (Elt Ideal)
      (EP (N := 640000) (V c main_v12) (V c main_v19) (fun k a => V c main_v20 (ix2 k a)) (fun k a => V c main_v21 (ix2 k a))
        (fun a => V c main_v22 (ix2 0 a)) (fun a d => V c main_arg4 (ix2 a d))) := by
  show (cfg1.win 6).cut (grid1.coords t) ((dat1 V c).after 6 t) = _
  rw [after1_6]
  unfold out1_6
  rw [View.canon_unit_zero ep_origin_zero]
  simp only [View.ld_unit_zero (S := S10000x128) ep_origin_zero, View.ld_unit_zero (S := S128x5) ep_origin_zero,
    View.ld_unit_zero (S := S1x5) ep_origin_zero, View.ld_unit_zero (S := S5x128) ep_origin_zero]
  funext j
  obtain ⟨p, q, rfl⟩ : ∃ (p : Fin 10000) (q : Fin 128), j = ix2 p q := ⟨j 0, j 1, eq_ix2 j⟩
  have ht : t.val < 64 := t.isLt
  have h : 10000 * t.val + p.val < 640000 := by have := p.isLt; omega
  show k1_pay1 (F := Ideal) (iblk1 V c 0 t) (iblk1 V c 1 t) (iblk1 V c 2 t) (iblk1 V c 3 t) (iblk1 V c 4 t) (iblk1 V c 5 t) (ix2 p q)
    = EP (N := 640000) (V c main_v12) (V c main_v19) (fun k a => V c main_v20 (ix2 k a)) (fun k a => V c main_v21 (ix2 k a))
        (fun a => V c main_v22 (ix2 0 a)) (fun a d => V c main_arg4 (ix2 a d)) (((cfg1.win 6).blk t).view.emb (ix2 p q))
  refine (Pay.pay1_apply (iblk1 V c 0 t) (iblk1 V c 1 t) (iblk1 V c 2 t) (iblk1 V c 3 t) (iblk1 V c 4 t) (iblk1 V c 5 t) p q).trans ?_
  rw [ep_out_block_emb t p q h]
  show epRow (fun k => iblk1 V c 0 t (ix2 p k)) (fun k => iblk1 V c 1 t (ix2 p k)) (fun k a => iblk1 V c 2 t (ix2 k a))
      (fun k a => iblk1 V c 3 t (ix2 k a)) (fun a => iblk1 V c 4 t (ix2 0 a)) (fun a d => iblk1 V c 5 t (ix2 a d)) q
    = epRow (fun k => V c main_v12 (ix2 ⟨10000 * t.val + p.val, h⟩ k)) (fun k => V c main_v19 (ix2 ⟨10000 * t.val + p.val, h⟩ k))
      (fun k a => V c main_v20 (ix2 k a)) (fun k a => V c main_v21 (ix2 k a)) (fun a => V c main_v22 (ix2 0 a))
      (fun a d => V c main_arg4 (ix2 a d)) q
  have h0 : (fun k => iblk1 (F := Ideal) V c 0 t (ix2 p k)) = fun k => V c main_v12 (ix2 ⟨10000 * t.val + p.val, h⟩ k) :=
    funext fun k => ep_src_block V c t p k h
  have h1 : (fun k => iblk1 (F := Ideal) V c 1 t (ix2 p k)) = fun k => V c main_v19 (ix2 ⟨10000 * t.val + p.val, h⟩ k) :=
    funext fun k => ep_dst_block V c t p k h
  have h2 : (fun (k : Fin 128) (a : Fin 5) => iblk1 (F := Ideal) V c 2 t (ix2 k a)) = fun k a => V c main_v20 (ix2 k a) :=
    funext fun k => funext fun a => ep_wsrc_block V c t k a
  have h3 : (fun (k : Fin 128) (a : Fin 5) => iblk1 (F := Ideal) V c 3 t (ix2 k a)) = fun k a => V c main_v21 (ix2 k a) :=
    funext fun k => funext fun a => ep_wdst_block V c t k a
  have h4 : (fun (a : Fin 5) => iblk1 (F := Ideal) V c 4 t (ix2 0 a)) = fun a => V c main_v22 (ix2 0 a) :=
    funext fun a => ep_bias_block V c t a
  have h5 : (fun (a : Fin 5) (d : Fin 128) => iblk1 (F := Ideal) V c 5 t (ix2 a d)) = fun a d => V c main_arg4 (ix2 a d) :=
    funext fun a => funext fun d => ep_anchor_block V c t a d
  rw [h0, h1, h2, h3, h4, h5]

/-- An index of the output array is in point t's block iff each coordinate is in the block's range on its axis. -/
theorem ep_mem_blk (t : Fin cfg1.N) (i : S640000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v23).slice (win1_6.rect t)).set ↔ _
  rw [View.set_slice_whole, Rect.mem_set_unit]
  exact Iff.rfl

/-- The sixty-four blocks cover the array: row r is in the block of point r / 10000. -/
theorem ep_cover (i : S640000x128.Idx) :
    ∃ t : Fin cfg1.N, (cfg1.win 6).flush t = true ∧ i ∈ ((cfg1.win 6).blk t).view.set := by
  have hi0 : (i 0).val < 640000 := (i 0).isLt
  have hi1 : (i 1).val < 128 := (i 1).isLt
  have hlt : (i 0).val / 10000 < 64 := by omega
  let t : Fin cfg1.N := ⟨(i 0).val / 10000, hlt⟩
  have htv : t.val = (i 0).val / 10000 := rfl
  refine ⟨t, flush1_6 t, ?_⟩
  rw [ep_mem_blk]
  obtain ⟨-, -, -, -, -, -, -, -, -, -, -, -, e0, e1⟩ := ep_index_facts t
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- Region 1's output array when the region ends: the edge prompt of the arrays the region found at entry — every
    grid point writes the block of 10000 rows it owns, the sixty-four blocks cover the 640000 rows. -/
theorem final1 (c : Dev nD) :
    (dat1 (F := Ideal) V c).arrAt 6 cfg1.N
      = EP (N := 640000) (V c main_v12) (V c main_v19) (fun k a => V c main_v20 (ix2 k a)) (fun k a => V c main_v21 (ix2 k a))
          (fun a => V c main_v22 (ix2 0 a)) (fun a d => V c main_arg4 (ix2 a d)) :=
  (dat1 (F := Ideal) V c).arrAt_eq_of_cover 6 _ (fun t _ => ep_flushed_eq V c t) ep_cover

end Cert.KernelIdeal.Reg

end
-- ==== Proof.KFoldA.lean ====
import proofs.«175747_j34248069218340_1_alg».proof.Proof.Gen.KernelIdeal.Frame
import proofs.«175747_j34248069218340_1_alg».proof.Proof.KDefs
import proofs.«175747_j34248069218340_1_alg».proof.Proof.KReg0
import proofs.«175747_j34248069218340_1_alg».proof.Proof.KReg1
import Idealize.ShloMosaic.Lib.Pipeline.Value
import Idealize.ShloMosaic.Lib.ValueLayout
import Idealize.ShloMosaic.Lib.StableHlo.Run

set_option maxRecDepth 16384

noncomputable section

namespace Cert.KernelIdeal.Fold

open Cert.KernelIdeal Cert.KernelIdeal.Gen Cert.Rows Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- A host stretch leaves a buffer none of its operations writes as it was. -/
local macro "fa_keep" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## What the host stretches write, over any contents they start from -/

theorem fa_h0_v1 (X : Valuation τ sig (Elt Ideal)) :
    StableHlo.after hostOps0 X (Proc.devRef .tc main_v1) = srcRow (X (Proc.devRef .tc main_arg9)) := by
  after_results <;> rfl
theorem fa_h0_v3 (X : Valuation τ sig (Elt Ideal)) :
    StableHlo.after hostOps0 X (Proc.devRef .tc main_v3) = dstRow (X (Proc.devRef .tc main_arg9)) := by
  after_results <;> rfl
theorem fa_h0_v4 (X : Valuation τ sig (Elt Ideal)) :
    StableHlo.after hostOps0 X (Proc.devRef .tc main_v4) = shapeCast S1x5 (X (Proc.devRef .tc main_arg3)) shapeCasts_S5_S1x5 := by
  after_results <;> rfl
theorem fa_h1_v12 (X : Valuation τ sig (Elt Ideal)) :
    StableHlo.after hostOps1 X (Proc.devRef .tc main_v12)
      = gatherRows (F := Ideal) (X (Proc.devRef .tc main_arg0)) (endIdx (X (Proc.devRef .tc main_v1))) := by
  after_results <;> rfl
theorem fa_h1_v19 (X : Valuation τ sig (Elt Ideal)) :
    StableHlo.after hostOps1 X (Proc.devRef .tc main_v19)
      = gatherRows (F := Ideal) (X (Proc.devRef .tc main_arg0)) (endIdx (X (Proc.devRef .tc main_v3))) := by
  after_results <;> rfl
theorem fa_h1_v20 (X : Valuation τ sig (Elt Ideal)) :
    StableHlo.after hostOps1 X (Proc.devRef .tc main_v20)
      = extractStridedSlice S128x5 ![0, 0] (X (Proc.devRef .tc main_arg5)) slices_S256x5_S128x5_0_0 := by
  after_results <;> rfl
theorem fa_h1_v21 (X : Valuation τ sig (Elt Ideal)) :
    StableHlo.after hostOps1 X (Proc.devRef .tc main_v21)
      = extractStridedSlice S128x5 ![128, 0] (X (Proc.devRef .tc main_arg5)) slices_S256x5_S128x5_128_0 := by
  after_results <;> rfl
theorem fa_h1_v22 (X : Valuation τ sig (Elt Ideal)) :
    StableHlo.after hostOps1 X (Proc.devRef .tc main_v22) = shapeCast S1x5 (X (Proc.devRef .tc main_arg6)) shapeCasts_S5_S1x5 := by
  after_results <;> rfl

/-! ## The small reads at an index: a half of a weight matrix, a bias as a one-row matrix -/

/-- The first 128 rows of a [256, 5] matrix. -/
theorem fa_half_lo (x : FVec Ideal S256x5 .f32) (k : Fin 128) (a : Fin 5) :
    extractStridedSlice S128x5 ![0, 0] x slices_S256x5_S128x5_0_0 (ix2 k a) = x (ix2 (Fin.castAdd 128 k) a) :=
  extractStridedSlice_apply _ x _ _ _ (fun d => by
    match d with
    | ⟨0, _⟩ => show k.val = 0 + k.val; omega
    | ⟨1, _⟩ => show a.val = 0 + a.val; omega)
/-- The last 128 rows of a [256, 5] matrix. -/
theorem fa_half_hi (x : FVec Ideal S256x5 .f32) (k : Fin 128) (a : Fin 5) :
    extractStridedSlice S128x5 ![128, 0] x slices_S256x5_S128x5_128_0 (ix2 k a) = x (ix2 (Fin.natAdd 128 k) a) :=
  extractStridedSlice_apply _ x _ _ _ (fun d => by
    match d with
    | ⟨0, _⟩ => show 128 + k.val = 128 + k.val; rfl
    | ⟨1, _⟩ => show a.val = 0 + a.val; omega)
/-- A bias [5] as a [1, 5] matrix. -/
theorem fa_bias (b : FVec Ideal S5 .f32) (a : Fin 5) :
    shapeCast S1x5 b shapeCasts_S5_S1x5 (ix2 (0 : Fin 1) a) = b (ix1 a) :=
  shapeCast_a_1a_apply b shapeCasts_S5_S1x5 0 a

/-! ## The buffers that are as launched, or as the first host stretch left them, at each boundary -/
theorem fa_W1_arg0 (c : Dev nD) : W1 m ρ c (Proc.devRef .tc main_arg0) = m ((c : Thread nD τ).loc main_arg0) := by
  refine Eq.trans (b := W0 m ρ c (Proc.devRef .tc main_arg0)) ?_ rfl
  fa_keep hostOps0
theorem fa_W1_arg1 (c : Dev nD) : W1 m ρ c (Proc.devRef .tc main_arg1) = m ((c : Thread nD τ).loc main_arg1) := by
  refine Eq.trans (b := W0 m ρ c (Proc.devRef .tc main_arg1)) ?_ rfl
  fa_keep hostOps0
theorem fa_W1_arg2 (c : Dev nD) : W1 m ρ c (Proc.devRef .tc main_arg2) = m ((c : Thread nD τ).loc main_arg2) := by
  refine Eq.trans (b := W0 m ρ c (Proc.devRef .tc main_arg2)) ?_ rfl
  fa_keep hostOps0
theorem fa_W1_arg4 (c : Dev nD) : W1 m ρ c (Proc.devRef .tc main_arg4) = m ((c : Thread nD τ).loc main_arg4) := by
  refine Eq.trans (b := W0 m ρ c (Proc.devRef .tc main_arg4)) ?_ rfl
  fa_keep hostOps0
theorem fa_W1_arg5 (c : Dev nD) : W1 m ρ c (Proc.devRef .tc main_arg5) = m ((c : Thread nD τ).loc main_arg5) := by
  refine Eq.trans (b := W0 m ρ c (Proc.devRef .tc main_arg5)) ?_ rfl
  fa_keep hostOps0
theorem fa_W1_arg6 (c : Dev nD) : W1 m ρ c (Proc.devRef .tc main_arg6) = m ((c : Thread nD τ).loc main_arg6) := by
  refine Eq.trans (b := W0 m ρ c (Proc.devRef .tc main_arg6)) ?_ rfl
  fa_keep hostOps0
theorem fa_W1_arg7 (c : Dev nD) : W1 m ρ c (Proc.devRef .tc main_arg7) = m ((c : Thread nD τ).loc main_arg7) := by
  refine Eq.trans (b := W0 m ρ c (Proc.devRef .tc main_arg7)) ?_ rfl
  fa_keep hostOps0
theorem fa_W1_arg8 (c : Dev nD) : W1 m ρ c (Proc.devRef .tc main_arg8) = m ((c : Thread nD τ).loc main_arg8) := by
  refine Eq.trans (b := W0 m ρ c (Proc.devRef .tc main_arg8)) ?_ rfl
  fa_keep hostOps0
theorem fa_W1_v1 (c : Dev nD) : W1 m ρ c (Proc.devRef .tc main_v1) = srcRow (m ((c : Thread nD τ).loc main_arg9)) :=
  fa_h0_v1 (W0 m ρ c)
theorem fa_W1_v3 (c : Dev nD) : W1 m ρ c (Proc.devRef .tc main_v3) = dstRow (m ((c : Thread nD τ).loc main_arg9)) :=
  fa_h0_v3 (W0 m ρ c)
theorem fa_W1_v4 (c : Dev nD) :
    W1 m ρ c (Proc.devRef .tc main_v4) = shapeCast S1x5 (m ((c : Thread nD τ).loc main_arg3)) shapeCasts_S5_S1x5 :=
  fa_h0_v4 (W0 m ρ c)
theorem fa_W2_v1 (c : Dev nD) : W2 m ρ c (Proc.devRef .tc main_v1) = srcRow (m ((c : Thread nD τ).loc main_arg9)) :=
  (W2_of_ne m ρ c main_v1 (by decide)).trans (fa_W1_v1 m ρ c)
theorem fa_W2_v3 (c : Dev nD) : W2 m ρ c (Proc.devRef .tc main_v3) = dstRow (m ((c : Thread nD τ).loc main_arg9)) :=
  (W2_of_ne m ρ c main_v3 (by decide)).trans (fa_W1_v3 m ρ c)
theorem fa_W2_arg4 (c : Dev nD) : W2 m ρ c (Proc.devRef .tc main_arg4) = m ((c : Thread nD τ).loc main_arg4) :=
  (W2_of_ne m ρ c main_arg4 (by decide)).trans (fa_W1_arg4 m ρ c)
theorem fa_W2_arg5 (c : Dev nD) : W2 m ρ c (Proc.devRef .tc main_arg5) = m ((c : Thread nD τ).loc main_arg5) :=
  (W2_of_ne m ρ c main_arg5 (by decide)).trans (fa_W1_arg5 m ρ c)
theorem fa_W2_arg6 (c : Dev nD) : W2 m ρ c (Proc.devRef .tc main_arg6) = m ((c : Thread nD τ).loc main_arg6) :=
  (W2_of_ne m ρ c main_arg6 (by decide)).trans (fa_W1_arg6 m ρ c)
theorem fa_W2_arg7 (c : Dev nD) : W2 m ρ c (Proc.devRef .tc main_arg7) = m ((c : Thread nD τ).loc main_arg7) :=
  (W2_of_ne m ρ c main_arg7 (by decide)).trans (fa_W1_arg7 m ρ c)
theorem fa_W2_arg8 (c : Dev nD) : W2 m ρ c (Proc.devRef .tc main_arg8) = m ((c : Thread nD τ).loc main_arg8) :=
  (W2_of_ne m ρ c main_arg8 (by decide)).trans (fa_W1_arg8 m ρ c)
theorem fa_W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (fa_W1_arg0 m ρ c)
theorem fa_W3_v1 (c : Dev nD) : W3 m ρ c (Proc.devRef .tc main_v1) = srcRow (m ((c : Thread nD τ).loc main_arg9)) := by
  refine Eq.trans (b := W2 m ρ c (Proc.devRef .tc main_v1)) ?_ (fa_W2_v1 m ρ c)
  fa_keep hostOps1
theorem fa_W3_v3 (c : Dev nD) : W3 m ρ c (Proc.devRef .tc main_v3) = dstRow (m ((c : Thread nD τ).loc main_arg9)) := by
  refine Eq.trans (b := W2 m ρ c (Proc.devRef .tc main_v3)) ?_ (fa_W2_v3 m ρ c)
  fa_keep hostOps1
theorem fa_W3_arg4 (c : Dev nD) : W3 m ρ c (Proc.devRef .tc main_arg4) = m ((c : Thread nD τ).loc main_arg4) := by
  refine Eq.trans (b := W2 m ρ c (Proc.devRef .tc main_arg4)) ?_ (fa_W2_arg4 m ρ c)
  fa_keep hostOps1
theorem fa_W3_arg7 (c : Dev nD) : W3 m ρ c (Proc.devRef .tc main_arg7) = m ((c : Thread nD τ).loc main_arg7) := by
  refine Eq.trans (b := W2 m ρ c (Proc.devRef .tc main_arg7)) ?_ (fa_W2_arg7 m ρ c)
  fa_keep hostOps1
theorem fa_W3_arg8 (c : Dev nD) : W3 m ρ c (Proc.devRef .tc main_arg8) = m ((c : Thread nD τ).loc main_arg8) := by
  refine Eq.trans (b := W2 m ρ c (Proc.devRef .tc main_arg8)) ?_ (fa_W2_arg8 m ρ c)
  fa_keep hostOps1

/-! ## Region 0's output: the node prompt of the launched arrays -/

theorem fa_V1_arg0 (c : Dev nD) : V1 m ρ c main_arg0 = m ((c : Thread nD τ).loc main_arg0) := fa_W1_arg0 m ρ c
theorem fa_V1_arg1 (c : Dev nD) : V1 m ρ c main_arg1 = m ((c : Thread nD τ).loc main_arg1) := fa_W1_arg1 m ρ c
theorem fa_V1_arg2 (c : Dev nD) : V1 m ρ c main_arg2 = m ((c : Thread nD τ).loc main_arg2) := fa_W1_arg2 m ρ c
/-- The bias window of region 0 holds the bias as a one-row matrix. -/
theorem fa_V1_v4 (c : Dev nD) (a : Fin 5) :
    V1 m ρ c main_v4 (ix2 (0 : Fin 1) a) = m ((c : Thread nD τ).loc main_arg3) (ix1 a) :=
  (congrFun (fa_W1_v4 m ρ c) (ix2 (0 : Fin 1) a)).trans (fa_bias _ a)

theorem fa_W2_v5 (c : Dev nD) :
    W2 m ρ c (Proc.devRef .tc main_v5) = npx (m ((c : Thread nD τ).loc main_arg0)) (m ((c : Thread nD τ).loc main_arg1)) (m ((c : Thread nD τ).loc main_arg2)) (m ((c : Thread nD τ).loc main_arg3)) := by
  refine (W2_arr m ρ c 4).trans ((Reg.final0 (V1 m ρ) c).trans ?_)
  unfold npx
  have hb : (fun a : Fin 5 => V1 m ρ c main_v4 (ix2 0 a)) = fun a => m ((c : Thread nD τ).loc main_arg3) (ix1 a) :=
    funext fun a => fa_V1_v4 m ρ c a
  rw [hb, fa_V1_arg0 m ρ c, fa_V1_arg1 m ρ c, fa_V1_arg2 m ρ c]
theorem fa_W3_v5 (c : Dev nD) :
    W3 m ρ c (Proc.devRef .tc main_v5) = npx (m ((c : Thread nD τ).loc main_arg0)) (m ((c : Thread nD τ).loc main_arg1)) (m ((c : Thread nD τ).loc main_arg2)) (m ((c : Thread nD τ).loc main_arg3)) := by
  refine Eq.trans (b := W2 m ρ c (Proc.devRef .tc main_v5)) ?_ (fa_W2_v5 m ρ c)
  fa_keep hostOps1

/-! ## Region 1's windows: the gathered endpoint rows, the two halves of the weight matrix, the bias, the anchors -/

theorem fa_V3_v12 (c : Dev nD) :
    V3 m ρ c main_v12 = gatherRows (F := Ideal) (m ((c : Thread nD τ).loc main_arg0)) (endIdx (srcRow (m ((c : Thread nD τ).loc main_arg9)))) :=
  (fa_h1_v12 (W2 m ρ c)).trans
    (congrArg₂ (fun x r => gatherRows (F := Ideal) x (endIdx r)) (fa_W2_arg0 m ρ c) (fa_W2_v1 m ρ c))
theorem fa_V3_v19 (c : Dev nD) :
    V3 m ρ c main_v19 = gatherRows (F := Ideal) (m ((c : Thread nD τ).loc main_arg0)) (endIdx (dstRow (m ((c : Thread nD τ).loc main_arg9)))) :=
  (fa_h1_v19 (W2 m ρ c)).trans
    (congrArg₂ (fun x r => gatherRows (F := Ideal) x (endIdx r)) (fa_W2_arg0 m ρ c) (fa_W2_v3 m ρ c))
theorem fa_V3_v20 (c : Dev nD) (k : Fin 128) (a : Fin 5) :
    V3 m ρ c main_v20 (ix2 k a) = m ((c : Thread nD τ).loc main_arg5) (ix2 (Fin.castAdd 128 k) a) :=
  (congrFun ((fa_h1_v20 (W2 m ρ c)).trans
    (congrArg (fun x => extractStridedSlice S128x5 ![0, 0] x slices_S256x5_S128x5_0_0) (fa_W2_arg5 m ρ c))) (ix2 k a)).trans
    (fa_half_lo _ k a)
theorem fa_V3_v21 (c : Dev nD) (k : Fin 128) (a : Fin 5) :
    V3 m ρ c main_v21 (ix2 k a) = m ((c : Thread nD τ).loc main_arg5) (ix2 (Fin.natAdd 128 k) a) :=
  (congrFun ((fa_h1_v21 (W2 m ρ c)).trans
    (congrArg (fun x => extractStridedSlice S128x5 ![128, 0] x slices_S256x5_S128x5_128_0) (fa_W2_arg5 m ρ c))) (ix2 k a)).trans
    (fa_half_hi _ k a)
theorem fa_V3_v22 (c : Dev nD) (a : Fin 5) :
    V3 m ρ c main_v22 (ix2 (0 : Fin 1) a) = m ((c : Thread nD τ).loc main_arg6) (ix1 a) :=
  (congrFun ((fa_h1_v22 (W2 m ρ c)).trans
    (congrArg (fun x => shapeCast S1x5 x shapeCasts_S5_S1x5) (fa_W2_arg6 m ρ c))) (ix2 (0 : Fin 1) a)).trans
    (fa_bias _ a)
theorem fa_V3_arg4 (c : Dev nD) : V3 m ρ c main_arg4 = m ((c : Thread nD τ).loc main_arg4) := fa_W3_arg4 m ρ c

/-! The buffer contents at the boundary after region 1 (W4), read back to the launch memory: no host operation and no
    region writes an argument or an earlier stretch's value, a region writes its output array only. -/

/-- The sources' row of the edge list, computed before region 0, is still there after region 1. -/
theorem W4_v1 (c : Dev nD) : W4 m ρ c (Proc.devRef .tc main_v1) = srcRow (m ((c : Thread nD τ).loc main_arg9)) :=
  (W4_of_ne m ρ c main_v1 (by decide)).trans (fa_W3_v1 m ρ c)
/-- The destinations' row likewise. -/
theorem W4_v3 (c : Dev nD) : W4 m ρ c (Proc.devRef .tc main_v3) = dstRow (m ((c : Thread nD τ).loc main_arg9)) :=
  (W4_of_ne m ρ c main_v3 (by decide)).trans (fa_W3_v3 m ρ c)
/-- The gate matrix is as launched after region 1. -/
theorem W4_arg7 (c : Dev nD) : W4 m ρ c (Proc.devRef .tc main_arg7) = (m ((c : Thread nD τ).loc main_arg7)) :=
  (W4_of_ne m ρ c main_arg7 (by decide)).trans (fa_W3_arg7 m ρ c)
/-- The gate bias is as launched after region 1. -/
theorem W4_arg8 (c : Dev nD) : W4 m ρ c (Proc.devRef .tc main_arg8) = (m ((c : Thread nD τ).loc main_arg8)) :=
  (W4_of_ne m ρ c main_arg8 (by decide)).trans (fa_W3_arg8 m ρ c)
/-- Region 0's output, the node-prompted x, is still there after region 1. -/
theorem W4_v5 (c : Dev nD) :
    W4 m ρ c (Proc.devRef .tc main_v5) = npx (m ((c : Thread nD τ).loc main_arg0)) (m ((c : Thread nD τ).loc main_arg1)) (m ((c : Thread nD τ).loc main_arg2)) (m ((c : Thread nD τ).loc main_arg3)) :=
  (W4_of_ne m ρ c main_v5 (by decide)).trans (fa_W3_v5 m ρ c)
/-- Region 1's output is the edge prompt: its two big windows hold the rows of x gathered at the edge list's
    endpoints, its weight windows the two halves of the weight matrix. -/
theorem W4_v23 (c : Dev nD) :
    W4 m ρ c (Proc.devRef .tc main_v23) = eprompt (m ((c : Thread nD τ).loc main_arg0)) (m ((c : Thread nD τ).loc main_arg4)) (m ((c : Thread nD τ).loc main_arg5)) (m ((c : Thread nD τ).loc main_arg6)) (m ((c : Thread nD τ).loc main_arg9)) := by
  refine (W4_arr m ρ c 6).trans ((Reg.final1 (V3 m ρ) c).trans ?_)
  unfold eprompt
  have h20 : (fun (k : Fin 128) (a : Fin 5) => V3 m ρ c main_v20 (ix2 k a))
      = fun k a => m ((c : Thread nD τ).loc main_arg5) (ix2 (Fin.castAdd 128 k) a) :=
    funext fun k => funext fun a => fa_V3_v20 m ρ c k a
  have h21 : (fun (k : Fin 128) (a : Fin 5) => V3 m ρ c main_v21 (ix2 k a))
      = fun k a => m ((c : Thread nD τ).loc main_arg5) (ix2 (Fin.natAdd 128 k) a) :=
    funext fun k => funext fun a => fa_V3_v21 m ρ c k a
  have h22 : (fun a : Fin 5 => V3 m ρ c main_v22 (ix2 0 a)) = fun a => m ((c : Thread nD τ).loc main_arg6) (ix1 a) :=
    funext fun a => fa_V3_v22 m ρ c a
  rw [h20, h21, h22, fa_V3_v12 m ρ c, fa_V3_v19 m ρ c, fa_V3_arg4 m ρ c]

end Cert.KernelIdeal.Fold

end
-- ==== Proof.KPay2.lean ====
import proofs.«175747_j34248069218340_1_alg».proof.Proof.Gen.KernelIdeal.Skeleton
import proofs.«175747_j34248069218340_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen Cert.Rows

/-! ## The gate product: one contraction over the 128 coordinates of a row -/

/-- Row coordinate of the left operand's index: the output's row. -/
theorem k2_lhs_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide),
    dif_pos (show (0 : Fin S5000x128.rank) ∈ dot_S5000x128_S128x2_S5000x2_1_0_0_1_n_n.lhsNonContracting by decide)]
  rfl

/-- Column coordinate of the left operand's index: the contracted coordinate. -/
theorem k2_lhs_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q

/-- Row coordinate of the right operand's index: the contracted coordinate. -/
theorem k2_rhs_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q

/-- Column coordinate of the right operand's index: the output's column. -/
theorem k2_rhs_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide),
    dif_pos (show (1 : Fin S128x2.rank) ∈ dot_S5000x128_S128x2_S5000x2_1_0_0_1_n_n.rhsNonContracting by decide)]
  rfl

/-- A 5000x128 block times a 128x2 matrix, into zero, at row p and column a: the sum over the row's 128 coordinates. -/
theorem k2_matmul_apply (x : FVec Ideal S5000x128 .f32) (w : FVec Ideal S128x2 .f32) (p : Fin 5000) (a : Fin 2) :
    matmul (F := Ideal) dot_S5000x128_S128x2_S5000x2_1_0_0_1_n_n none x w (constant (F := Ideal) S5000x2 .f32 0x00000000#32) (ix2 p a)
      = ∑ k : Fin 128, x (ix2 p k) * w (ix2 k a) := by
  simp only [matmul]
  rw [Ideal.matmul_constant_zero_apply,
    ← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 p a)
      ((contrEquiv1 dot_S5000x128_S128x2_S5000x2_1_0_0_1_n_n 128 rfl rfl).symm k) = ix2 p k := funext fun c => Fin.ext (by
    match c with
    | ⟨0, _⟩ => exact k2_lhs_0 _ _
    | ⟨1, _⟩ => exact (k2_lhs_1 _ _).trans hk)
  have er : dot_S5000x128_S128x2_S5000x2_1_0_0_1_n_n.rhsIdx (ix2 p a)
      ((contrEquiv1 dot_S5000x128_S128x2_S5000x2_1_0_0_1_n_n 128 rfl rfl).symm k) = ix2 k a := funext fun c => Fin.ext (by
    match c with
    | ⟨0, _⟩ => exact (k2_rhs_0 _ _).trans hk
    | ⟨1, _⟩ => exact k2_rhs_1 _ _)
  rw [el, er]

/-! ## Layout: a column kept after a row reduction, and its broadcast back along the row -/

/-- A vector of n entries viewed as an n x 1 column reads, at (p, u), the entry p. -/
theorem k2_shapeCast_col_apply {α : Type} {n : ℕ} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An n x 1 column broadcast along rows of length A reads, at (p, a), the column's entry p. -/
theorem k2_broadcastTo_col_apply {α : Type} {n A : ℕ} (v : (⟨2, ![n, 1]⟩ : Shape).Idx → α)
    (h : (⟨2, ![n, 1]⟩ : Shape).Broadcasts ⟨2, ![n, A]⟩) (p : Fin n) (a : Fin A) :
    broadcastTo ⟨2, ![n, A]⟩ v h (ix2 p a) = v (ix2 p (0 : Fin 1)) := by
  refine broadcastTo_apply v h (ix2 p a) (ix2 p (0 : Fin 1)) fun ax => ?_
  match ax with
  | ⟨0, _⟩ =>
    show p.val = if n = 1 then 0 else p.val
    split
    · have := p.isLt; omega
    · rfl
  | ⟨1, _⟩ => rfl

/-- The index of row p with column a inserted is (p, a). -/
theorem k2_lift (p : Fin 5000) (a : Fin 2) : reduces_S5000x2_S5000.lift (ix1 p) a = ix2 p a := by
  funext c
  apply Fin.ext
  match c with
  | ⟨0, _⟩ => rfl
  | ⟨1, _⟩ => rfl

/-- The maximum of a row of two logits, from -∞. -/
theorem k2_rowmax_apply (l : FVec Ideal S5000x2 .f32) (p : Fin 5000) :
    multiReduction (F := Ideal) .maximumf [1] S5000 l 0xFF800000#32 reduces_S5000x2_S5000 (.inl rfl) rfl (ix1 p)
      = (Finset.univ : Finset (Fin 2)).fold max negInf (fun a => l (ix2 p a)) := by
  refine (Ideal.multiReduction_maximumf_single l 0xFF800000#32 reduces_S5000x2_S5000 (.inl rfl) rfl (ix1 p)).trans ?_
  show (Finset.univ : Finset (Fin 2)).fold max negInf (l ∘ reduces_S5000x2_S5000.lift (ix1 p)) = _
  rw [show (l ∘ reduces_S5000x2_S5000.lift (ix1 p)) = fun a : Fin 2 => l (ix2 p a) from
    funext fun a => congrArg l (k2_lift p a)]
  rfl

/-- The sum of a row of two entries. -/
theorem k2_rowsum_apply (e : FVec Ideal S5000x2 .f32) (p : Fin 5000) :
    multiReduction (F := Ideal) .add [1] S5000 e 0x00000000#32 reduces_S5000x2_S5000 (.inl rfl) rfl (ix1 p)
      = ∑ a : Fin 2, e (ix2 p a) := by
  refine (Ideal.multiReduction_add_single e 0x00000000#32 reduces_S5000x2_S5000 (.inl rfl) rfl (ix1 p)).trans ?_
  show ∑ a : Fin 2, e (reduces_S5000x2_S5000.lift (ix1 p) a) = _
  exact Finset.sum_congr rfl fun a _ => congrArg e (k2_lift p a)

/-! ## The three stages of the body -/

/-- The gate logits at row p, column a: the two contractions and the bias. -/
theorem k2_logits_apply (x0 x1 : FVec Ideal S5000x128 .f32) (x2 x3 : FVec Ideal S128x2 .f32) (x4 : FVec Ideal S1x2 .f32)
    (p : Fin 5000) (a : Fin 2) :
    addf
        (addf
          (matmul (F := Ideal) dot_S5000x128_S128x2_S5000x2_1_0_0_1_n_n none x0 x2 (constant (F := Ideal) S5000x2 .f32 0x00000000#32))
          (matmul (F := Ideal) dot_S5000x128_S128x2_S5000x2_1_0_0_1_n_n none x1 x3 (constant (F := Ideal) S5000x2 .f32 0x00000000#32)))
        (broadcastTo S5000x2 x4 broadcasts_S1x2_S5000x2) (ix2 p a)
      = ((∑ k : Fin 128, x0 (ix2 p k) * x2 (ix2 k a)) + ∑ k : Fin 128, x1 (ix2 p k) * x3 (ix2 k a)) + x4 (ix2 0 a) := by
  rw [addf_apply, addf_apply, k2_matmul_apply, k2_matmul_apply]
  exact congrArg _ (broadcastTo_1b_ab_apply x4 broadcasts_S1x2_S5000x2 p a)

/-- The softmax of the rows of a 5000 x 2 array of logits, as the body computes it, at row p and column a. -/
theorem k2_gate_apply (l : FVec Ideal S5000x2 .f32) (p : Fin 5000) (a : Fin 2) :
    divf
        (exp (subf l (broadcastTo S5000x2 (shapeCast S5000x1
          (maximumf (broadcast S5000 (Scalar.ofBits (F := Ideal) .f32 0xFF800000#32))
            (multiReduction (F := Ideal) .maximumf [1] S5000 l 0xFF800000#32 reduces_S5000x2_S5000 (.inl rfl) rfl))
          shapeCasts_S5000_S5000x1) broadcasts_S5000x1_S5000x2)))
        (broadcastTo S5000x2 (shapeCast S5000x1
          (multiReduction (F := Ideal) .add [1] S5000
            (exp (subf l (broadcastTo S5000x2 (shapeCast S5000x1
              (maximumf (broadcast S5000 (Scalar.ofBits (F := Ideal) .f32 0xFF800000#32))
                (multiReduction (F := Ideal) .maximumf [1] S5000 l 0xFF800000#32 reduces_S5000x2_S5000 (.inl rfl) rfl))
              shapeCasts_S5000_S5000x1) broadcasts_S5000x1_S5000x2)))
            0x00000000#32 reduces_S5000x2_S5000 (.inl rfl) rfl)
          shapeCasts_S5000_S5000x1) broadcasts_S5000x1_S5000x2) (ix2 p a)
      = softmax (fun a => l (ix2 p a)) a := by
  have hexp : ∀ b : Fin 2,
      exp (subf l (broadcastTo S5000x2 (shapeCast S5000x1
          (maximumf (broadcast S5000 (Scalar.ofBits (F := Ideal) .f32 0xFF800000#32))
            (multiReduction (F := Ideal) .maximumf [1] S5000 l 0xFF800000#32 reduces_S5000x2_S5000 (.inl rfl) rfl))
          shapeCasts_S5000_S5000x1) broadcasts_S5000x1_S5000x2)) (ix2 p b)
        = rowExp (fun a => l (ix2 p a)) b := by
    intro b
    show Ideal.exp (l (ix2 p b) - _) = _
    rw [k2_broadcastTo_col_apply, k2_shapeCast_col_apply, maximumf_apply, k2_rowmax_apply]
    rfl
  rw [divf_apply, hexp, k2_broadcastTo_col_apply, k2_shapeCast_col_apply, k2_rowsum_apply]
  simp only [hexp]
  rfl

/-- The two softmax columns spread over the rows and multiplied into the two blocks. -/
theorem k2_mix_apply (g : FVec Ideal S5000x2 .f32) (n e : FVec Ideal S5000x128 .f32) (p : Fin 5000) (q : Fin 128) :
    addf
        (mulf (broadcastTo S5000x128 (extractStridedSlice S5000x1 ![0, 0] g slices_S5000x2_o0_0_S5000x1) broadcasts_S5000x1_S5000x128) n)
        (mulf (broadcastTo S5000x128 (extractStridedSlice S5000x1 ![0, 1] g slices_S5000x2_o0_1_S5000x1) broadcasts_S5000x1_S5000x128) e)
        (ix2 p q)
      = g (ix2 p 0) * n (ix2 p q) + g (ix2 p 1) * e (ix2 p q) := by
  rw [addf_apply, mulf_apply, mulf_apply, k2_broadcastTo_col_apply, k2_broadcastTo_col_apply,
    slice2_axis1_apply 0 g slices_S5000x2_o0_0_S5000x1 p (0 : Fin 1) (0 : Fin 2) rfl,
    slice2_axis1_apply 1 g slices_S5000x2_o0_1_S5000x1 p (0 : Fin 1) (1 : Fin 2) rfl]

/-- What the fusion body stores at row p, column q of its block: the fusion row function of row p of the node block
    and of the aggregated-edge block, the two gate halves and the gate bias row. -/
theorem pay2_apply (x0 x1 : Vec Ideal S5000x128 .f32) (x2 x3 : Vec Ideal S128x2 .f32) (x4 : Vec Ideal S1x2 .f32)
    (p : Fin 5000) (q : Fin 128) :
    k2_pay1 (F := Ideal) x0 x1 x2 x3 x4 (ix2 p q)
      = fuRow (fun k => x0 (ix2 p k)) (fun k => x1 (ix2 p k)) (fun k a => x2 (ix2 k a)) (fun k a => x3 (ix2 k a))
          (fun a => x4 (ix2 0 a)) q := by
  unfold k2_pay1
  simp only [shapeCast_self]
  rw [k2_mix_apply, k2_gate_apply, k2_gate_apply]
  simp only [k2_logits_apply]
  rfl

end Cert.KernelIdeal.Pay

end
-- ==== Proof.KReg2.lean ====
import proofs.«175747_j34248069218340_1_alg».proof.Proof.Gen.KernelIdeal.Frame
import proofs.«175747_j34248069218340_1_alg».proof.Proof.KPay2
import Idealize.ShloMosaic.Lib.Pipeline.Value

set_option maxRecDepth 16384

noncomputable section

namespace Cert.KernelIdeal.Reg

open Cert.KernelIdeal Cert.KernelIdeal.Gen Cert.Rows Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem fu_zero_offsets : (![0, 0] : Fin 2 → Nat) = fun _ => 0 := funext fun a => by fin_cases a <;> rfl

/-- The printed index maps over the ten grid points: the three large windows sit at block row t, block column 0;
    the three small windows sit at block [0, 0]. -/
theorem fu_block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A grid point is below ten. -/
theorem fu_point_lt (t : Fin cfg2.N) : t.val < 10 := Nat.lt_of_lt_of_eq t.isLt N_2

/-- Row p of block t is row 5000 t + p of the array, and that is a row of the array. -/
theorem fu_row_lt (t : Fin cfg2.N) (p : Fin 5000) : 5000 * t.val + p.val < 50000 := by
  have := fu_point_lt t; have := p.isLt; omega

/-- The node window's block at point t holds rows 5000 t .. 5000 t + 4999 of the node array. -/
theorem fu_node_block (c : Dev nD) (t : Fin cfg2.N) (p : Fin 5000) (k : Fin 128) :
    iblk2 (F := Ideal) V c 0 t (ix2 p k) = V c main_v5 (ix2 (n0 := 50000) ⟨5000 * t.val + p.val, fu_row_lt t p⟩ k) := by
  unfold iblk2
  show V c main_v5 (((cfg2.win 0).blk t).view.emb (ix2 p k)) = _
  refine congrArg _ ?_
  obtain ⟨e0, e1, -⟩ := fu_block_indices t
  funext a; apply Fin.ext
  match a with
  | ⟨0, _⟩ => show win2_0.index t (0 : Fin 2) * 5000 + 1 * p.val = 5000 * t.val + p.val; omega
  | ⟨1, _⟩ => show win2_0.index t (1 : Fin 2) * 128 + 1 * k.val = k.val; omega

/-- The aggregated-edge window's block at point t holds the same rows of the aggregated-edge array. -/
theorem fu_edge_block (c : Dev nD) (t : Fin cfg2.N) (p : Fin 5000) (k : Fin 128) :
    iblk2 (F := Ideal) V c 1 t (ix2 p k) = V c main_v38 (ix2 (n0 := 50000) ⟨5000 * t.val + p.val, fu_row_lt t p⟩ k) := by
  unfold iblk2
  show V c main_v38 (((cfg2.win 1).blk t).view.emb (ix2 p k)) = _
  refine congrArg _ ?_
  obtain ⟨-, -, e0, e1, -⟩ := fu_block_indices t
  funext a; apply Fin.ext
  match a with
  | ⟨0, _⟩ => show win2_1.index t (0 : Fin 2) * 5000 + 1 * p.val = 5000 * t.val + p.val; omega
  | ⟨1, _⟩ => show win2_1.index t (1 : Fin 2) * 128 + 1 * k.val = k.val; omega

/-- The first gate half is read whole at every point. -/
theorem fu_gate1_block (c : Dev nD) (t : Fin cfg2.N) (k : Fin 128) (a : Fin 2) :
    iblk2 (F := Ideal) V c 2 t (ix2 k a) = V c main_v39 (ix2 k a) := by
  unfold iblk2
  show V c main_v39 (((cfg2.win 2).blk t).view.emb (ix2 k a)) = _
  refine congrArg _ ?_
  obtain ⟨-, -, -, -, e0, e1, -⟩ := fu_block_indices t
  funext b; apply Fin.ext
  match b with
  | ⟨0, _⟩ => show win2_2.index t (0 : Fin 2) * 128 + 1 * k.val = k.val; omega
  | ⟨1, _⟩ => show win2_2.index t (1 : Fin 2) * 2 + 1 * a.val = a.val; omega

/-- The second gate half is read whole at every point. -/
theorem fu_gate2_block (c : Dev nD) (t : Fin cfg2.N) (k : Fin 128) (a : Fin 2) :
    iblk2 (F := Ideal) V c 3 t (ix2 k a) = V c main_v40 (ix2 k a) := by
  unfold iblk2
  show V c main_v40 (((cfg2.win 3).blk t).view.emb (ix2 k a)) = _
  refine congrArg _ ?_
  obtain ⟨-, -, -, -, -, -, e0, e1, -⟩ := fu_block_indices t
  funext b; apply Fin.ext
  match b with
  | ⟨0, _⟩ => show win2_3.index t (0 : Fin 2) * 128 + 1 * k.val = k.val; omega
  | ⟨1, _⟩ => show win2_3.index t (1 : Fin 2) * 2 + 1 * a.val = a.val; omega

/-- The gate bias row is read whole at every point. -/
theorem fu_bias_block (c : Dev nD) (t : Fin cfg2.N) (a : Fin 2) :
    iblk2 (F := Ideal) V c 4 t (ix2 0 a) = V c main_v41 (ix2 0 a) := by
  unfold iblk2
  show V c main_v41 (((cfg2.win 4).blk t).view.emb (ix2 (0 : Fin 1) a)) = _
  refine congrArg _ ?_
  obtain ⟨-, -, -, -, -, -, -, -, e0, e1, -⟩ := fu_block_indices t
  funext b; apply Fin.ext
  match b with
  | ⟨0, _⟩ => show win2_4.index t (0 : Fin 2) * 1 + 1 * 0 = 0; omega
  | ⟨1, _⟩ => show win2_4.index t (1 : Fin 2) * 2 + 1 * a.val = a.val; omega

/-- Row p, column q of the output window's block at point t is row 5000 t + p, column q of the output array. -/
theorem fu_out_block_emb (t : Fin cfg2.N) (p : Fin 5000) (q : Fin 128) :
    ((cfg2.win 5).blk t).view.emb (ix2 p q) = ix2 (n0 := 50000) ⟨5000 * t.val + p.val, fu_row_lt t p⟩ q := by
  obtain ⟨-, -, -, -, -, -, -, -, -, -, e0, e1⟩ := fu_block_indices t
  funext a; apply Fin.ext
  match a with
  | ⟨0, _⟩ => show win2_5.index t (0 : Fin 2) * 5000 + 1 * p.val = 5000 * t.val + p.val; omega
  | ⟨1, _⟩ => show win2_5.index t (1 : Fin 2) * 128 + 1 * q.val = q.val; omega

/-- What point t writes back is block t of the gated fusion of the arrays the region found at entry. -/
theorem fu_flushed_eq (c : Dev nD) (t : Fin cfg2.N) :
    (dat2 (F := Ideal) V c).flushed 5 t = ((cfg2.win 5).blk t).view.read (Elt Ideal)
      (FU (N := 50000) (V c main_v5) (V c main_v38) (fun k a => V c main_v39 (ix2 k a)) (fun k a => V c main_v40 (ix2 k a))
        (fun a => V c main_v41 (ix2 0 a))) := by
  show (cfg2.win 5).cut (grid2.coords t) ((dat2 (F := Ideal) V c).after 5 t) = _
  rw [after2_5]
  unfold out2_5
  rw [View.canon_unit_zero fu_zero_offsets]
  simp only [View.ld_unit_zero (S := S5000x128) fu_zero_offsets, View.ld_unit_zero (S := S128x2) fu_zero_offsets,
    View.ld_unit_zero (S := S1x2) fu_zero_offsets]
  funext j
  obtain ⟨p, q, rfl⟩ : ∃ (p : Fin 5000) (q : Fin 128), j = ix2 p q := ⟨j 0, j 1, eq_ix2 j⟩
  refine (Cert.KernelIdeal.Pay.pay2_apply (iblk2 (F := Ideal) V c 0 t) (iblk2 (F := Ideal) V c 1 t) (iblk2 (F := Ideal) V c 2 t)
    (iblk2 (F := Ideal) V c 3 t) (iblk2 (F := Ideal) V c 4 t) p q).trans ?_
  show _ = FU (N := 50000) (V c main_v5) (V c main_v38) (fun k a => V c main_v39 (ix2 k a)) (fun k a => V c main_v40 (ix2 k a))
        (fun a => V c main_v41 (ix2 0 a)) (((cfg2.win 5).blk t).view.emb (ix2 p q))
  rw [fu_out_block_emb t p q]
  show _ = fuRow (fun k => V c main_v5 (ix2 (n0 := 50000) ⟨5000 * t.val + p.val, fu_row_lt t p⟩ k))
      (fun k => V c main_v38 (ix2 (n0 := 50000) ⟨5000 * t.val + p.val, fu_row_lt t p⟩ k))
      (fun k a => V c main_v39 (ix2 k a)) (fun k a => V c main_v40 (ix2 k a)) (fun a => V c main_v41 (ix2 0 a)) q
  have h0 : (fun k : Fin 128 => iblk2 (F := Ideal) V c 0 t (ix2 p k))
      = fun k => V c main_v5 (ix2 (n0 := 50000) ⟨5000 * t.val + p.val, fu_row_lt t p⟩ k) := funext fun k => fu_node_block V c t p k
  have h1 : (fun k : Fin 128 => iblk2 (F := Ideal) V c 1 t (ix2 p k))
      = fun k => V c main_v38 (ix2 (n0 := 50000) ⟨5000 * t.val + p.val, fu_row_lt t p⟩ k) := funext fun k => fu_edge_block V c t p k
  have h2 : (fun (k : Fin 128) (a : Fin 2) => iblk2 (F := Ideal) V c 2 t (ix2 k a)) = fun k a => V c main_v39 (ix2 k a) :=
    funext fun k => funext fun a => fu_gate1_block V c t k a
  have h3 : (fun (k : Fin 128) (a : Fin 2) => iblk2 (F := Ideal) V c 3 t (ix2 k a)) = fun k a => V c main_v40 (ix2 k a) :=
    funext fun k => funext fun a => fu_gate2_block V c t k a
  have h4 : (fun a : Fin 2 => iblk2 (F := Ideal) V c 4 t (ix2 0 a)) = fun a => V c main_v41 (ix2 0 a) :=
    funext fun a => fu_bias_block V c t a
  rw [h0, h1, h2, h3, h4]

/-- An index of the output array is in point t's block iff each coordinate is in the block's range on its axis. -/
theorem fu_mem_block (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v42).slice (win2_5.rect t)).set ↔ _
  rw [View.set_slice_whole, Rect.mem_set_unit]
  exact Iff.rfl

/-- The ten blocks of 5000 rows cover the 50000 rows: row r is in the block of point r / 5000. -/
theorem fu_blocks_cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : (i 0).val / 5000 < cfg2.N := Nat.lt_of_lt_of_eq (by omega : (i 0).val / 5000 < 10) N_2.symm
  refine ⟨⟨(i 0).val / 5000, hN⟩, flush2_5 _, ?_⟩
  rw [fu_mem_block]
  obtain ⟨-, -, -, -, -, -, -, -, -, -, e0, e1⟩ := fu_block_indices ⟨(i 0).val / 5000, hN⟩
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    have e0' : win2_5.index ⟨(i 0).val / 5000, hN⟩ (0 : Fin 2) = (i 0).val / 5000 := e0
    omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    omega

/-- Region 2's output array when the region ends: the gated fusion of the arrays the region found at entry — every
    grid point writes the block of 5000 rows it owns, the ten blocks cover the 50000 rows. -/
theorem final2 (c : Dev nD) :
    (dat2 (F := Ideal) V c).arrAt 5 cfg2.N
      = FU (N := 50000) (V c main_v5) (V c main_v38) (fun k a => V c main_v39 (ix2 k a)) (fun k a => V c main_v40 (ix2 k a))
          (fun a => V c main_v41 (ix2 0 a)) :=
  (dat2 (F := Ideal) V c).arrAt_eq_of_cover 5 _ (fun t _ => fu_flushed_eq V c t) fu_blocks_cover

end Cert.KernelIdeal.Reg

end
-- ==== Proof.KFoldB.lean ====
import proofs.«175747_j34248069218340_1_alg».proof.Proof.KFoldA
import proofs.«175747_j34248069218340_1_alg».proof.Proof.KReg2
import Idealize.ShloMosaic.Lib.Pipeline.Value
import Idealize.ShloMosaic.Lib.ValueLayout
import Idealize.ShloMosaic.Lib.StableHlo.Run

set_option maxRecDepth 16384

noncomputable section

namespace Cert.KernelIdeal.Fold

open Cert.KernelIdeal Cert.KernelIdeal.Gen Cert.Rows Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What the last host stretch leaves, over any contents `X` at its entry -/

/-- The stretch's two scatter-adds: the per-edge rows added into zeros at the start indices of the sources' row,
    then at those of the destinations' row (each recomputed from the row: a negative entry moved up by 50000). -/
theorem fb_h2_v38 (X : Valuation τ sig (Elt Ideal)) :
    StableHlo.after hostOps2 X (Proc.devRef .tc main_v38)
      = scatter2 (F := Ideal) (endIdx (X (Proc.devRef .tc main_v1))) (endIdx (X (Proc.devRef .tc main_v3)))
          (X (Proc.devRef .tc main_v23)) := by
  after_results_simp
  rfl

/-- The upper half of the gate matrix. -/
theorem fb_h2_v39 (X : Valuation τ sig (Elt Ideal)) :
    StableHlo.after hostOps2 X (Proc.devRef .tc main_v39)
      = extractStridedSlice S128x2 ![0, 0] (X (Proc.devRef .tc main_arg7)) slices_S256x2_S128x2_0_0 := by
  after_results

/-- The lower half of the gate matrix. -/
theorem fb_h2_v40 (X : Valuation τ sig (Elt Ideal)) :
    StableHlo.after hostOps2 X (Proc.devRef .tc main_v40)
      = extractStridedSlice S128x2 ![128, 0] (X (Proc.devRef .tc main_arg7)) slices_S256x2_S128x2_128_0 := by
  after_results

/-- The gate bias as a one-row matrix. -/
theorem fb_h2_v41 (X : Valuation τ sig (Elt Ideal)) :
    StableHlo.after hostOps2 X (Proc.devRef .tc main_v41)
      = shapeCast S1x2 (X (Proc.devRef .tc main_arg8)) shapeCasts_S2_S1x2 := by
  after_results
  rfl

/-- The stretch writes neither kernel 0's output ... -/
theorem fb_h2_keep_v5 (X : Valuation τ sig (Elt Ideal)) :
    StableHlo.after hostOps2 X (Proc.devRef .tc main_v5) = X (Proc.devRef .tc main_v5) :=
  StableHlo.after_of_forall_not_mem (b := Proc.devRef .tc main_v5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- ... nor kernel 1's. -/
theorem fb_h2_keep_v23 (X : Valuation τ sig (Elt Ideal)) :
    StableHlo.after hostOps2 X (Proc.devRef .tc main_v23) = X (Proc.devRef .tc main_v23) :=
  StableHlo.after_of_forall_not_mem (b := Proc.devRef .tc main_v23) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The halves of a `[256, 2]` matrix and a one-row reshape, read at an index -/

/-- Row `k` of the upper half is row `k` of the matrix. -/
theorem fb_half_lo (x : FVec Ideal S256x2 .f32) (k : Fin 128) (a : Fin 2) :
    extractStridedSlice S128x2 ![0, 0] x slices_S256x2_S128x2_0_0 (ix2 k a) = x (ix2 (Fin.castAdd 128 k) a) :=
  extractStridedSlice_apply _ x _ _ _ (fun d => match d with
    | ⟨0, _⟩ => by show k.val = 0 + k.val; omega
    | ⟨1, _⟩ => by show a.val = 0 + a.val; omega)

/-- Row `k` of the lower half is row `128 + k` of the matrix. -/
theorem fb_half_hi (x : FVec Ideal S256x2 .f32) (k : Fin 128) (a : Fin 2) :
    extractStridedSlice S128x2 ![128, 0] x slices_S256x2_S128x2_128_0 (ix2 k a) = x (ix2 (Fin.natAdd 128 k) a) :=
  extractStridedSlice_apply _ x _ _ _ (fun d => match d with
    | ⟨0, _⟩ => by show 128 + k.val = 128 + k.val; rfl
    | ⟨1, _⟩ => by show a.val = 0 + a.val; omega)

/-- The bias as a one-row matrix reads, in its row, the bias. -/
theorem fb_row (x : FVec Ideal S2 .f32) (a : Fin 2) :
    shapeCast S1x2 x shapeCasts_S2_S1x2 (ix2 (0 : Fin 1) a) = x (ix1 a) :=
  shapeCast_a_1a_apply x shapeCasts_S2_S1x2 0 a

/-! ## The boundary before region 2 (W5) at region 2's input buffers -/

/-- The aggregated edge prompts: the last stretch's two scatter-adds of region 1's output into zeros. -/
theorem W5_v38 (c : Dev nD) :
    W5 m ρ c (Proc.devRef .tc main_v38) = eagg (m ((c : Thread nD τ).loc main_arg0)) (m ((c : Thread nD τ).loc main_arg4)) (m ((c : Thread nD τ).loc main_arg5)) (m ((c : Thread nD τ).loc main_arg6)) (m ((c : Thread nD τ).loc main_arg9)) := by
  show StableHlo.after hostOps2 (W4 m ρ c) (Proc.devRef .tc main_v38) = _
  rw [fb_h2_v38, W4_v1, W4_v3, W4_v23]
  rfl

/-- The node-prompted x is untouched by the last stretch. -/
theorem fb_W5_v5 (c : Dev nD) :
    W5 m ρ c (Proc.devRef .tc main_v5) = npx (m ((c : Thread nD τ).loc main_arg0)) (m ((c : Thread nD τ).loc main_arg1)) (m ((c : Thread nD τ).loc main_arg2)) (m ((c : Thread nD τ).loc main_arg3)) :=
  (fb_h2_keep_v5 (W4 m ρ c)).trans (W4_v5 m ρ c)

/-- The edge prompt is untouched by the last stretch. -/
theorem fb_W5_v23 (c : Dev nD) :
    W5 m ρ c (Proc.devRef .tc main_v23) = eprompt (m ((c : Thread nD τ).loc main_arg0)) (m ((c : Thread nD τ).loc main_arg4)) (m ((c : Thread nD τ).loc main_arg5)) (m ((c : Thread nD τ).loc main_arg6)) (m ((c : Thread nD τ).loc main_arg9)) :=
  (fb_h2_keep_v23 (W4 m ρ c)).trans (W4_v23 m ρ c)

/-- Region 2's first gate window is the upper half of the gate matrix. -/
theorem fb_W5_v39 (c : Dev nD) (k : Fin 128) (a : Fin 2) :
    W5 m ρ c (Proc.devRef .tc main_v39) (ix2 k a) = (m ((c : Thread nD τ).loc main_arg7)) (ix2 (Fin.castAdd 128 k) a) := by
  show StableHlo.after hostOps2 (W4 m ρ c) (Proc.devRef .tc main_v39) (ix2 k a) = _
  rw [fb_h2_v39, W4_arg7]
  exact fb_half_lo _ k a

/-- Region 2's second gate window is the lower half of the gate matrix. -/
theorem fb_W5_v40 (c : Dev nD) (k : Fin 128) (a : Fin 2) :
    W5 m ρ c (Proc.devRef .tc main_v40) (ix2 k a) = (m ((c : Thread nD τ).loc main_arg7)) (ix2 (Fin.natAdd 128 k) a) := by
  show StableHlo.after hostOps2 (W4 m ρ c) (Proc.devRef .tc main_v40) (ix2 k a) = _
  rw [fb_h2_v40, W4_arg7]
  exact fb_half_hi _ k a

/-- Region 2's bias window is the gate bias. -/
theorem fb_W5_v41 (c : Dev nD) (a : Fin 2) :
    W5 m ρ c (Proc.devRef .tc main_v41) (ix2 (0 : Fin 1) a) = (m ((c : Thread nD τ).loc main_arg8)) (ix1 a) := by
  show StableHlo.after hostOps2 (W4 m ρ c) (Proc.devRef .tc main_v41) (ix2 (0 : Fin 1) a) = _
  rw [fb_h2_v41, W4_arg8]
  exact fb_row _ a

/-! The run's final contents (W6) at the four result buffers. -/

/-- The node-prompted x at the end of the run. -/
theorem W6_v5 (c : Dev nD) :
    W6 m ρ c (Proc.devRef .tc main_v5) = npx (m ((c : Thread nD τ).loc main_arg0)) (m ((c : Thread nD τ).loc main_arg1)) (m ((c : Thread nD τ).loc main_arg2)) (m ((c : Thread nD τ).loc main_arg3)) :=
  calc W6 m ρ c (Proc.devRef .tc main_v5)
    _ = W5 m ρ c (Proc.devRef .tc main_v5) := (W6_arr m ρ c 0).trans (((dat2 (V5 m ρ) c).arrAt_in 0 rfl _).trans (A_eq2 (V5 m ρ) c 0))
    _ = _ := fb_W5_v5 m ρ c

/-- The edge prompt at the end of the run. -/
theorem W6_v23 (c : Dev nD) :
    W6 m ρ c (Proc.devRef .tc main_v23) = eprompt (m ((c : Thread nD τ).loc main_arg0)) (m ((c : Thread nD τ).loc main_arg4)) (m ((c : Thread nD τ).loc main_arg5)) (m ((c : Thread nD τ).loc main_arg6)) (m ((c : Thread nD τ).loc main_arg9)) :=
  calc W6 m ρ c (Proc.devRef .tc main_v23)
    _ = W5 m ρ c (Proc.devRef .tc main_v23) := W6_of_ne m ρ c main_v23 (by decide)
    _ = _ := fb_W5_v23 m ρ c

/-- The aggregated edge prompts at the end of the run. -/
theorem W6_v38 (c : Dev nD) :
    W6 m ρ c (Proc.devRef .tc main_v38) = eagg (m ((c : Thread nD τ).loc main_arg0)) (m ((c : Thread nD τ).loc main_arg4)) (m ((c : Thread nD τ).loc main_arg5)) (m ((c : Thread nD τ).loc main_arg6)) (m ((c : Thread nD τ).loc main_arg9)) :=
  calc W6 m ρ c (Proc.devRef .tc main_v38)
    _ = W5 m ρ c (Proc.devRef .tc main_v38) := (W6_arr m ρ c 1).trans (((dat2 (V5 m ρ) c).arrAt_in 1 rfl _).trans (A_eq2 (V5 m ρ) c 1))
    _ = _ := W5_v38 m ρ c

/-- Region 2's output is the gated fusion of the node-prompted x and the aggregated edge prompts, its gate windows
    the two halves of the gate matrix. -/
theorem W6_v42 (c : Dev nD) :
    W6 m ρ c (Proc.devRef .tc main_v42)
      = fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e1 : V5 m ρ c main_v5 = npx (m ((c : Thread nD τ).loc main_arg0)) (m ((c : Thread nD τ).loc main_arg1)) (m ((c : Thread nD τ).loc main_arg2)) (m ((c : Thread nD τ).loc main_arg3)) := fb_W5_v5 m ρ c
  have e2 : V5 m ρ c main_v38 = eagg (m ((c : Thread nD τ).loc main_arg0)) (m ((c : Thread nD τ).loc main_arg4)) (m ((c : Thread nD τ).loc main_arg5)) (m ((c : Thread nD τ).loc main_arg6)) (m ((c : Thread nD τ).loc main_arg9)) := W5_v38 m ρ c
  have e3 : (fun (k : Fin 128) (a : Fin 2) => V5 m ρ c main_v39 (ix2 k a))
      = fun k a => (m ((c : Thread nD τ).loc main_arg7)) (ix2 (Fin.castAdd 128 k) a) := by
    funext k a; exact fb_W5_v39 m ρ c k a
  have e4 : (fun (k : Fin 128) (a : Fin 2) => V5 m ρ c main_v40 (ix2 k a))
      = fun k a => (m ((c : Thread nD τ).loc main_arg7)) (ix2 (Fin.natAdd 128 k) a) := by
    funext k a; exact fb_W5_v40 m ρ c k a
  have e5 : (fun (a : Fin 2) => V5 m ρ c main_v41 (ix2 0 a))
      = fun a => (m ((c : Thread nD τ).loc main_arg8)) (ix1 a) := by
    funext a; exact fb_W5_v41 m ρ c a
  refine (W6_arr m ρ c 5).trans ((Reg.final2 (V5 m ρ) c).trans ?_)
  rw [e1, e2, e3, e4, e5]
  rfl

end Cert.KernelIdeal.Fold

end
-- ==== Proof.KVal.lean ====
/-
  The kernel program's run with its four results named as functions of the argument arrays: the launch's post puts
  each result at the last boundary's contents, and the fold read back says what those are.
-/
import proofs.«175747_j34248069218340_1_alg».proof.Proof.KRun
import proofs.«175747_j34248069218340_1_alg».proof.Proof.KFoldB

noncomputable section

namespace Cert.KernelIdeal.Fold

open Cert.KernelIdeal Cert.KernelIdeal.Gen Cert.Rows Idealize.ShloMosaic Idealize.ShloMosaic.TcCoe Idealize.SL.Sem

/-- From any memory with zero counters every weakly fair execution of the kernel program terminates, nothing
    faulting, with its four results at the four result functions of the argument arrays, the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = fused (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v23) = eprompt (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg9))
      ∧ r.2.mem ((c.tc : Thread nD τ).loc main_v5) = npx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v38) = eagg (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
      ⟨(h c).1.trans (W6_v42 m ρ c), (h c).2.1.trans (W6_v23 m ρ c), (h c).2.2.1.trans (W6_v5 m ρ c),
       (h c).2.2.2.1.trans (W6_v38 m ρ c), (h c).2.2.2.2⟩)
    (run_W6 (F := Ideal) m ρ)

end Cert.KernelIdeal.Fold

end
-- ==== Proof.ROps.lean ====
import proofs.«175747_j34248069218340_1_alg».proof.Proof.Gen.ReferenceIdeal
import Idealize.ShloMosaic.Lib.StableHlo.Run

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- The 115 host operations of the reference's @main, in order; the leaky rectifier's and its select's own
    operations stand where they are called, over the call's buffers. -/
abbrev ops : List (HloOp τ sig (Elt F)) :=
  [ StableHlo.unary main_arg9 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg9 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.binary main_arg0 main_arg2 main_v4 ((fun l r => Host.dotGeneral dot_S50000x128_S128x5_S50000x5_1_0_0_1_n_n none l r) : (⟨S50000x128, .f32⟩ : BufTy).Contents (Elt F) → (⟨S128x5, .f32⟩ : BufTy).Contents (Elt F) → (⟨S50000x5, .f32⟩ : BufTy).Contents (Elt F)),
    StableHlo.unary main_arg3 main_v5 (broadcastInDim S1x5 ![1] bcast_S5_S1x5_1 : (⟨S5, .f32⟩ : BufTy).Contents (Elt F) → (⟨S1x5, .f32⟩ : BufTy).Contents (Elt F)),
    StableHlo.unary main_v5 main_v6 (broadcastInDim S50000x5 ![0, 1] bcast_S1x5_S50000x5_0_1 : (⟨S1x5, .f32⟩ : BufTy).Contents (Elt F) → (⟨S50000x5, .f32⟩ : BufTy).Contents (Elt F)),
    StableHlo.binary main_v4 main_v6 main_v7 (addf : (⟨S50000x5, .f32⟩ : BufTy).Contents (Elt F) → (⟨S50000x5, .f32⟩ : BufTy).Contents (Elt F) → (⟨S50000x5, .f32⟩ : BufTy).Contents (Elt F)),
    StableHlo.nullary main_cst (constant S_ .f32 0xFF800000#32),
    StableHlo.binary main_v7 main_cst main_v8 ((fun x v => Host.reduce FloatOps.maximumf x v reducesTo_S50000x5_S50000_d1 h_S_) : (⟨S50000x5, .f32⟩ : BufTy).Contents (Elt F) → (⟨S_, .f32⟩ : BufTy).Contents (Elt F) → (⟨S50000, .f32⟩ : BufTy).Contents (Elt F)),
    StableHlo.nullary main_cst_0 (constant S_ .f32 0xFF800000#32),
    StableHlo.unary main_cst_0 main_v9 (broadcastInDim S50000 ![] bcast_S_S50000 : (⟨S_, .f32⟩ : BufTy).Contents (Elt F) → (⟨S50000, .f32⟩ : BufTy).Contents (Elt F)),
    StableHlo.binary main_v9 main_v8 main_v10 (maximumf : (⟨S50000, .f32⟩ : BufTy).Contents (Elt F) → (⟨S50000, .f32⟩ : BufTy).Contents (Elt F) → (⟨S50000, .f32⟩ : BufTy).Contents (Elt F)),
    StableHlo.unary main_v10 main_v11 (broadcastInDim S50000x1 ![0] bcast_S50000_S50000x1_0 : (⟨S50000, .f32⟩ : BufTy).Contents (Elt F) → (⟨S50000x1, .f32⟩ : BufTy).Contents (Elt F)),
    StableHlo.unary main_v11 main_v12 (broadcastInDim S50000x5 ![0, 1] bcast_S50000x1_S50000x5_0_1 : (⟨S50000x1, .f32⟩ : BufTy).Contents (Elt F) → (⟨S50000x5, .f32⟩ : BufTy).Contents (Elt F)),
    StableHlo.binary main_v7 main_v12 main_v13 (subf : (⟨S50000x5, .f32⟩ : BufTy).Contents (Elt F) → (⟨S50000x5, .f32⟩ : BufTy).Contents (Elt F) → (⟨S50000x5, .f32⟩ : BufTy).Contents (Elt F)),
    StableHlo.unary main_v13 main_v14 (Host.exp : (⟨S50000x5, .f32⟩ : BufTy).Contents (Elt F) → (⟨S50000x5, .f32⟩ : BufTy).Contents (Elt F)),
    StableHlo.nullary main_cst_1 (constant S_ .f32 0x00000000#32),
    StableHlo.binary main_v14 main_cst_1 main_v15 ((fun x v => Host.reduceAdd x v reducesTo_S50000x5_S50000_d1 h_S_) : (⟨S50000x5, .f32⟩ : BufTy).Contents (Elt F) → (⟨S_, .f32⟩ : BufTy).Contents (Elt F) → (⟨S50000, .f32⟩ : BufTy).Contents (Elt F)),
    StableHlo.unary main_v15 main_v16 (broadcastInDim S50000x1 ![0] bcast_S50000_S50000x1_0 : (⟨S50000, .f32⟩ : BufTy).Contents (Elt F) → (⟨S50000x1, .f32⟩ : BufTy).Contents (Elt F)),
    StableHlo.unary main_v16 main_v17 (broadcastInDim S50000x5 ![0, 1] bcast_S50000x1_S50000x5_0_1 : (⟨S50000x1, .f32⟩ : BufTy).Contents (Elt F) → (⟨S50000x5, .f32⟩ : BufTy).Contents (Elt F)),
    StableHlo.binary main_v14 main_v17 main_v18 (Host.divf : (⟨S50000x5, .f32⟩ : BufTy).Contents (Elt F) → (⟨S50000x5, .f32⟩ : BufTy).Contents (Elt F) → (⟨S50000x5, .f32⟩ : BufTy).Contents (Elt F)),
    StableHlo.binary main_v18 main_arg1 main_v19 ((fun l r => Host.dotGeneral dot_S50000x5_S5x128_S50000x128_1_0_0_1_n_n none l r) : (⟨S50000x5, .f32⟩ : BufTy).Contents (Elt F) → (⟨S5x128, .f32⟩ : BufTy).Contents (Elt F) → (⟨S50000x128, .f32⟩ : BufTy).Contents (Elt F)),
    StableHlo.binary main_arg0 main_v19 main_v20 (addf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v21 (broadcastInDim S640000 ![] bcast_S_S640000 : (⟨S_, .i32⟩ : BufTy).Contents (Elt F) → (⟨S640000, .i32⟩ : BufTy).Contents (Elt F)),
    StableHlo.binary main_v1 main_v21 main_v22 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 50000#32),
    StableHlo.unary main_c_2 main_v23 (broadcastInDim S640000 ![] bcast_S_S640000 : (⟨S_, .i32⟩ : BufTy).Contents (Elt F) → (⟨S640000, .i32⟩ : BufTy).Contents (Elt F)),
    StableHlo.binary main_v1 main_v23 main_v24 (addi : (⟨S640000, .i32⟩ : BufTy).Contents (Elt F) → (⟨S640000, .i32⟩ : BufTy).Contents (Elt F) → (⟨S640000, .i32⟩ : BufTy).Contents (Elt F)),
    StableHlo.ternary main_v22 main_v24 main_v1 main_v25 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v25 main_v26 (broadcastInDim S640000x1 ![0] bcast_S640000_S640000x1_0 : (⟨S640000, .i32⟩ : BufTy).Contents (Elt F) → (⟨S640000x1, .i32⟩ : BufTy).Contents (Elt F)),
    StableHlo.binary main_arg0 main_v26 main_v27 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.nullary main_c_3 (constantI S_ 32 0#32),
    StableHlo.unary main_c_3 main_v28 (broadcastInDim S640000 ![] bcast_S_S640000 : (⟨S_, .i32⟩ : BufTy).Contents (Elt F) → (⟨S640000, .i32⟩ : BufTy).Contents (Elt F)),
    StableHlo.binary main_v3 main_v28 main_v29 (cmpi .slt : (⟨S640000, .i32⟩ : BufTy).Contents (Elt F) → (⟨S640000, .i32⟩ : BufTy).Contents (Elt F) → (⟨S640000, .i1⟩ : BufTy).Contents (Elt F)),
    StableHlo.nullary main_c_4 (constantI S_ 32 50000#32),
    StableHlo.unary main_c_4 main_v30 (broadcastInDim S640000 ![] bcast_S_S640000 : (⟨S_, .i32⟩ : BufTy).Contents (Elt F) → (⟨S640000, .i32⟩ : BufTy).Contents (Elt F)),
    StableHlo.binary main_v3 main_v30 main_v31 (addi : (⟨S640000, .i32⟩ : BufTy).Contents (Elt F) → (⟨S640000, .i32⟩ : BufTy).Contents (Elt F) → (⟨S640000, .i32⟩ : BufTy).Contents (Elt F)),
    StableHlo.ternary main_v29 main_v31 main_v3 main_v32 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v32 main_v33 (broadcastInDim S640000x1 ![0] bcast_S640000_S640000x1_0 : (⟨S640000, .i32⟩ : BufTy).Contents (Elt F) → (⟨S640000x1, .i32⟩ : BufTy).Contents (Elt F)),
    StableHlo.binary main_arg0 main_v33 main_v34 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v27 main_v34 main_v35 ((fun a b => concatenate S640000x256 1 [⟨S640000x128, a⟩, ⟨S640000x128, b⟩] concatenates_S640000x128_S640000x128_S640000x256_d1) : (⟨S640000x128, .f32⟩ : BufTy).Contents (Elt F) → (⟨S640000x128, .f32⟩ : BufTy).Contents (Elt F) → (⟨S640000x256, .f32⟩ : BufTy).Contents (Elt F)),
    StableHlo.binary main_v35 main_arg5 main_v36 ((fun l r => Host.dotGeneral dot_S640000x256_S256x5_S640000x5_1_0_0_1_n_n none l r) : (⟨S640000x256, .f32⟩ : BufTy).Contents (Elt F) → (⟨S256x5, .f32⟩ : BufTy).Contents (Elt F) → (⟨S640000x5, .f32⟩ : BufTy).Contents (Elt F)),
    StableHlo.unary main_arg6 main_v37 (broadcastInDim S1x5 ![1] bcast_S5_S1x5_1 : (⟨S5, .f32⟩ : BufTy).Contents (Elt F) → (⟨S1x5, .f32⟩ : BufTy).Contents (Elt F)),
    StableHlo.unary main_v37 main_v38 (broadcastInDim S640000x5 ![0, 1] bcast_S1x5_S640000x5_0_1 : (⟨S1x5, .f32⟩ : BufTy).Contents (Elt F) → (⟨S640000x5, .f32⟩ : BufTy).Contents (Elt F)),
    StableHlo.binary main_v36 main_v38 main_v39 (addf : (⟨S640000x5, .f32⟩ : BufTy).Contents (Elt F) → (⟨S640000x5, .f32⟩ : BufTy).Contents (Elt F) → (⟨S640000x5, .f32⟩ : BufTy).Contents (Elt F)),
    StableHlo.TRef.nullary main_call0.cst (constant S_ .f32 0x00000000#32),
    StableHlo.TRef.unary main_call0.cst main_call0.v0 (broadcastInDim S640000x5 ![] bcast_S_S640000x5),
    StableHlo.TRef.binary (.of main_v39) main_call0.v0 main_call0.v1 (cmpf .oge),
    StableHlo.TRef.nullary main_call0.cst_0 (constant S_ .f32 0x3C23D70A#32),
    StableHlo.TRef.unary main_call0.cst_0 main_call0.v2 (broadcastInDim S640000x5 ![] bcast_S_S640000x5),
    StableHlo.TRef.binary main_call0.v2 (.of main_v39) main_call0.v3 mulf,
    StableHlo.TRef.ternary main_call0.v1 (.of main_v39) main_call0.v3 main_call0.call0.v0 select,
    StableHlo.nullary main_cst_5 (constant S_ .f32 0xFF800000#32),
    StableHlo.binary main_v40 main_cst_5 main_v41 ((fun x v => Host.reduce FloatOps.maximumf x v reducesTo_S640000x5_S640000_d1 h_S_) : (⟨S640000x5, .f32⟩ : BufTy).Contents (Elt F) → (⟨S_, .f32⟩ : BufTy).Contents (Elt F) → (⟨S640000, .f32⟩ : BufTy).Contents (Elt F)),
    StableHlo.nullary main_cst_6 (constant S_ .f32 0xFF800000#32),
    StableHlo.unary main_cst_6 main_v42 (broadcastInDim S640000 ![] bcast_S_S640000 : (⟨S_, .f32⟩ : BufTy).Contents (Elt F) → (⟨S640000, .f32⟩ : BufTy).Contents (Elt F)),
    StableHlo.binary main_v42 main_v41 main_v43 (maximumf : (⟨S640000, .f32⟩ : BufTy).Contents (Elt F) → (⟨S640000, .f32⟩ : BufTy).Contents (Elt F) → (⟨S640000, .f32⟩ : BufTy).Contents (Elt F)),
    StableHlo.unary main_v43 main_v44 (broadcastInDim S640000x1 ![0] bcast_S640000_S640000x1_0 : (⟨S640000, .f32⟩ : BufTy).Contents (Elt F) → (⟨S640000x1, .f32⟩ : BufTy).Contents (Elt F)),
    StableHlo.unary main_v44 main_v45 (broadcastInDim S640000x5 ![0, 1] bcast_S640000x1_S640000x5_0_1 : (⟨S640000x1, .f32⟩ : BufTy).Contents (Elt F) → (⟨S640000x5, .f32⟩ : BufTy).Contents (Elt F)),
    StableHlo.binary main_v40 main_v45 main_v46 (subf : (⟨S640000x5, .f32⟩ : BufTy).Contents (Elt F) → (⟨S640000x5, .f32⟩ : BufTy).Contents (Elt F) → (⟨S640000x5, .f32⟩ : BufTy).Contents (Elt F)),
    StableHlo.unary main_v46 main_v47 (Host.exp : (⟨S640000x5, .f32⟩ : BufTy).Contents (Elt F) → (⟨S640000x5, .f32⟩ : BufTy).Contents (Elt F)),
    StableHlo.nullary main_cst_7 (constant S_ .f32 0x00000000#32),
    StableHlo.binary main_v47 main_cst_7 main_v48 ((fun x v => Host.reduceAdd x v reducesTo_S640000x5_S640000_d1 h_S_) : (⟨S640000x5, .f32⟩ : BufTy).Contents (Elt F) → (⟨S_, .f32⟩ : BufTy).Contents (Elt F) → (⟨S640000, .f32⟩ : BufTy).Contents (Elt F)),
    StableHlo.unary main_v48 main_v49 (broadcastInDim S640000x1 ![0] bcast_S640000_S640000x1_0 : (⟨S640000, .f32⟩ : BufTy).Contents (Elt F) → (⟨S640000x1, .f32⟩ : BufTy).Contents (Elt F)),
    StableHlo.unary main_v49 main_v50 (broadcastInDim S640000x5 ![0, 1] bcast_S640000x1_S640000x5_0_1 : (⟨S640000x1, .f32⟩ : BufTy).Contents (Elt F) → (⟨S640000x5, .f32⟩ : BufTy).Contents (Elt F)),
    StableHlo.binary main_v47 main_v50 main_v51 (Host.divf : (⟨S640000x5, .f32⟩ : BufTy).Contents (Elt F) → (⟨S640000x5, .f32⟩ : BufTy).Contents (Elt F) → (⟨S640000x5, .f32⟩ : BufTy).Contents (Elt F)),
    StableHlo.binary main_v51 main_arg4 main_v52 ((fun l r => Host.dotGeneral dot_S640000x5_S5x128_S640000x128_1_0_0_1_n_n none l r) : (⟨S640000x5, .f32⟩ : BufTy).Contents (Elt F) → (⟨S5x128, .f32⟩ : BufTy).Contents (Elt F) → (⟨S640000x128, .f32⟩ : BufTy).Contents (Elt F)),
    StableHlo.nullary main_cst_8 (constant S_ .f32 0x00000000#32),
    StableHlo.unary main_cst_8 main_v53 (broadcastInDim S50000x128 ![] bcast_S_S50000x128 : (⟨S_, .f32⟩ : BufTy).Contents (Elt F) → (⟨S50000x128, .f32⟩ : BufTy).Contents (Elt F)),
    StableHlo.nullary main_c_9 (constantI S_ 32 0#32),
    StableHlo.unary main_c_9 main_v54 (broadcastInDim S640000 ![] bcast_S_S640000 : (⟨S_, .i32⟩ : BufTy).Contents (Elt F) → (⟨S640000, .i32⟩ : BufTy).Contents (Elt F)),
    StableHlo.binary main_v1 main_v54 main_v55 (cmpi .slt : (⟨S640000, .i32⟩ : BufTy).Contents (Elt F) → (⟨S640000, .i32⟩ : BufTy).Contents (Elt F) → (⟨S640000, .i1⟩ : BufTy).Contents (Elt F)),
    StableHlo.nullary main_c_10 (constantI S_ 32 50000#32),
    StableHlo.unary main_c_10 main_v56 (broadcastInDim S640000 ![] bcast_S_S640000 : (⟨S_, .i32⟩ : BufTy).Contents (Elt F) → (⟨S640000, .i32⟩ : BufTy).Contents (Elt F)),
    StableHlo.binary main_v1 main_v56 main_v57 (addi : (⟨S640000, .i32⟩ : BufTy).Contents (Elt F) → (⟨S640000, .i32⟩ : BufTy).Contents (Elt F) → (⟨S640000, .i32⟩ : BufTy).Contents (Elt F)),
    StableHlo.ternary main_v55 main_v57 main_v1 main_v58 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v58 main_v59 (broadcastInDim S640000x1 ![0] bcast_S640000_S640000x1_0 : (⟨S640000, .i32⟩ : BufTy).Contents (Elt F) → (⟨S640000x1, .i32⟩ : BufTy).Contents (Elt F)),
    StableHlo.ternary main_v53 main_v59 main_v52 main_v60 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.nullary main_c_11 (constantI S_ 32 0#32),
    StableHlo.unary main_c_11 main_v61 (broadcastInDim S640000 ![] bcast_S_S640000 : (⟨S_, .i32⟩ : BufTy).Contents (Elt F) → (⟨S640000, .i32⟩ : BufTy).Contents (Elt F)),
    StableHlo.binary main_v3 main_v61 main_v62 (cmpi .slt : (⟨S640000, .i32⟩ : BufTy).Contents (Elt F) → (⟨S640000, .i32⟩ : BufTy).Contents (Elt F) → (⟨S640000, .i1⟩ : BufTy).Contents (Elt F)),
    StableHlo.nullary main_c_12 (constantI S_ 32 50000#32),
    StableHlo.unary main_c_12 main_v63 (broadcastInDim S640000 ![] bcast_S_S640000 : (⟨S_, .i32⟩ : BufTy).Contents (Elt F) → (⟨S640000, .i32⟩ : BufTy).Contents (Elt F)),
    StableHlo.binary main_v3 main_v63 main_v64 (addi : (⟨S640000, .i32⟩ : BufTy).Contents (Elt F) → (⟨S640000, .i32⟩ : BufTy).Contents (Elt F) → (⟨S640000, .i32⟩ : BufTy).Contents (Elt F)),
    StableHlo.ternary main_v62 main_v64 main_v3 main_v65 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v65 main_v66 (broadcastInDim S640000x1 ![0] bcast_S640000_S640000x1_0 : (⟨S640000, .i32⟩ : BufTy).Contents (Elt F) → (⟨S640000x1, .i32⟩ : BufTy).Contents (Elt F)),
    StableHlo.ternary main_v60 main_v66 main_v52 main_v67 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v20 main_v67 main_v68 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v68 main_arg7 main_v69 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg8 main_v70 (broadcastInDim S1x2 ![1] bcast_S2_S1x2_1 : (⟨S2, .f32⟩ : BufTy).Contents (Elt F) → (⟨S1x2, .f32⟩ : BufTy).Contents (Elt F)),
    StableHlo.unary main_v70 main_v71 (broadcastInDim S50000x2 ![0, 1] bcast_S1x2_S50000x2_0_1 : (⟨S1x2, .f32⟩ : BufTy).Contents (Elt F) → (⟨S50000x2, .f32⟩ : BufTy).Contents (Elt F)),
    StableHlo.binary main_v69 main_v71 main_v72 (addf : (⟨S50000x2, .f32⟩ : BufTy).Contents (Elt F) → (⟨S50000x2, .f32⟩ : BufTy).Contents (Elt F) → (⟨S50000x2, .f32⟩ : BufTy).Contents (Elt F)),
    StableHlo.nullary main_cst_13 (constant S_ .f32 0xFF800000#32),
    StableHlo.binary main_v72 main_cst_13 main_v73 ((fun x v => Host.reduce FloatOps.maximumf x v reducesTo_S50000x2_S50000_d1 h_S_) : (⟨S50000x2, .f32⟩ : BufTy).Contents (Elt F) → (⟨S_, .f32⟩ : BufTy).Contents (Elt F) → (⟨S50000, .f32⟩ : BufTy).Contents (Elt F)),
    StableHlo.nullary main_cst_14 (constant S_ .f32 0xFF800000#32),
    StableHlo.unary main_cst_14 main_v74 (broadcastInDim S50000 ![] bcast_S_S50000 : (⟨S_, .f32⟩ : BufTy).Contents (Elt F) → (⟨S50000, .f32⟩ : BufTy).Contents (Elt F)),
    StableHlo.binary main_v74 main_v73 main_v75 (maximumf : (⟨S50000, .f32⟩ : BufTy).Contents (Elt F) → (⟨S50000, .f32⟩ : BufTy).Contents (Elt F) → (⟨S50000, .f32⟩ : BufTy).Contents (Elt F)),
    StableHlo.unary main_v75 main_v76 (broadcastInDim S50000x1 ![0] bcast_S50000_S50000x1_0 : (⟨S50000, .f32⟩ : BufTy).Contents (Elt F) → (⟨S50000x1, .f32⟩ : BufTy).Contents (Elt F)),
    StableHlo.unary main_v76 main_v77 (broadcastInDim S50000x2 ![0, 1] bcast_S50000x1_S50000x2_0_1 : (⟨S50000x1, .f32⟩ : BufTy).Contents (Elt F) → (⟨S50000x2, .f32⟩ : BufTy).Contents (Elt F)),
    StableHlo.binary main_v72 main_v77 main_v78 (subf : (⟨S50000x2, .f32⟩ : BufTy).Contents (Elt F) → (⟨S50000x2, .f32⟩ : BufTy).Contents (Elt F) → (⟨S50000x2, .f32⟩ : BufTy).Contents (Elt F)),
    StableHlo.unary main_v78 main_v79 (Host.exp : (⟨S50000x2, .f32⟩ : BufTy).Contents (Elt F) → (⟨S50000x2, .f32⟩ : BufTy).Contents (Elt F)),
    StableHlo.nullary main_cst_15 (constant S_ .f32 0x00000000#32),
    StableHlo.binary main_v79 main_cst_15 main_v80 ((fun x v => Host.reduceAdd x v reducesTo_S50000x2_S50000_d1 h_S_) : (⟨S50000x2, .f32⟩ : BufTy).Contents (Elt F) → (⟨S_, .f32⟩ : BufTy).Contents (Elt F) → (⟨S50000, .f32⟩ : BufTy).Contents (Elt F)),
    StableHlo.unary main_v80 main_v81 (broadcastInDim S50000x1 ![0] bcast_S50000_S50000x1_0 : (⟨S50000, .f32⟩ : BufTy).Contents (Elt F) → (⟨S50000x1, .f32⟩ : BufTy).Contents (Elt F)),
    StableHlo.unary main_v81 main_v82 (broadcastInDim S50000x2 ![0, 1] bcast_S50000x1_S50000x2_0_1 : (⟨S50000x1, .f32⟩ : BufTy).Contents (Elt F) → (⟨S50000x2, .f32⟩ : BufTy).Contents (Elt F)),
    StableHlo.binary main_v79 main_v82 main_v83 (Host.divf : (⟨S50000x2, .f32⟩ : BufTy).Contents (Elt F) → (⟨S50000x2, .f32⟩ : BufTy).Contents (Elt F) → (⟨S50000x2, .f32⟩ : BufTy).Contents (Elt F)),
    StableHlo.unary main_v83 main_v84 ((extractStridedSlice S50000x1 ![0, 0] · slices_S50000x2_S50000x1_0_0) : (⟨S50000x2, .f32⟩ : BufTy).Contents (Elt F) → (⟨S50000x1, .f32⟩ : BufTy).Contents (Elt F)),
    StableHlo.unary main_v84 main_v85 (broadcastInDim S50000x128 ![0, 1] bcast_S50000x1_S50000x128_0_1 : (⟨S50000x1, .f32⟩ : BufTy).Contents (Elt F) → (⟨S50000x128, .f32⟩ : BufTy).Contents (Elt F)),
    StableHlo.binary main_v85 main_v20 main_v86 (mulf : (⟨S50000x128, .f32⟩ : BufTy).Contents (Elt F) → (⟨S50000x128, .f32⟩ : BufTy).Contents (Elt F) → (⟨S50000x128, .f32⟩ : BufTy).Contents (Elt F)),
    StableHlo.unary main_v83 main_v87 ((extractStridedSlice S50000x1 ![0, 1] · slices_S50000x2_S50000x1_0_1) : (⟨S50000x2, .f32⟩ : BufTy).Contents (Elt F) → (⟨S50000x1, .f32⟩ : BufTy).Contents (Elt F)),
    StableHlo.unary main_v87 main_v88 (broadcastInDim S50000x128 ![0, 1] bcast_S50000x1_S50000x128_0_1 : (⟨S50000x1, .f32⟩ : BufTy).Contents (Elt F) → (⟨S50000x128, .f32⟩ : BufTy).Contents (Elt F)),
    StableHlo.binary main_v88 main_v67 main_v89 (mulf : (⟨S50000x128, .f32⟩ : BufTy).Contents (Elt F) → (⟨S50000x128, .f32⟩ : BufTy).Contents (Elt F) → (⟨S50000x128, .f32⟩ : BufTy).Contents (Elt F)),
    StableHlo.binary main_v86 main_v89 main_v90 (addf : (⟨S50000x128, .f32⟩ : BufTy).Contents (Elt F) → (⟨S50000x128, .f32⟩ : BufTy).Contents (Elt F) → (⟨S50000x128, .f32⟩ : BufTy).Contents (Elt F)) ]

/-- Each operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

end Cert.ReferenceIdeal.RVal

end
-- ==== Proof.RRun.lean ====
/-
  The reference program's run, read back: its @main is the straight line of the listed host operations (the leaky
  rectifier's body and the select's stand inline where they are called), so every weakly fair execution
  terminates with every TensorCore buffer at the operations' fold over the launch memory.
-/
import proofs.«175747_j34248069218340_1_alg».proof.Proof.ROps
import Idealize.ShloMosaic.Lib.StableHlo.Run
import Idealize.ShloMosaic.Lib.Pipeline.Regions

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line: its two halves in order, the callees' definitions unfolded at their calls; both
    sides are one chain of steps once sequencing is reassociated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every final state has
    each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RVal

end
-- ==== Proof.RDefs.lean ====
/-
  The reference's four results as functions of its ten argument arrays.

  First the host program's own operations, stage by stage, as pure terms: the node prompt of x (`hostNP`), the edge
  prompt of two arrays of endpoint rows (`hostEP`), the gated fusion of two arrays of rows (`hostFU`), the start
  indices of an endpoint row of the edge list (`endIdx`: an index below zero is moved up by the number of nodes),
  the row gather (`gatherRows`) and the two scatter-adds into zeros (`scatter2`).
  Then the same four results through the row functions of the specification (`npx`, `eprompt`, `eagg`, `fused`):
  the gathers and the scatter-adds are kept as the host's operations, everything between them is row-wise.
-/
import proofs.«175747_j34248069218340_1_alg».proof.Proof.Gen.ReferenceIdeal
import proofs.«175747_j34248069218340_1_alg».proof.Proof.Spec

noncomputable section

namespace Cert.ReferenceIdeal.RVal

open Cert.ReferenceIdeal Cert.ReferenceIdeal.Gen Cert.Rows Idealize.ShloMosaic Idealize.ShloMosaic.ValueIdx

section Host
variable {F : FTy → Type} [FloatOps F]

/-- Row `r` (0: sources, 1: destinations) of the edge list as start indices: negative entries moved up by 50000. -/
def endIdx (row : IVec S640000 32) : IVec S640000x1 32 :=
  broadcastInDim S640000x1 ![0] bcast_S640000_S640000x1_0
    (select (cmpi .slt row (broadcastInDim S640000 ![] bcast_S_S640000 (constantI S_ 32 0#32)))
      (addi row (broadcastInDim S640000 ![] bcast_S_S640000 (constantI S_ 32 50000#32))) row)

/-- The sources' row of the edge list. -/
def srcRow (ei : IVec S2x640000 32) : IVec S640000 32 :=
  shapeCast S640000 (extractStridedSlice S1x640000 ![0, 0] ei slices_S2x640000_S1x640000_0_0) shapeCasts_S1x640000_S640000
/-- The destinations' row of the edge list. -/
def dstRow (ei : IVec S2x640000 32) : IVec S640000 32 :=
  shapeCast S640000 (extractStridedSlice S1x640000 ![1, 0] ei slices_S2x640000_S1x640000_1_0) shapeCasts_S1x640000_S640000

/-- The rows of x at the given start indices. -/
def gatherRows (x : FVec F S50000x128 .f32) (idx : IVec S640000x1 32) : FVec F S640000x128 .f32 :=
  Host.gather gather_S50000x128_S640000x1_S640000x128_1_0_n_n_0_1_1128 x idx

/-- The per-edge rows added into zeros at the sources' indices, then again at the destinations'. -/
def scatter2 (i1 i2 : IVec S640000x1 32) (u : FVec F S640000x128 .f32) : FVec F S50000x128 .f32 :=
  Host.scatterAdd scatter_S50000x128_S640000x1_S640000x128_1_0_0_1
    (Host.scatterAdd scatter_S50000x128_S640000x1_S640000x128_1_0_0_1
      (broadcastInDim S50000x128 ![] bcast_S_S50000x128 (constant S_ .f32 0x00000000#32)) i1 u) i2 u

/-- The host's node prompt: logits, the row maximum from -∞ joined with -∞, shifted exponentials, their row sum,
    the quotient, the product with the anchors, x added. -/
def hostNP (a0 : FVec F S50000x128 .f32) (a1 : FVec F S5x128 .f32) (a2 : FVec F S128x5 .f32) (a3 : FVec F S5 .f32) :
    FVec F S50000x128 .f32 :=
  let l : FVec F S50000x5 .f32 := addf (Host.dotGeneral dot_S50000x128_S128x5_S50000x5_1_0_0_1_n_n none a0 a2)
    (broadcastInDim S50000x5 ![0, 1] bcast_S1x5_S50000x5_0_1 (broadcastInDim S1x5 ![1] bcast_S5_S1x5_1 a3))
  let mx : FVec F S50000 .f32 := maximumf (broadcastInDim S50000 ![] bcast_S_S50000 (constant S_ .f32 0xFF800000#32))
    (Host.reduce FloatOps.maximumf l (constant S_ .f32 0xFF800000#32) reducesTo_S50000x5_S50000_d1 h_S_)
  let e : FVec F S50000x5 .f32 := Host.exp (subf l
    (broadcastInDim S50000x5 ![0, 1] bcast_S50000x1_S50000x5_0_1 (broadcastInDim S50000x1 ![0] bcast_S50000_S50000x1_0 mx)))
  let s : FVec F S50000 .f32 := Host.reduceAdd e (constant S_ .f32 0x00000000#32) reducesTo_S50000x5_S50000_d1 h_S_
  let w : FVec F S50000x5 .f32 := Host.divf e
    (broadcastInDim S50000x5 ![0, 1] bcast_S50000x1_S50000x5_0_1 (broadcastInDim S50000x1 ![0] bcast_S50000_S50000x1_0 s))
  addf a0 (Host.dotGeneral dot_S50000x5_S5x128_S50000x128_1_0_0_1_n_n none w a1)

/-- The host's edge prompt of two arrays of endpoint rows: the rows side by side, the product with the whole weight
    matrix, the bias, the leaky rectifier, the softmax, the product with the anchors. -/
def hostEP (xs xd : FVec F S640000x128 .f32) (a4 : FVec F S5x128 .f32) (a5 : FVec F S256x5 .f32) (a6 : FVec F S5 .f32) :
    FVec F S640000x128 .f32 :=
  let l : FVec F S640000x5 .f32 := addf
    (Host.dotGeneral dot_S640000x256_S256x5_S640000x5_1_0_0_1_n_n none
      (concatenate S640000x256 1 [⟨S640000x128, xs⟩, ⟨S640000x128, xd⟩] concatenates_S640000x128_S640000x128_S640000x256_d1) a5)
    (broadcastInDim S640000x5 ![0, 1] bcast_S1x5_S640000x5_0_1 (broadcastInDim S1x5 ![1] bcast_S5_S1x5_1 a6))
  let z : FVec F S640000x5 .f32 := select
    (cmpf .oge l (broadcastInDim S640000x5 ![] bcast_S_S640000x5 (constant S_ .f32 0x00000000#32)))
    l (mulf (broadcastInDim S640000x5 ![] bcast_S_S640000x5 (constant S_ .f32 0x3C23D70A#32)) l)
  let mx : FVec F S640000 .f32 := maximumf (broadcastInDim S640000 ![] bcast_S_S640000 (constant S_ .f32 0xFF800000#32))
    (Host.reduce FloatOps.maximumf z (constant S_ .f32 0xFF800000#32) reducesTo_S640000x5_S640000_d1 h_S_)
  let e : FVec F S640000x5 .f32 := Host.exp (subf z
    (broadcastInDim S640000x5 ![0, 1] bcast_S640000x1_S640000x5_0_1 (broadcastInDim S640000x1 ![0] bcast_S640000_S640000x1_0 mx)))
  let s : FVec F S640000 .f32 := Host.reduceAdd e (constant S_ .f32 0x00000000#32) reducesTo_S640000x5_S640000_d1 h_S_
  let w : FVec F S640000x5 .f32 := Host.divf e
    (broadcastInDim S640000x5 ![0, 1] bcast_S640000x1_S640000x5_0_1 (broadcastInDim S640000x1 ![0] bcast_S640000_S640000x1_0 s))
  Host.dotGeneral dot_S640000x5_S5x128_S640000x128_1_0_0_1_n_n none w a4

/-- The host's gated fusion of two arrays of rows: the rows side by side, the product with the whole gate matrix,
    the bias, the softmax over the two gates, each gate's column spread over its array's row, the two products added. -/
def hostFU (n e : FVec F S50000x128 .f32) (a7 : FVec F S256x2 .f32) (a8 : FVec F S2 .f32) : FVec F S50000x128 .f32 :=
  let l : FVec F S50000x2 .f32 := addf
    (Host.dotGeneral dot_S50000x256_S256x2_S50000x2_1_0_0_1_n_n none
      (concatenate S50000x256 1 [⟨S50000x128, n⟩, ⟨S50000x128, e⟩] concatenates_S50000x128_S50000x128_S50000x256_d1) a7)
    (broadcastInDim S50000x2 ![0, 1] bcast_S1x2_S50000x2_0_1 (broadcastInDim S1x2 ![1] bcast_S2_S1x2_1 a8))
  let mx : FVec F S50000 .f32 := maximumf (broadcastInDim S50000 ![] bcast_S_S50000 (constant S_ .f32 0xFF800000#32))
    (Host.reduce FloatOps.maximumf l (constant S_ .f32 0xFF800000#32) reducesTo_S50000x2_S50000_d1 h_S_)
  let ex : FVec F S50000x2 .f32 := Host.exp (subf l
    (broadcastInDim S50000x2 ![0, 1] bcast_S50000x1_S50000x2_0_1 (broadcastInDim S50000x1 ![0] bcast_S50000_S50000x1_0 mx)))
  let s : FVec F S50000 .f32 := Host.reduceAdd ex (constant S_ .f32 0x00000000#32) reducesTo_S50000x2_S50000_d1 h_S_
  let g : FVec F S50000x2 .f32 := Host.divf ex
    (broadcastInDim S50000x2 ![0, 1] bcast_S50000x1_S50000x2_0_1 (broadcastInDim S50000x1 ![0] bcast_S50000_S50000x1_0 s))
  addf
    (mulf (broadcastInDim S50000x128 ![0, 1] bcast_S50000x1_S50000x128_0_1
      (extractStridedSlice S50000x1 ![0, 0] g slices_S50000x2_S50000x1_0_0)) n)
    (mulf (broadcastInDim S50000x128 ![0, 1] bcast_S50000x1_S50000x128_0_1
      (extractStridedSlice S50000x1 ![0, 1] g slices_S50000x2_S50000x1_0_1)) e)

end Host

/-! ## The four results through the row functions -/

/-- The node-prompted x. -/
def npx (a0 : FVec Ideal S50000x128 .f32) (a1 : FVec Ideal S5x128 .f32) (a2 : FVec Ideal S128x5 .f32) (a3 : FVec Ideal S5 .f32) :
    FVec Ideal S50000x128 .f32 :=
  NP (N := 50000) a0 (fun k a => a2 (ix2 k a)) (fun a => a3 (ix1 a)) (fun a d => a1 (ix2 a d))

/-- The edge prompt: one row per edge from the two endpoint rows of x. -/
def eprompt (a0 : FVec Ideal S50000x128 .f32) (a4 : FVec Ideal S5x128 .f32) (a5 : FVec Ideal S256x5 .f32) (a6 : FVec Ideal S5 .f32)
    (a9 : IVec S2x640000 32) : FVec Ideal S640000x128 .f32 :=
  EP (N := 640000) (gatherRows a0 (endIdx (srcRow a9))) (gatherRows a0 (endIdx (dstRow a9)))
    (fun k a => a5 (ix2 (Fin.castAdd 128 k) a)) (fun k a => a5 (ix2 (Fin.natAdd 128 k) a)) (fun a => a6 (ix1 a))
    (fun a d => a4 (ix2 a d))

/-- The edge prompts added up at both endpoints of every edge. -/
def eagg (a0 : FVec Ideal S50000x128 .f32) (a4 : FVec Ideal S5x128 .f32) (a5 : FVec Ideal S256x5 .f32) (a6 : FVec Ideal S5 .f32)
    (a9 : IVec S2x640000 32) : FVec Ideal S50000x128 .f32 :=
  scatter2 (endIdx (srcRow a9)) (endIdx (dstRow a9)) (eprompt a0 a4 a5 a6 a9)

/-- The gated fusion of the node-prompted x and the aggregated edge prompts. -/
def fused (a0 : FVec Ideal S50000x128 .f32) (a1 : FVec Ideal S5x128 .f32) (a2 : FVec Ideal S128x5 .f32) (a3 : FVec Ideal S5 .f32)
    (a4 : FVec Ideal S5x128 .f32) (a5 : FVec Ideal S256x5 .f32) (a6 : FVec Ideal S5 .f32) (a7 : FVec Ideal S256x2 .f32)
    (a8 : FVec Ideal S2 .f32) (a9 : IVec S2x640000 32) : FVec Ideal S50000x128 .f32 :=
  FU (N := 50000) (npx a0 a1 a2 a3) (eagg a0 a4 a5 a6 a9)
    (fun k a => a7 (ix2 (Fin.castAdd 128 k) a)) (fun k a => a7 (ix2 (Fin.natAdd 128 k) a)) (fun a => a8 (ix1 a))

end Cert.ReferenceIdeal.RVal

end
-- ==== Proof.RStage0.lean ====
/-
  The node prompt of the reference, read entry by entry.

  The host computes, for the whole array at once: logits = x · W + b (a product over the 128 feature coordinates, the
  bias repeated down the rows); each row's maximum from -∞, joined once more with -∞; the exponentials of the logits
  minus their row's maximum; each row's sum of those five exponentials; their quotient, the row's softmax weights; and
  x plus the product of the weights with the five anchor rows.

  Every step is row-wise, so the entry (r, d) of the result depends on row r of x alone. Read at (r, a) resp. (r, d):
  a product is a finite sum over its shared coordinate, a repeated vector is the vector at the kept coordinate, a row
  maximum is the fold of max over the row's five entries, a row sum from zero is the sum of the row's five entries.
  Composed, the entry is x (r, d) + ∑ a, softmax (logits of row r) a · An (a, d): the specification's row function.
-/
import proofs.«175747_j34248069218340_1_alg».proof.Proof.RDefs
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RVal

open Cert.ReferenceIdeal Cert.ReferenceIdeal.Gen Cert.Rows Idealize.ShloMosaic Idealize.ShloMosaic.ValueIdx

/-! ### The first product: x times the weight matrix -/

/-- The left operand's row coordinate is the result's row. -/
theorem r0_lhsA_0 (i : S50000x5.Idx) (q : dot_S50000x128_S128x5_S50000x5_1_0_0_1_n_n.contr.Idx) :
    (dot_S50000x128_S128x5_S50000x5_1_0_0_1_n_n.lhsIdx i q 0).val = (i 0).val := by
  unfold DotDims.lhsIdx
  rw [dif_neg (show ¬(0 : Fin S50000x128.rank) ∈ dot_S50000x128_S128x5_S50000x5_1_0_0_1_n_n.lhsBatch by decide),
    dif_pos (show (0 : Fin S50000x128.rank) ∈ dot_S50000x128_S128x5_S50000x5_1_0_0_1_n_n.lhsNonContracting by decide)]
  rfl
/-- The left operand's column coordinate is the contraction's coordinate. -/
theorem r0_lhsA_1 (i : S50000x5.Idx) (q : dot_S50000x128_S128x5_S50000x5_1_0_0_1_n_n.contr.Idx) :
    (dot_S50000x128_S128x5_S50000x5_1_0_0_1_n_n.lhsIdx i q 1).val = (q ⟨0, by decide⟩).val :=
  dot_S50000x128_S128x5_S50000x5_1_0_0_1_n_n.lhsIdx_val_of_single rfl i q
/-- The right operand's row coordinate is the contraction's coordinate. -/
theorem r0_rhsA_0 (i : S50000x5.Idx) (q : dot_S50000x128_S128x5_S50000x5_1_0_0_1_n_n.contr.Idx) :
    (dot_S50000x128_S128x5_S50000x5_1_0_0_1_n_n.rhsIdx i q 0).val = (q ⟨0, by decide⟩).val :=
  dot_S50000x128_S128x5_S50000x5_1_0_0_1_n_n.rhsIdx_val_of_single rfl i q
/-- The right operand's column coordinate is the result's column. -/
theorem r0_rhsA_1 (i : S50000x5.Idx) (q : dot_S50000x128_S128x5_S50000x5_1_0_0_1_n_n.contr.Idx) :
    (dot_S50000x128_S128x5_S50000x5_1_0_0_1_n_n.rhsIdx i q 1).val = (i 1).val := by
  unfold DotDims.rhsIdx
  rw [dif_neg (show ¬(1 : Fin S128x5.rank) ∈ dot_S50000x128_S128x5_S50000x5_1_0_0_1_n_n.rhsBatch by decide),
    dif_pos (show (1 : Fin S128x5.rank) ∈ dot_S50000x128_S128x5_S50000x5_1_0_0_1_n_n.rhsNonContracting by decide)]
  rfl

/-- The product at (r, c) is the sum over the 128 shared coordinates of row r of the left operand times column c of the right. -/
theorem r0_dotA_apply (x : FVec Ideal S50000x128 .f32) (w : FVec Ideal S128x5 .f32) (r : Fin 50000) (c : Fin 5) :
    Host.dotGeneral (F := Ideal) dot_S50000x128_S128x5_S50000x5_1_0_0_1_n_n none x w (ix2 r c) = ∑ k : Fin 128, x (ix2 r k) * w (ix2 k c) := by
  simp only [Host.dotGeneral]
  rw [Ideal.dotGeneral_apply, ← Equiv.sum_comp (contrEquiv1 dot_S50000x128_S128x5_S50000x5_1_0_0_1_n_n 128 rfl rfl).symm]
  refine Finset.sum_congr rfl fun k _ => ?_
  have hk := contrEquiv1_symm_val dot_S50000x128_S128x5_S50000x5_1_0_0_1_n_n 128 rfl rfl k
  have el : dot_S50000x128_S128x5_S50000x5_1_0_0_1_n_n.lhsIdx (ix2 r c) ((contrEquiv1 dot_S50000x128_S128x5_S50000x5_1_0_0_1_n_n 128 rfl rfl).symm k) = ix2 r k :=
    funext fun a => Fin.ext (by
      match a with
      | ⟨0, _⟩ => exact r0_lhsA_0 _ _
      | ⟨1, _⟩ => exact (r0_lhsA_1 _ _).trans hk)
  have er : dot_S50000x128_S128x5_S50000x5_1_0_0_1_n_n.rhsIdx (ix2 r c) ((contrEquiv1 dot_S50000x128_S128x5_S50000x5_1_0_0_1_n_n 128 rfl rfl).symm k) = ix2 k c :=
    funext fun a => Fin.ext (by
      match a with
      | ⟨0, _⟩ => exact (r0_rhsA_0 _ _).trans hk
      | ⟨1, _⟩ => exact r0_rhsA_1 _ _)
  rw [el, er]

/-! ### The second product: the weights times the anchors -/

/-- The left operand's row coordinate is the result's row. -/
theorem r0_lhsB_0 (i : S50000x128.Idx) (q : dot_S50000x5_S5x128_S50000x128_1_0_0_1_n_n.contr.Idx) :
    (dot_S50000x5_S5x128_S50000x128_1_0_0_1_n_n.lhsIdx i q 0).val = (i 0).val := by
  unfold DotDims.lhsIdx
  rw [dif_neg (show ¬(0 : Fin S50000x5.rank) ∈ dot_S50000x5_S5x128_S50000x128_1_0_0_1_n_n.lhsBatch by decide),
    dif_pos (show (0 : Fin S50000x5.rank) ∈ dot_S50000x5_S5x128_S50000x128_1_0_0_1_n_n.lhsNonContracting by decide)]
  rfl
/-- The left operand's column coordinate is the contraction's coordinate. -/
theorem r0_lhsB_1 (i : S50000x128.Idx) (q : dot_S50000x5_S5x128_S50000x128_1_0_0_1_n_n.contr.Idx) :
    (dot_S50000x5_S5x128_S50000x128_1_0_0_1_n_n.lhsIdx i q 1).val = (q ⟨0, by decide⟩).val :=
  dot_S50000x5_S5x128_S50000x128_1_0_0_1_n_n.lhsIdx_val_of_single rfl i q
/-- The right operand's row coordinate is the contraction's coordinate. -/
theorem r0_rhsB_0 (i : S50000x128.Idx) (q : dot_S50000x5_S5x128_S50000x128_1_0_0_1_n_n.contr.Idx) :
    (dot_S50000x5_S5x128_S50000x128_1_0_0_1_n_n.rhsIdx i q 0).val = (q ⟨0, by decide⟩).val :=
  dot_S50000x5_S5x128_S50000x128_1_0_0_1_n_n.rhsIdx_val_of_single rfl i q
/-- The right operand's column coordinate is the result's column. -/
theorem r0_rhsB_1 (i : S50000x128.Idx) (q : dot_S50000x5_S5x128_S50000x128_1_0_0_1_n_n.contr.Idx) :
    (dot_S50000x5_S5x128_S50000x128_1_0_0_1_n_n.rhsIdx i q 1).val = (i 1).val := by
  unfold DotDims.rhsIdx
  rw [dif_neg (show ¬(1 : Fin S5x128.rank) ∈ dot_S50000x5_S5x128_S50000x128_1_0_0_1_n_n.rhsBatch by decide),
    dif_pos (show (1 : Fin S5x128.rank) ∈ dot_S50000x5_S5x128_S50000x128_1_0_0_1_n_n.rhsNonContracting by decide)]
  rfl

/-- The product at (r, c) is the sum over the 5 shared coordinates of row r of the left operand times column c of the right. -/
theorem r0_dotB_apply (x : FVec Ideal S50000x5 .f32) (w : FVec Ideal S5x128 .f32) (r : Fin 50000) (c : Fin 128) :
    Host.dotGeneral (F := Ideal) dot_S50000x5_S5x128_S50000x128_1_0_0_1_n_n none x w (ix2 r c) = ∑ k : Fin 5, x (ix2 r k) * w (ix2 k c) := by
  simp only [Host.dotGeneral]
  rw [Ideal.dotGeneral_apply, ← Equiv.sum_comp (contrEquiv1 dot_S50000x5_S5x128_S50000x128_1_0_0_1_n_n 5 rfl rfl).symm]
  refine Finset.sum_congr rfl fun k _ => ?_
  have hk := contrEquiv1_symm_val dot_S50000x5_S5x128_S50000x128_1_0_0_1_n_n 5 rfl rfl k
  have el : dot_S50000x5_S5x128_S50000x128_1_0_0_1_n_n.lhsIdx (ix2 r c) ((contrEquiv1 dot_S50000x5_S5x128_S50000x128_1_0_0_1_n_n 5 rfl rfl).symm k) = ix2 r k :=
    funext fun a => Fin.ext (by
      match a with
      | ⟨0, _⟩ => exact r0_lhsB_0 _ _
      | ⟨1, _⟩ => exact (r0_lhsB_1 _ _).trans hk)
  have er : dot_S50000x5_S5x128_S50000x128_1_0_0_1_n_n.rhsIdx (ix2 r c) ((contrEquiv1 dot_S50000x5_S5x128_S50000x128_1_0_0_1_n_n 5 rfl rfl).symm k) = ix2 k c :=
    funext fun a => Fin.ext (by
      match a with
      | ⟨0, _⟩ => exact (r0_rhsB_0 _ _).trans hk
      | ⟨1, _⟩ => exact r0_rhsB_1 _ _)
  rw [el, er]

/-! ### The broadcasts -/

/-- The bias, first a row [1,5] then repeated down the rows, reads the bias at the column. -/
theorem r0_bias_apply (b : FVec Ideal S5 .f32) (r : Fin 50000) (a : Fin 5) :
    broadcastInDim S50000x5 ![0, 1] bcast_S1x5_S50000x5_0_1 (broadcastInDim S1x5 ![1] bcast_S5_S1x5_1 b) (ix2 r a)
      = b (ix1 a) := by
  refine (broadcastInDim_apply _ _ _ _ (ix2 (0 : Fin 1) a) (fun c => by
    match c with
    | ⟨0, _⟩ => rfl
    | ⟨1, _⟩ => rfl)).trans ?_
  exact broadcastInDim_apply _ _ _ _ (ix1 a) (fun c => by
    match c with
    | ⟨0, _⟩ => rfl)

/-- A vector of one entry per row, first a column [50000,1] then repeated along the rows, reads the vector at the row. -/
theorem r0_col_apply (v : FVec Ideal S50000 .f32) (r : Fin 50000) (a : Fin 5) :
    broadcastInDim S50000x5 ![0, 1] bcast_S50000x1_S50000x5_0_1 (broadcastInDim S50000x1 ![0] bcast_S50000_S50000x1_0 v) (ix2 r a)
      = v (ix1 r) := by
  refine (broadcastInDim_apply _ _ _ _ (ix2 r (0 : Fin 1)) (fun c => by
    match c with
    | ⟨0, _⟩ => rfl
    | ⟨1, _⟩ => rfl)).trans ?_
  exact broadcastInDim_apply _ _ _ _ (ix1 r) (fun c => by
    match c with
    | ⟨0, _⟩ => rfl)

/-! ### The two row reductions -/

/-- Row r of a [50000,5] array with column a inserted is the entry (r, a). -/
theorem r0_lift (h : S50000x5.Reduces [1] S50000) (r : Fin 50000) (a : Fin 5) :
    h.lift (ix1 r) a = ix2 r a :=
  funext fun c => Fin.ext (by
    match c with
    | ⟨0, _⟩ => rfl
    | ⟨1, _⟩ => rfl)

/-- The row maximum from -∞, joined once more with -∞, is the specification's row maximum of that row. -/
theorem r0_mx_apply (l : FVec Ideal S50000x5 .f32) (r : Fin 50000) :
    maximumf (broadcastInDim S50000 ![] bcast_S_S50000 (constant (F := Ideal) S_ .f32 0xFF800000#32))
      (Host.reduce FloatOps.maximumf l (constant (F := Ideal) S_ .f32 0xFF800000#32) reducesTo_S50000x5_S50000_d1 h_S_) (ix1 r)
      = rowMax (fun a : Fin 5 => l (ix2 r a)) := by
  have h : S50000x5.Reduces [1] S50000 := by decide
  rw [maximumf_apply, broadcastInDim_scalar_apply, constant_apply,
    Host.reduce_eq_fold_single FloatOps.maximumf l _ reducesTo_S50000x5_S50000_d1 h h_S_ (ix1 r), constant_apply]
  have e : (l ∘ h.lift (ix1 r)) = fun a : Fin 5 => l (ix2 r a) := funext fun a => congrArg l (r0_lift h r a)
  rw [e]
  rfl

/-- The row sum from the zero pattern is the sum of the row's five entries. -/
theorem r0_sum_apply (e : FVec Ideal S50000x5 .f32) (r : Fin 50000) :
    Host.reduceAdd (F := Ideal) e (constant (F := Ideal) S_ .f32 0x00000000#32) reducesTo_S50000x5_S50000_d1 h_S_ (ix1 r)
      = ∑ a : Fin 5, e (ix2 r a) := by
  have h : S50000x5.Reduces [1] S50000 := by decide
  rw [hostReduceAdd_apply, Ideal.hostReduceAdd_single reducesTo_S50000x5_S50000_d1 h, constant_apply,
    Ideal.ofBits_zero_f32, zero_add]
  exact Finset.sum_congr rfl fun a _ => congrArg e (r0_lift h r a)

/-! ### The stages at an entry -/

/-- The logits at (r, a): row r of x against column a of the weight matrix, plus the bias at a. -/
theorem r0_logits_apply (x : FVec Ideal S50000x128 .f32) (w : FVec Ideal S128x5 .f32) (b : FVec Ideal S5 .f32)
    (r : Fin 50000) (a : Fin 5) :
    addf (Host.dotGeneral (F := Ideal) dot_S50000x128_S128x5_S50000x5_1_0_0_1_n_n none x w)
      (broadcastInDim S50000x5 ![0, 1] bcast_S1x5_S50000x5_0_1 (broadcastInDim S1x5 ![1] bcast_S5_S1x5_1 b)) (ix2 r a)
      = (∑ k : Fin 128, x (ix2 r k) * w (ix2 k a)) + b (ix1 a) := by
  rw [addf_apply, r0_dotA_apply, r0_bias_apply]

/-- The shifted exponential at (r, a): the entry minus the row's shift, exponentiated. -/
theorem r0_exp_apply (l : FVec Ideal S50000x5 .f32) (m : FVec Ideal S50000 .f32) (r : Fin 50000) (a : Fin 5) :
    Host.exp (F := Ideal) (subf l
      (broadcastInDim S50000x5 ![0, 1] bcast_S50000x1_S50000x5_0_1 (broadcastInDim S50000x1 ![0] bcast_S50000_S50000x1_0 m))) (ix2 r a)
      = Ideal.exp (l (ix2 r a) - m (ix1 r)) := by
  show Ideal.exp (subf l _ (ix2 r a)) = _
  rw [subf_apply, r0_col_apply]

/-- The quotient at (r, a): the entry over the row's divisor. -/
theorem r0_div_apply (e : FVec Ideal S50000x5 .f32) (s : FVec Ideal S50000 .f32) (r : Fin 50000) (a : Fin 5) :
    Host.divf (F := Ideal) e
      (broadcastInDim S50000x5 ![0, 1] bcast_S50000x1_S50000x5_0_1 (broadcastInDim S50000x1 ![0] bcast_S50000_S50000x1_0 s)) (ix2 r a)
      = Ideal.div (e (ix2 r a)) (s (ix1 r)) := by
  rw [hostDivf_apply, r0_col_apply]

/-- The shifted exponential of the logits at (r, a) is the specification's, of row r of the logits. -/
theorem r0_rowExp_apply (l : FVec Ideal S50000x5 .f32) (r : Fin 50000) (a : Fin 5) :
    Host.exp (F := Ideal) (subf l
      (broadcastInDim S50000x5 ![0, 1] bcast_S50000x1_S50000x5_0_1 (broadcastInDim S50000x1 ![0] bcast_S50000_S50000x1_0
        (maximumf (broadcastInDim S50000 ![] bcast_S_S50000 (constant (F := Ideal) S_ .f32 0xFF800000#32))
          (Host.reduce FloatOps.maximumf l (constant (F := Ideal) S_ .f32 0xFF800000#32) reducesTo_S50000x5_S50000_d1 h_S_))))) (ix2 r a)
      = rowExp (fun a : Fin 5 => l (ix2 r a)) a := by
  rw [r0_exp_apply, r0_mx_apply]
  rfl

/-- The softmax weights at (r, a): the specification's softmax of row r of the logits. -/
theorem r0_weights_apply (l : FVec Ideal S50000x5 .f32) (r : Fin 50000) (a : Fin 5) :
    Host.divf (F := Ideal)
      (Host.exp (F := Ideal) (subf l
        (broadcastInDim S50000x5 ![0, 1] bcast_S50000x1_S50000x5_0_1 (broadcastInDim S50000x1 ![0] bcast_S50000_S50000x1_0
          (maximumf (broadcastInDim S50000 ![] bcast_S_S50000 (constant (F := Ideal) S_ .f32 0xFF800000#32))
            (Host.reduce FloatOps.maximumf l (constant (F := Ideal) S_ .f32 0xFF800000#32) reducesTo_S50000x5_S50000_d1 h_S_))))))
      (broadcastInDim S50000x5 ![0, 1] bcast_S50000x1_S50000x5_0_1 (broadcastInDim S50000x1 ![0] bcast_S50000_S50000x1_0
        (Host.reduceAdd (F := Ideal)
          (Host.exp (F := Ideal) (subf l
            (broadcastInDim S50000x5 ![0, 1] bcast_S50000x1_S50000x5_0_1 (broadcastInDim S50000x1 ![0] bcast_S50000_S50000x1_0
              (maximumf (broadcastInDim S50000 ![] bcast_S_S50000 (constant (F := Ideal) S_ .f32 0xFF800000#32))
                (Host.reduce FloatOps.maximumf l (constant (F := Ideal) S_ .f32 0xFF800000#32) reducesTo_S50000x5_S50000_d1 h_S_))))))
          (constant (F := Ideal) S_ .f32 0x00000000#32) reducesTo_S50000x5_S50000_d1 h_S_))) (ix2 r a)
      = softmax (fun a : Fin 5 => l (ix2 r a)) a := by
  rw [r0_div_apply, r0_sum_apply, r0_rowExp_apply]
  exact congrArg (Ideal.div _) (Finset.sum_congr rfl fun a' _ => r0_rowExp_apply l r a')

/-- The result at (r, d): x there plus row r of the weights against column d of the anchors. -/
theorem r0_out_apply (x : FVec Ideal S50000x128 .f32) (w : FVec Ideal S50000x5 .f32) (An : FVec Ideal S5x128 .f32)
    (r : Fin 50000) (d : Fin 128) :
    addf x (Host.dotGeneral (F := Ideal) dot_S50000x5_S5x128_S50000x128_1_0_0_1_n_n none w An) (ix2 r d)
      = x (ix2 r d) + ∑ a : Fin 5, w (ix2 r a) * An (ix2 a d) := by
  rw [addf_apply, r0_dotB_apply]

/-- The host's node prompt is the row-wise node prompt, index by index. -/
theorem hostNP_eq (a0 : FVec Ideal S50000x128 .f32) (a1 : FVec Ideal S5x128 .f32) (a2 : FVec Ideal S128x5 .f32) (a3 : FVec Ideal S5 .f32) :
    hostNP (F := Ideal) a0 a1 a2 a3 = npx a0 a1 a2 a3 := by
  funext i
  obtain ⟨r, d, rfl⟩ : ∃ (r : Fin 50000) (d : Fin 128), i = ix2 r d := ⟨i 0, i 1, eq_ix2 i⟩
  show hostNP (F := Ideal) a0 a1 a2 a3 (ix2 r d) = a0 (ix2 r d) + ∑ a : Fin 5,
    softmax (fun a : Fin 5 => (∑ k : Fin 128, a0 (ix2 r k) * a2 (ix2 k a)) + a3 (ix1 a)) a * a1 (ix2 a d)
  unfold hostNP
  simp only []
  rw [r0_out_apply]
  refine congrArg (a0 (ix2 r d) + ·) (Finset.sum_congr rfl fun a _ => ?_)
  rw [r0_weights_apply]
  exact congrArg (fun L : Fin 5 → EReal => softmax L a * a1 (ix2 a d)) (funext fun a' => r0_logits_apply a0 a2 a3 r a')

end Cert.ReferenceIdeal.RVal

end
-- ==== Proof.RStage1.lean ====
import proofs.«175747_j34248069218340_1_alg».proof.Proof.RDefs
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RVal

open Cert.ReferenceIdeal Cert.ReferenceIdeal.Gen Cert.Rows Idealize.ShloMosaic Idealize.ShloMosaic.ValueIdx

/-! ## The two products read at an index -/

/-- The first product's left operand is read at the result's row … -/
theorem r1_lhs_d1_0 (i : S640000x5.Idx) (q : dot_S640000x256_S256x5_S640000x5_1_0_0_1_n_n.contr.Idx) :
    (dot_S640000x256_S256x5_S640000x5_1_0_0_1_n_n.lhsIdx i q 0).val = (i 0).val := by
  unfold DotDims.lhsIdx
  rw [dif_neg (show ¬(0 : Fin S640000x256.rank) ∈ dot_S640000x256_S256x5_S640000x5_1_0_0_1_n_n.lhsBatch by decide),
    dif_pos (show (0 : Fin S640000x256.rank) ∈ dot_S640000x256_S256x5_S640000x5_1_0_0_1_n_n.lhsNonContracting by decide)]
  rfl
/-- … and at the contracted coordinate. -/
theorem r1_lhs_d1_1 (i : S640000x5.Idx) (q : dot_S640000x256_S256x5_S640000x5_1_0_0_1_n_n.contr.Idx) :
    (dot_S640000x256_S256x5_S640000x5_1_0_0_1_n_n.lhsIdx i q 1).val = (q ⟨0, by decide⟩).val :=
  dot_S640000x256_S256x5_S640000x5_1_0_0_1_n_n.lhsIdx_val_of_single rfl i q
/-- Its right operand is read at the contracted coordinate … -/
theorem r1_rhs_d1_0 (i : S640000x5.Idx) (q : dot_S640000x256_S256x5_S640000x5_1_0_0_1_n_n.contr.Idx) :
    (dot_S640000x256_S256x5_S640000x5_1_0_0_1_n_n.rhsIdx i q 0).val = (q ⟨0, by decide⟩).val :=
  dot_S640000x256_S256x5_S640000x5_1_0_0_1_n_n.rhsIdx_val_of_single rfl i q
/-- … and at the result's column. -/
theorem r1_rhs_d1_1 (i : S640000x5.Idx) (q : dot_S640000x256_S256x5_S640000x5_1_0_0_1_n_n.contr.Idx) :
    (dot_S640000x256_S256x5_S640000x5_1_0_0_1_n_n.rhsIdx i q 1).val = (i 1).val := by
  unfold DotDims.rhsIdx
  rw [dif_neg (show ¬(1 : Fin S256x5.rank) ∈ dot_S640000x256_S256x5_S640000x5_1_0_0_1_n_n.rhsBatch by decide),
    dif_pos (show (1 : Fin S256x5.rank) ∈ dot_S640000x256_S256x5_S640000x5_1_0_0_1_n_n.rhsNonContracting by decide)]
  rfl

/-- The first product at (r, a): the sum over the 256 coordinates of the row times the column. -/
theorem r1_dot1_apply (x : FVec Ideal S640000x256 .f32) (w : FVec Ideal S256x5 .f32) (r : Fin 640000) (a : Fin 5) :
    Host.dotGeneral (F := Ideal) dot_S640000x256_S256x5_S640000x5_1_0_0_1_n_n none x w (ix2 r a)
      = ∑ k : Fin 256, x (ix2 r k) * w (ix2 k a) := by
  simp only [Host.dotGeneral]
  rw [Ideal.dotGeneral_apply, ← Equiv.sum_comp (contrEquiv1 dot_S640000x256_S256x5_S640000x5_1_0_0_1_n_n 256 rfl rfl).symm]
  refine Finset.sum_congr rfl fun k _ => ?_
  have hk := contrEquiv1_symm_val dot_S640000x256_S256x5_S640000x5_1_0_0_1_n_n 256 rfl rfl k
  have el : dot_S640000x256_S256x5_S640000x5_1_0_0_1_n_n.lhsIdx (ix2 r a) ((contrEquiv1 dot_S640000x256_S256x5_S640000x5_1_0_0_1_n_n 256 rfl rfl).symm k) = ix2 r k :=
    funext fun b => Fin.ext (by
      match b with
      | ⟨0, _⟩ => exact r1_lhs_d1_0 _ _
      | ⟨1, _⟩ => exact (r1_lhs_d1_1 _ _).trans hk)
  have er : dot_S640000x256_S256x5_S640000x5_1_0_0_1_n_n.rhsIdx (ix2 r a) ((contrEquiv1 dot_S640000x256_S256x5_S640000x5_1_0_0_1_n_n 256 rfl rfl).symm k) = ix2 k a :=
    funext fun b => Fin.ext (by
      match b with
      | ⟨0, _⟩ => exact (r1_rhs_d1_0 _ _).trans hk
      | ⟨1, _⟩ => exact r1_rhs_d1_1 _ _)
  rw [el, er]

/-- The second product's left operand is read at the result's row … -/
theorem r1_lhs_d2_0 (i : S640000x128.Idx) (q : dot_S640000x5_S5x128_S640000x128_1_0_0_1_n_n.contr.Idx) :
    (dot_S640000x5_S5x128_S640000x128_1_0_0_1_n_n.lhsIdx i q 0).val = (i 0).val := by
  unfold DotDims.lhsIdx
  rw [dif_neg (show ¬(0 : Fin S640000x5.rank) ∈ dot_S640000x5_S5x128_S640000x128_1_0_0_1_n_n.lhsBatch by decide),
    dif_pos (show (0 : Fin S640000x5.rank) ∈ dot_S640000x5_S5x128_S640000x128_1_0_0_1_n_n.lhsNonContracting by decide)]
  rfl
/-- … and at the contracted coordinate. -/
theorem r1_lhs_d2_1 (i : S640000x128.Idx) (q : dot_S640000x5_S5x128_S640000x128_1_0_0_1_n_n.contr.Idx) :
    (dot_S640000x5_S5x128_S640000x128_1_0_0_1_n_n.lhsIdx i q 1).val = (q ⟨0, by decide⟩).val :=
  dot_S640000x5_S5x128_S640000x128_1_0_0_1_n_n.lhsIdx_val_of_single rfl i q
/-- Its right operand is read at the contracted coordinate … -/
theorem r1_rhs_d2_0 (i : S640000x128.Idx) (q : dot_S640000x5_S5x128_S640000x128_1_0_0_1_n_n.contr.Idx) :
    (dot_S640000x5_S5x128_S640000x128_1_0_0_1_n_n.rhsIdx i q 0).val = (q ⟨0, by decide⟩).val :=
  dot_S640000x5_S5x128_S640000x128_1_0_0_1_n_n.rhsIdx_val_of_single rfl i q
/-- … and at the result's column. -/
theorem r1_rhs_d2_1 (i : S640000x128.Idx) (q : dot_S640000x5_S5x128_S640000x128_1_0_0_1_n_n.contr.Idx) :
    (dot_S640000x5_S5x128_S640000x128_1_0_0_1_n_n.rhsIdx i q 1).val = (i 1).val := by
  unfold DotDims.rhsIdx
  rw [dif_neg (show ¬(1 : Fin S5x128.rank) ∈ dot_S640000x5_S5x128_S640000x128_1_0_0_1_n_n.rhsBatch by decide),
    dif_pos (show (1 : Fin S5x128.rank) ∈ dot_S640000x5_S5x128_S640000x128_1_0_0_1_n_n.rhsNonContracting by decide)]
  rfl

/-- The second product at (r, d): the sum over the five anchors of the weight times the anchor's coordinate. -/
theorem r1_dot2_apply (w : FVec Ideal S640000x5 .f32) (an : FVec Ideal S5x128 .f32) (r : Fin 640000) (d : Fin 128) :
    Host.dotGeneral (F := Ideal) dot_S640000x5_S5x128_S640000x128_1_0_0_1_n_n none w an (ix2 r d)
      = ∑ a : Fin 5, w (ix2 r a) * an (ix2 a d) := by
  simp only [Host.dotGeneral]
  rw [Ideal.dotGeneral_apply, ← Equiv.sum_comp (contrEquiv1 dot_S640000x5_S5x128_S640000x128_1_0_0_1_n_n 5 rfl rfl).symm]
  refine Finset.sum_congr rfl fun k _ => ?_
  have hk := contrEquiv1_symm_val dot_S640000x5_S5x128_S640000x128_1_0_0_1_n_n 5 rfl rfl k
  have el : dot_S640000x5_S5x128_S640000x128_1_0_0_1_n_n.lhsIdx (ix2 r d) ((contrEquiv1 dot_S640000x5_S5x128_S640000x128_1_0_0_1_n_n 5 rfl rfl).symm k) = ix2 r k :=
    funext fun b => Fin.ext (by
      match b with
      | ⟨0, _⟩ => exact r1_lhs_d2_0 _ _
      | ⟨1, _⟩ => exact (r1_lhs_d2_1 _ _).trans hk)
  have er : dot_S640000x5_S5x128_S640000x128_1_0_0_1_n_n.rhsIdx (ix2 r d) ((contrEquiv1 dot_S640000x5_S5x128_S640000x128_1_0_0_1_n_n 5 rfl rfl).symm k) = ix2 k d :=
    funext fun b => Fin.ext (by
      match b with
      | ⟨0, _⟩ => exact (r1_rhs_d2_0 _ _).trans hk
      | ⟨1, _⟩ => exact r1_rhs_d2_1 _ _)
  rw [el, er]

/-! ## The rows side by side -/

/-- A coordinate of the first half of the rows side by side reads the first array. -/
theorem r1_cat_left (xs xd : FVec Ideal S640000x128 .f32) (r : Fin 640000) (k : Fin 128) :
    concatenate S640000x256 1 [⟨S640000x128, xs⟩, ⟨S640000x128, xd⟩] concatenates_S640000x128_S640000x128_S640000x256_d1
      (ix2 r (Fin.castAdd 128 k)) = xs (ix2 r k) :=
  concatenate_pair_apply_left 1 xs xd concatenates_S640000x128_S640000x128_S640000x256_d1 _ rfl _ (fun b => by
    match b with
    | ⟨0, _⟩ => rfl
    | ⟨1, _⟩ => rfl)

/-- A coordinate of the second half reads the second array, 128 less. -/
theorem r1_cat_right (xs xd : FVec Ideal S640000x128 .f32) (r : Fin 640000) (k : Fin 128) :
    concatenate S640000x256 1 [⟨S640000x128, xs⟩, ⟨S640000x128, xd⟩] concatenates_S640000x128_S640000x128_S640000x256_d1
      (ix2 r (Fin.natAdd 128 k)) = xd (ix2 r k) :=
  concatenate_pair_apply_right 1 xs xd concatenates_S640000x128_S640000x128_S640000x256_d1 _ rfl rfl _
    (fun b hb => by
      match b with
      | ⟨0, _⟩ => rfl
      | ⟨1, _⟩ => exact absurd rfl hb)
    (by show k.val + 128 = 128 + k.val; omega)

/-! ## The spreads -/

/-- The bias spread over the rows reads the bias at the column. -/
theorem r1_bias_apply (b : FVec Ideal S5 .f32) (r : Fin 640000) (a : Fin 5) :
    broadcastInDim S640000x5 ![0, 1] bcast_S1x5_S640000x5_0_1 (broadcastInDim S1x5 ![1] bcast_S5_S1x5_1 b) (ix2 r a)
      = b (ix1 a) := by
  rw [broadcastInDim_apply ![0, 1] bcast_S1x5_S640000x5_0_1 _ (ix2 r a) (ix2 (0 : Fin 1) a) (fun c => by
      match c with
      | ⟨0, _⟩ => rfl
      | ⟨1, _⟩ => rfl),
    broadcastInDim_apply ![1] bcast_S5_S1x5_1 b (ix2 (0 : Fin 1) a) (ix1 a) (fun c => by
      match c with
      | ⟨0, _⟩ => rfl)]

/-- A vector over the rows spread over the columns reads the vector at the row. -/
theorem r1_bcol_apply (v : FVec Ideal S640000 .f32) (r : Fin 640000) (a : Fin 5) :
    broadcastInDim S640000x5 ![0, 1] bcast_S640000x1_S640000x5_0_1 (broadcastInDim S640000x1 ![0] bcast_S640000_S640000x1_0 v) (ix2 r a)
      = v (ix1 r) := by
  rw [broadcastInDim_apply ![0, 1] bcast_S640000x1_S640000x5_0_1 _ (ix2 r a) (ix2 r (0 : Fin 1)) (fun c => by
      match c with
      | ⟨0, _⟩ => rfl
      | ⟨1, _⟩ => rfl),
    broadcastInDim_apply ![0] bcast_S640000_S640000x1_0 v (ix2 r (0 : Fin 1)) (ix1 r) (fun c => by
      match c with
      | ⟨0, _⟩ => rfl)]

/-! ## The leaky rectifier -/

/-- The select between a value and the slope times it, on the value being at least zero, is the leaky rectifier. -/
theorem r1_leaky_apply (l : FVec Ideal S640000x5 .f32) (j : S640000x5.Idx) :
    select (cmpf .oge l (broadcastInDim S640000x5 ![] bcast_S_S640000x5 (constant (F := Ideal) S_ .f32 0x00000000#32)))
      l (mulf (broadcastInDim S640000x5 ![] bcast_S_S640000x5 (constant (F := Ideal) S_ .f32 0x3C23D70A#32)) l) j
      = lrelu (l j) := by
  rw [select_apply, cmpf_apply, mulf_apply, broadcastInDim_scalar_apply, broadcastInDim_scalar_apply, constant_apply,
    constant_apply]
  rfl

/-! ## The row reductions -/

/-- Dropping the column of a [640000, 5] array leaves its rows. -/
theorem r1_reduces : S640000x5.Reduces [1] S640000 := by decide

/-- The index over row r with column a inserted is (r, a). -/
theorem r1_lift (r : Fin 640000) (a : Fin 5) : r1_reduces.lift (ix1 r) a = ix2 r a := by
  funext c
  apply Fin.ext
  match c with
  | ⟨0, _⟩ => rfl
  | ⟨1, _⟩ => rfl

/-- The host's row maximum from -∞, joined with -∞, is the specification's. -/
theorem r1_rowmax_apply (z : FVec Ideal S640000x5 .f32) (r : Fin 640000) :
    (maximumf (broadcastInDim S640000 ![] bcast_S_S640000 (constant (F := Ideal) S_ .f32 0xFF800000#32))
      (Host.reduce FloatOps.maximumf z (constant (F := Ideal) S_ .f32 0xFF800000#32) reducesTo_S640000x5_S640000_d1 h_S_)) (ix1 r)
      = rowMax (fun a => z (ix2 r a)) := by
  rw [maximumf_apply, broadcastInDim_scalar_apply, constant_apply,
    Host.reduce_eq_fold_single FloatOps.maximumf z _ reducesTo_S640000x5_S640000_d1 r1_reduces h_S_,
    show (z ∘ r1_reduces.lift (ix1 r)) = fun a : Fin 5 => z (ix2 r a) from funext fun a => congrArg z (r1_lift r a)]
  rfl

/-- The host's row sum from zero is the sum over the columns. -/
theorem r1_rowsum_apply (e : FVec Ideal S640000x5 .f32) (r : Fin 640000) :
    Host.reduceAdd e (constant (F := Ideal) S_ .f32 0x00000000#32) reducesTo_S640000x5_S640000_d1 h_S_ (ix1 r)
      = ∑ a : Fin 5, e (ix2 r a) := by
  rw [hostReduceAdd_apply, Ideal.hostReduceAdd_single reducesTo_S640000x5_S640000_d1 r1_reduces, constant_apply,
    Ideal.ofBits_zero_f32, zero_add]
  exact Finset.sum_congr rfl fun a _ => congrArg e (r1_lift r a)

/-! ## The softmax of a row -/

/-- The host's shifted exponential at (r, a) is the specification's, of row r. -/
theorem r1_exp_apply (z : FVec Ideal S640000x5 .f32) (r : Fin 640000) (a : Fin 5) :
    Host.exp (subf z (broadcastInDim S640000x5 ![0, 1] bcast_S640000x1_S640000x5_0_1 (broadcastInDim S640000x1 ![0] bcast_S640000_S640000x1_0 (maximumf (broadcastInDim S640000 ![] bcast_S_S640000 (constant (F := Ideal) S_ .f32 0xFF800000#32))
      (Host.reduce FloatOps.maximumf z (constant (F := Ideal) S_ .f32 0xFF800000#32) reducesTo_S640000x5_S640000_d1 h_S_))))) (ix2 r a)
      = rowExp (fun a' => z (ix2 r a')) a := by
  show Ideal.exp (z (ix2 r a) - _) = _
  rw [r1_bcol_apply, r1_rowmax_apply]
  rfl

/-- The host's softmax weight at (r, a): the shifted exponential over the row's sum of them. -/
theorem r1_soft_apply (z : FVec Ideal S640000x5 .f32) (r : Fin 640000) (a : Fin 5) :
    Host.divf (Host.exp (subf z (broadcastInDim S640000x5 ![0, 1] bcast_S640000x1_S640000x5_0_1 (broadcastInDim S640000x1 ![0] bcast_S640000_S640000x1_0 (maximumf (broadcastInDim S640000 ![] bcast_S_S640000 (constant (F := Ideal) S_ .f32 0xFF800000#32))
      (Host.reduce FloatOps.maximumf z (constant (F := Ideal) S_ .f32 0xFF800000#32) reducesTo_S640000x5_S640000_d1 h_S_))))))
      (broadcastInDim S640000x5 ![0, 1] bcast_S640000x1_S640000x5_0_1 (broadcastInDim S640000x1 ![0] bcast_S640000_S640000x1_0 (Host.reduceAdd (Host.exp (subf z (broadcastInDim S640000x5 ![0, 1] bcast_S640000x1_S640000x5_0_1 (broadcastInDim S640000x1 ![0] bcast_S640000_S640000x1_0 (maximumf (broadcastInDim S640000 ![] bcast_S_S640000 (constant (F := Ideal) S_ .f32 0xFF800000#32))
      (Host.reduce FloatOps.maximumf z (constant (F := Ideal) S_ .f32 0xFF800000#32) reducesTo_S640000x5_S640000_d1 h_S_)))))) (constant (F := Ideal) S_ .f32 0x00000000#32) reducesTo_S640000x5_S640000_d1 h_S_))) (ix2 r a)
      = softmax (fun a' => z (ix2 r a')) a := by
  rw [hostDivf_apply, r1_bcol_apply, r1_rowsum_apply, r1_exp_apply,
    Finset.sum_congr rfl (fun a' _ => r1_exp_apply z r a')]
  rfl

/-! ## The logits -/

/-- The host's logit at (r, a): the contraction over the 256 coordinates of the rows side by side is the sum of the
    contractions over the two halves, the first against the first array, the second against the second. -/
theorem r1_logits_apply (xs xd : FVec Ideal S640000x128 .f32) (a5 : FVec Ideal S256x5 .f32) (a6 : FVec Ideal S5 .f32)
    (r : Fin 640000) (a : Fin 5) :
    addf (Host.dotGeneral (F := Ideal) dot_S640000x256_S256x5_S640000x5_1_0_0_1_n_n none (concatenate S640000x256 1 [⟨S640000x128, xs⟩, ⟨S640000x128, xd⟩] concatenates_S640000x128_S640000x128_S640000x256_d1) a5)
      (broadcastInDim S640000x5 ![0, 1] bcast_S1x5_S640000x5_0_1 (broadcastInDim S1x5 ![1] bcast_S5_S1x5_1 a6)) (ix2 r a)
      = ((∑ k : Fin 128, xs (ix2 r k) * a5 (ix2 (Fin.castAdd 128 k) a))
          + ∑ k : Fin 128, xd (ix2 r k) * a5 (ix2 (Fin.natAdd 128 k) a)) + a6 (ix1 a) := by
  rw [addf_apply, r1_dot1_apply, r1_bias_apply, sum_halves]
  simp only [r1_cat_left, r1_cat_right]

/-! ## The edge prompt -/

/-- The host's edge prompt of two arrays of endpoint rows is the row-wise edge prompt with the weight matrix cut in
    its two halves: the contraction over the 256 coordinates of the rows set side by side is the sum of the two
    contractions over 128. -/
theorem hostEP_eq (xs xd : FVec Ideal S640000x128 .f32) (a4 : FVec Ideal S5x128 .f32) (a5 : FVec Ideal S256x5 .f32) (a6 : FVec Ideal S5 .f32) :
    hostEP (F := Ideal) xs xd a4 a5 a6
      = EP (N := 640000) xs xd (fun k a => a5 (ix2 (Fin.castAdd 128 k) a)) (fun k a => a5 (ix2 (Fin.natAdd 128 k) a))
          (fun a => a6 (ix1 a)) (fun a d => a4 (ix2 a d)) := by
  funext i
  obtain ⟨r, q, rfl⟩ : ∃ (r : Fin 640000) (q : Fin 128), i = ix2 r q := ⟨i 0, i 1, eq_ix2 i⟩
  unfold hostEP
  dsimp only
  rw [r1_dot2_apply]
  show _ = epRow (fun k => xs (ix2 r k)) (fun k => xd (ix2 r k)) (fun k a => a5 (ix2 (Fin.castAdd 128 k) a))
    (fun k a => a5 (ix2 (Fin.natAdd 128 k) a)) (fun a => a6 (ix1 a)) (fun a d => a4 (ix2 a d)) q
  unfold epRow
  refine Finset.sum_congr rfl fun a _ => ?_
  rw [r1_soft_apply]
  refine congrArg (fun f => softmax f a * a4 (ix2 a q)) (funext fun a' => ?_)
  rw [r1_leaky_apply, r1_logits_apply]
end Cert.ReferenceIdeal.RVal

end
-- ==== Proof.RStage2.lean ====
import proofs.«175747_j34248069218340_1_alg».proof.Proof.RDefs
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RVal

open Cert.ReferenceIdeal Cert.ReferenceIdeal.Gen Cert.Rows Idealize.ShloMosaic Idealize.ShloMosaic.ValueIdx

/-! ## The product with the gate matrix at an index -/

/-- The left operand's row coordinate is the result's row. -/
theorem r2_lhs_0 (j : S50000x2.Idx) (k : dot_S50000x256_S256x2_S50000x2_1_0_0_1_n_n.contr.Idx) :
    (dot_S50000x256_S256x2_S50000x2_1_0_0_1_n_n.lhsIdx j k 0).val = (j 0).val := by
  simp [DotDims.lhsIdx, dot_S50000x256_S256x2_S50000x2_1_0_0_1_n_n]; rfl
/-- The left operand's column coordinate is the contracted coordinate. -/
theorem r2_lhs_1 (j : S50000x2.Idx) (k : dot_S50000x256_S256x2_S50000x2_1_0_0_1_n_n.contr.Idx) :
    (dot_S50000x256_S256x2_S50000x2_1_0_0_1_n_n.lhsIdx j k 1).val = (k ⟨0, by decide⟩).val := by
  simp [DotDims.lhsIdx, dot_S50000x256_S256x2_S50000x2_1_0_0_1_n_n]; rfl
/-- The right operand's row coordinate is the contracted coordinate. -/
theorem r2_rhs_0 (j : S50000x2.Idx) (k : dot_S50000x256_S256x2_S50000x2_1_0_0_1_n_n.contr.Idx) :
    (dot_S50000x256_S256x2_S50000x2_1_0_0_1_n_n.rhsIdx j k 0).val = (k ⟨0, by decide⟩).val := by
  simp [DotDims.rhsIdx, dot_S50000x256_S256x2_S50000x2_1_0_0_1_n_n]; rfl
/-- The right operand's column coordinate is the result's column. -/
theorem r2_rhs_1 (j : S50000x2.Idx) (k : dot_S50000x256_S256x2_S50000x2_1_0_0_1_n_n.contr.Idx) :
    (dot_S50000x256_S256x2_S50000x2_1_0_0_1_n_n.rhsIdx j k 1).val = (j 1).val := by
  simp [DotDims.rhsIdx, dot_S50000x256_S256x2_S50000x2_1_0_0_1_n_n]; rfl

/-- The product of a [50000, 256] array with the [256, 2] gate matrix at (r, a): the sum over the 256 contracted
    coordinates of the products of the entries. -/
theorem r2_dot_apply (x : FVec Ideal S50000x256 .f32) (w : FVec Ideal S256x2 .f32) (r : Fin 50000) (a : Fin 2) :
    Host.dotGeneral (F := Ideal) dot_S50000x256_S256x2_S50000x2_1_0_0_1_n_n none x w (ix2 r a)
      = ∑ c : Fin 256, x (ix2 r c) * w (ix2 c a) := by
  simp only [Host.dotGeneral]
  rw [Ideal.dotGeneral_apply,
    ← Equiv.sum_comp (contrEquiv1 dot_S50000x256_S256x2_S50000x2_1_0_0_1_n_n 256 rfl rfl).symm]
  refine Finset.sum_congr rfl fun c _ => ?_
  have hk := contrEquiv1_symm_val dot_S50000x256_S256x2_S50000x2_1_0_0_1_n_n 256 rfl rfl c
  have hl : dot_S50000x256_S256x2_S50000x2_1_0_0_1_n_n.lhsIdx (ix2 r a)
      ((contrEquiv1 dot_S50000x256_S256x2_S50000x2_1_0_0_1_n_n 256 rfl rfl).symm c) = ix2 r c := by
    funext ax; apply Fin.ext
    match ax with
    | ⟨0, _⟩ => exact r2_lhs_0 _ _
    | ⟨1, _⟩ => exact (r2_lhs_1 _ _).trans hk
  have hr : dot_S50000x256_S256x2_S50000x2_1_0_0_1_n_n.rhsIdx (ix2 r a)
      ((contrEquiv1 dot_S50000x256_S256x2_S50000x2_1_0_0_1_n_n 256 rfl rfl).symm c) = ix2 c a := by
    funext ax; apply Fin.ext
    match ax with
    | ⟨0, _⟩ => exact (r2_rhs_0 _ _).trans hk
    | ⟨1, _⟩ => exact r2_rhs_1 _ _
  rw [hl, hr]

/-! ## The two arrays side by side, the bias and the column spreads at an index -/

/-- Side by side, a column below 128 reads the first array. -/
theorem r2_cat_left {α : Type} (n e : S50000x128.Idx → α) (r : Fin 50000) (k : Fin 128) :
    concatenate S50000x256 1 [⟨S50000x128, n⟩, ⟨S50000x128, e⟩] concatenates_S50000x128_S50000x128_S50000x256_d1
      (ix2 r (Fin.castAdd 128 k)) = n (ix2 r k) := by
  refine concatenate_pair_apply_left (1 : Fin S50000x256.rank) n e _ _ rfl (ix2 r k) fun b => ?_
  match b with
  | ⟨0, _⟩ => rfl
  | ⟨1, _⟩ => rfl

/-- Side by side, column 128 + k reads the second array at column k. -/
theorem r2_cat_right {α : Type} (n e : S50000x128.Idx → α) (r : Fin 50000) (k : Fin 128) :
    concatenate S50000x256 1 [⟨S50000x128, n⟩, ⟨S50000x128, e⟩] concatenates_S50000x128_S50000x128_S50000x256_d1
      (ix2 r (Fin.natAdd 128 k)) = e (ix2 r k) := by
  refine concatenate_pair_apply_right (1 : Fin S50000x256.rank) n e _ _ rfl rfl (ix2 r k) (fun b hb => ?_) ?_
  · match b with
    | ⟨0, _⟩ => rfl
    | ⟨1, _⟩ => exact absurd rfl hb
  · show k.val + 128 = 128 + k.val
    omega

/-- The bias vector spread over the rows reads the vector at the column. -/
theorem r2_bias_apply {α : Type} (b : S2.Idx → α) (r : Fin 50000) (a : Fin 2) :
    broadcastInDim S50000x2 ![0, 1] bcast_S1x2_S50000x2_0_1 (broadcastInDim S1x2 ![1] bcast_S2_S1x2_1 b) (ix2 r a)
      = b (ix1 a) := by
  rw [broadcastInDim_apply ![0, 1] bcast_S1x2_S50000x2_0_1 _ (ix2 r a) (ix2 (0 : Fin 1) a) (fun c => by
    match c with
    | ⟨0, _⟩ => rfl
    | ⟨1, _⟩ => rfl)]
  exact broadcastInDim_apply ![1] bcast_S2_S1x2_1 b (ix2 (0 : Fin 1) a) (ix1 a) (fun c => by
    match c with
    | ⟨0, _⟩ => rfl)

/-- A vector of one value per row, spread over two columns, reads the row's value. -/
theorem r2_col2_apply {α : Type} (v : S50000.Idx → α) (r : Fin 50000) (a : Fin 2) :
    broadcastInDim S50000x2 ![0, 1] bcast_S50000x1_S50000x2_0_1 (broadcastInDim S50000x1 ![0] bcast_S50000_S50000x1_0 v)
      (ix2 r a) = v (ix1 r) := by
  rw [broadcastInDim_apply ![0, 1] bcast_S50000x1_S50000x2_0_1 _ (ix2 r a) (ix2 r (0 : Fin 1)) (fun c => by
    match c with
    | ⟨0, _⟩ => rfl
    | ⟨1, _⟩ => rfl)]
  exact broadcastInDim_apply ![0] bcast_S50000_S50000x1_0 v (ix2 r (0 : Fin 1)) (ix1 r) (fun c => by
    match c with
    | ⟨0, _⟩ => rfl)

/-- A one-column array spread over 128 columns reads its column. -/
theorem r2_col128_apply {α : Type} (y : S50000x1.Idx → α) (r : Fin 50000) (q : Fin 128) :
    broadcastInDim S50000x128 ![0, 1] bcast_S50000x1_S50000x128_0_1 y (ix2 r q) = y (ix2 r (0 : Fin 1)) :=
  broadcastInDim_apply ![0, 1] bcast_S50000x1_S50000x128_0_1 y (ix2 r q) (ix2 r (0 : Fin 1)) (fun c => by
    match c with
    | ⟨0, _⟩ => rfl
    | ⟨1, _⟩ => rfl)

/-- The first gate's column of a two-column array. -/
theorem r2_slice0_apply {α : Type} (g : S50000x2.Idx → α) (r : Fin 50000) :
    extractStridedSlice S50000x1 ![0, 0] g slices_S50000x2_S50000x1_0_0 (ix2 r (0 : Fin 1)) = g (ix2 r (0 : Fin 2)) :=
  extractStridedSlice_apply ![0, 0] g slices_S50000x2_S50000x1_0_0 (ix2 r (0 : Fin 1)) (ix2 r (0 : Fin 2)) (fun c => by
    match c with
    | ⟨0, _⟩ => show r.val = 0 + r.val; omega
    | ⟨1, _⟩ => rfl)

/-- The second gate's column of a two-column array. -/
theorem r2_slice1_apply {α : Type} (g : S50000x2.Idx → α) (r : Fin 50000) :
    extractStridedSlice S50000x1 ![0, 1] g slices_S50000x2_S50000x1_0_1 (ix2 r (0 : Fin 1)) = g (ix2 r (1 : Fin 2)) :=
  extractStridedSlice_apply ![0, 1] g slices_S50000x2_S50000x1_0_1 (ix2 r (0 : Fin 1)) (ix2 r (1 : Fin 2)) (fun c => by
    match c with
    | ⟨0, _⟩ => show r.val = 0 + r.val; omega
    | ⟨1, _⟩ => rfl)

/-! ## The row reductions at an index -/

/-- The reduction over the two columns drops axis 1. -/
theorem r2_reduces : S50000x2.Reduces [1] S50000 := by decide

/-- Row r with column a put back is the index (r, a). -/
theorem r2_lift (r : Fin 50000) (a : Fin 2) : r2_reduces.lift (ix1 r) a = ix2 r a := by
  funext c; apply Fin.ext
  match c with
  | ⟨0, _⟩ => rfl
  | ⟨1, _⟩ => rfl

/-- The row maximum from -∞, joined with -∞, is the specification's row maximum of the row. -/
theorem r2_rowmax_apply (l : FVec Ideal S50000x2 .f32) (r : Fin 50000) :
    maximumf (broadcastInDim S50000 ![] bcast_S_S50000 (constant (F := Ideal) S_ .f32 0xFF800000#32))
      (Host.reduce FloatOps.maximumf l (constant (F := Ideal) S_ .f32 0xFF800000#32) reducesTo_S50000x2_S50000_d1 h_S_) (ix1 r)
      = rowMax (fun a : Fin 2 => l (ix2 r a)) := by
  rw [maximumf_apply, broadcastInDim_scalar_apply, constant_apply,
    Host.reduce_eq_fold_single FloatOps.maximumf l _ reducesTo_S50000x2_S50000_d1 r2_reduces h_S_ (ix1 r), constant_apply]
  have hl : (l ∘ r2_reduces.lift (ix1 r)) = fun a : Fin 2 => l (ix2 r a) := funext fun a => congrArg l (r2_lift r a)
  rw [hl]
  rfl

/-- The row sum from zero is the sum over the two columns. -/
theorem r2_rowsum_apply (x : FVec Ideal S50000x2 .f32) (r : Fin 50000) :
    Host.reduceAdd (F := Ideal) x (constant (F := Ideal) S_ .f32 0x00000000#32) reducesTo_S50000x2_S50000_d1 h_S_ (ix1 r)
      = ∑ a : Fin 2, x (ix2 r a) := by
  rw [hostReduceAdd_apply, Ideal.hostReduceAdd_single reducesTo_S50000x2_S50000_d1 r2_reduces, constant_apply,
    Ideal.ofBits_zero_f32, zero_add]
  exact Finset.sum_congr rfl fun a _ => congrArg x (r2_lift r a)

/-! ## The pointwise steps at an index -/

/-- The shifted exponential at (r, a). -/
theorem r2_exp_apply (l : FVec Ideal S50000x2 .f32) (m : FVec Ideal S50000 .f32) (r : Fin 50000) (a : Fin 2) :
    Host.exp (F := Ideal) (subf l (broadcastInDim S50000x2 ![0, 1] bcast_S50000x1_S50000x2_0_1
      (broadcastInDim S50000x1 ![0] bcast_S50000_S50000x1_0 m))) (ix2 r a) = Ideal.exp (l (ix2 r a) - m (ix1 r)) := by
  show Ideal.exp (l (ix2 r a) - _) = _
  rw [r2_col2_apply]

/-- The quotient by the row's sum at (r, a). -/
theorem r2_div_apply (x : FVec Ideal S50000x2 .f32) (s : FVec Ideal S50000 .f32) (r : Fin 50000) (a : Fin 2) :
    Host.divf (F := Ideal) x (broadcastInDim S50000x2 ![0, 1] bcast_S50000x1_S50000x2_0_1
      (broadcastInDim S50000x1 ![0] bcast_S50000_S50000x1_0 s)) (ix2 r a) = Ideal.div (x (ix2 r a)) (s (ix1 r)) := by
  show Ideal.div (x (ix2 r a)) _ = _
  rw [r2_col2_apply]

/-- The logits at (r, a): the contraction over the 256 side-by-side coordinates is the sum of the contractions over
    the two halves; the bias added. -/
theorem r2_logit_apply (n e : FVec Ideal S50000x128 .f32) (a7 : FVec Ideal S256x2 .f32) (a8 : FVec Ideal S2 .f32)
    (r : Fin 50000) (a : Fin 2) :
    addf (Host.dotGeneral (F := Ideal) dot_S50000x256_S256x2_S50000x2_1_0_0_1_n_n none
        (concatenate S50000x256 1 [⟨S50000x128, n⟩, ⟨S50000x128, e⟩] concatenates_S50000x128_S50000x128_S50000x256_d1) a7)
      (broadcastInDim S50000x2 ![0, 1] bcast_S1x2_S50000x2_0_1 (broadcastInDim S1x2 ![1] bcast_S2_S1x2_1 a8)) (ix2 r a)
      = ((∑ k : Fin 128, n (ix2 r k) * a7 (ix2 (Fin.castAdd 128 k) a))
          + ∑ k : Fin 128, e (ix2 r k) * a7 (ix2 (Fin.natAdd 128 k) a)) + a8 (ix1 a) := by
  rw [addf_apply, r2_dot_apply, r2_bias_apply, sum_halves]
  simp only [r2_cat_left, r2_cat_right]

/-- The gates: the quotient of the shifted exponentials by their row sum is the specification's softmax of the
    row of logits. -/
theorem r2_gate_apply (l : FVec Ideal S50000x2 .f32) (r : Fin 50000) (a : Fin 2) :
    Host.divf (F := Ideal)
      (Host.exp (F := Ideal) (subf l (broadcastInDim S50000x2 ![0, 1] bcast_S50000x1_S50000x2_0_1
        (broadcastInDim S50000x1 ![0] bcast_S50000_S50000x1_0
          (maximumf (broadcastInDim S50000 ![] bcast_S_S50000 (constant (F := Ideal) S_ .f32 0xFF800000#32))
            (Host.reduce FloatOps.maximumf l (constant (F := Ideal) S_ .f32 0xFF800000#32)
              reducesTo_S50000x2_S50000_d1 h_S_))))))
      (broadcastInDim S50000x2 ![0, 1] bcast_S50000x1_S50000x2_0_1
        (broadcastInDim S50000x1 ![0] bcast_S50000_S50000x1_0
          (Host.reduceAdd (F := Ideal)
            (Host.exp (F := Ideal) (subf l (broadcastInDim S50000x2 ![0, 1] bcast_S50000x1_S50000x2_0_1
              (broadcastInDim S50000x1 ![0] bcast_S50000_S50000x1_0
                (maximumf (broadcastInDim S50000 ![] bcast_S_S50000 (constant (F := Ideal) S_ .f32 0xFF800000#32))
                  (Host.reduce FloatOps.maximumf l (constant (F := Ideal) S_ .f32 0xFF800000#32)
                    reducesTo_S50000x2_S50000_d1 h_S_))))))
            (constant (F := Ideal) S_ .f32 0x00000000#32) reducesTo_S50000x2_S50000_d1 h_S_))) (ix2 r a)
      = softmax (fun a' : Fin 2 => l (ix2 r a')) a := by
  rw [r2_div_apply, r2_rowsum_apply, r2_exp_apply, r2_rowmax_apply]
  unfold softmax rowExp
  refine congrArg (Ideal.div _) (Finset.sum_congr rfl fun a' _ => ?_)
  rw [r2_exp_apply, r2_rowmax_apply]

/-- The host's gated fusion of two arrays of rows is the row-wise fusion with the gate matrix cut in its two
    halves. -/
theorem hostFU_eq (n e : FVec Ideal S50000x128 .f32) (a7 : FVec Ideal S256x2 .f32) (a8 : FVec Ideal S2 .f32) :
    hostFU (F := Ideal) n e a7 a8
      = FU (N := 50000) n e (fun k a => a7 (ix2 (Fin.castAdd 128 k) a)) (fun k a => a7 (ix2 (Fin.natAdd 128 k) a))
          (fun a => a8 (ix1 a)) := by
  funext i
  obtain ⟨r, q, rfl⟩ : ∃ (r : Fin 50000) (q : Fin 128), i = ix2 r q := ⟨i 0, i 1, eq_ix2 i⟩
  unfold hostFU
  rw [addf_apply, mulf_apply, mulf_apply, r2_col128_apply, r2_col128_apply, r2_slice0_apply, r2_slice1_apply,
    r2_gate_apply, r2_gate_apply, funext (r2_logit_apply n e a7 a8 r)]
  rfl

end Cert.ReferenceIdeal.RVal

end
-- ==== Proof.RVal.lean ====
/-
  What the reference's run leaves in its four result buffers, first as the host's own stage terms of the argument
  arrays (read off the fold of the operations), then — each stage being the row-wise function of the
  specification — as the four result functions `fused`, `eprompt`, `npx`, `eagg`; the arguments end as launched.

  The operations are read in six consecutive stretches: the two rows of the edge list, the node prompt, the two
  gathers, the edge prompt, the two scatter-adds, the fusion. Each stretch is read over an arbitrary starting
  valuation: what it writes at its last buffer is the stage's term of the buffers it reads, and every buffer it
  does not write is left as it was. The whole fold is the six folds one after another.
-/
import proofs.«175747_j34248069218340_1_alg».proof.Proof.RRun
import proofs.«175747_j34248069218340_1_alg».proof.Proof.RDefs
import proofs.«175747_j34248069218340_1_alg».proof.Proof.RStage0
import proofs.«175747_j34248069218340_1_alg».proof.Proof.RStage1
import proofs.«175747_j34248069218340_1_alg».proof.Proof.RStage2

noncomputable section

namespace Cert.ReferenceIdeal.RVal

open Cert.ReferenceIdeal Cert.ReferenceIdeal.Gen Cert.Rows Idealize.ShloMosaic Idealize.ShloMosaic.TcCoe Idealize.SL.Sem Idealize.ShloMosaic.StableHlo
open Idealize.ShloMosaic.ValueIdx

/-! ## The six stretches of the operations -/

section Stages
variable {F : FTy → Type} [FloatOps F]

/-- Stretch A: the two rows of the edge list. -/
def rv_opsA : List (HloOp τ sig (Elt F)) :=
  [ StableHlo.unary main_arg9 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg9 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000 ]
/-- The buffers stretch A writes. -/
abbrev rv_WA : List (Ref sig .tc) := [main_v0, main_v1, main_v2, main_v3]

/-- Stretch B: the node prompt. -/
def rv_opsB : List (HloOp τ sig (Elt F)) :=
  [ StableHlo.binary main_arg0 main_arg2 main_v4 ((fun l r => Host.dotGeneral dot_S50000x128_S128x5_S50000x5_1_0_0_1_n_n none l r) : (⟨S50000x128, .f32⟩ : BufTy).Contents (Elt F) → (⟨S128x5, .f32⟩ : BufTy).Contents (Elt F) → (⟨S50000x5, .f32⟩ : BufTy).Contents (Elt F)),
    StableHlo.unary main_arg3 main_v5 (broadcastInDim S1x5 ![1] bcast_S5_S1x5_1 : (⟨S5, .f32⟩ : BufTy).Contents (Elt F) → (⟨S1x5, .f32⟩ : BufTy).Contents (Elt F)),
    StableHlo.unary main_v5 main_v6 (broadcastInDim S50000x5 ![0, 1] bcast_S1x5_S50000x5_0_1 : (⟨S1x5, .f32⟩ : BufTy).Contents (Elt F) → (⟨S50000x5, .f32⟩ : BufTy).Contents (Elt F)),
    StableHlo.binary main_v4 main_v6 main_v7 (addf : (⟨S50000x5, .f32⟩ : BufTy).Contents (Elt F) → (⟨S50000x5, .f32⟩ : BufTy).Contents (Elt F) → (⟨S50000x5, .f32⟩ : BufTy).Contents (Elt F)),
    StableHlo.nullary main_cst (constant S_ .f32 0xFF800000#32),
    StableHlo.binary main_v7 main_cst main_v8 ((fun x v => Host.reduce FloatOps.maximumf x v reducesTo_S50000x5_S50000_d1 h_S_) : (⟨S50000x5, .f32⟩ : BufTy).Contents (Elt F) → (⟨S_, .f32⟩ : BufTy).Contents (Elt F) → (⟨S50000, .f32⟩ : BufTy).Contents (Elt F)),
    StableHlo.nullary main_cst_0 (constant S_ .f32 0xFF800000#32),
    StableHlo.unary main_cst_0 main_v9 (broadcastInDim S50000 ![] bcast_S_S50000 : (⟨S_, .f32⟩ : BufTy).Contents (Elt F) → (⟨S50000, .f32⟩ : BufTy).Contents (Elt F)),
    StableHlo.binary main_v9 main_v8 main_v10 (maximumf : (⟨S50000, .f32⟩ : BufTy).Contents (Elt F) → (⟨S50000, .f32⟩ : BufTy).Contents (Elt F) → (⟨S50000, .f32⟩ : BufTy).Contents (Elt F)),
    StableHlo.unary main_v10 main_v11 (broadcastInDim S50000x1 ![0] bcast_S50000_S50000x1_0 : (⟨S50000, .f32⟩ : BufTy).Contents (Elt F) → (⟨S50000x1, .f32⟩ : BufTy).Contents (Elt F)),
    StableHlo.unary main_v11 main_v12 (broadcastInDim S50000x5 ![0, 1] bcast_S50000x1_S50000x5_0_1 : (⟨S50000x1, .f32⟩ : BufTy).Contents (Elt F) → (⟨S50000x5, .f32⟩ : BufTy).Contents (Elt F)),
    StableHlo.binary main_v7 main_v12 main_v13 (subf : (⟨S50000x5, .f32⟩ : BufTy).Contents (Elt F) → (⟨S50000x5, .f32⟩ : BufTy).Contents (Elt F) → (⟨S50000x5, .f32⟩ : BufTy).Contents (Elt F)),
    StableHlo.unary main_v13 main_v14 (Host.exp : (⟨S50000x5, .f32⟩ : BufTy).Contents (Elt F) → (⟨S50000x5, .f32⟩ : BufTy).Contents (Elt F)),
    StableHlo.nullary main_cst_1 (constant S_ .f32 0x00000000#32),
    StableHlo.binary main_v14 main_cst_1 main_v15 ((fun x v => Host.reduceAdd x v reducesTo_S50000x5_S50000_d1 h_S_) : (⟨S50000x5, .f32⟩ : BufTy).Contents (Elt F) → (⟨S_, .f32⟩ : BufTy).Contents (Elt F) → (⟨S50000, .f32⟩ : BufTy).Contents (Elt F)),
    StableHlo.unary main_v15 main_v16 (broadcastInDim S50000x1 ![0] bcast_S50000_S50000x1_0 : (⟨S50000, .f32⟩ : BufTy).Contents (Elt F) → (⟨S50000x1, .f32⟩ : BufTy).Contents (Elt F)),
    StableHlo.unary main_v16 main_v17 (broadcastInDim S50000x5 ![0, 1] bcast_S50000x1_S50000x5_0_1 : (⟨S50000x1, .f32⟩ : BufTy).Contents (Elt F) → (⟨S50000x5, .f32⟩ : BufTy).Contents (Elt F)),
    StableHlo.binary main_v14 main_v17 main_v18 (Host.divf : (⟨S50000x5, .f32⟩ : BufTy).Contents (Elt F) → (⟨S50000x5, .f32⟩ : BufTy).Contents (Elt F) → (⟨S50000x5, .f32⟩ : BufTy).Contents (Elt F)),
    StableHlo.binary main_v18 main_arg1 main_v19 ((fun l r => Host.dotGeneral dot_S50000x5_S5x128_S50000x128_1_0_0_1_n_n none l r) : (⟨S50000x5, .f32⟩ : BufTy).Contents (Elt F) → (⟨S5x128, .f32⟩ : BufTy).Contents (Elt F) → (⟨S50000x128, .f32⟩ : BufTy).Contents (Elt F)),
    StableHlo.binary main_arg0 main_v19 main_v20 (addf : (⟨S50000x128, .f32⟩ : BufTy).Contents (Elt F) → (⟨S50000x128, .f32⟩ : BufTy).Contents (Elt F) → (⟨S50000x128, .f32⟩ : BufTy).Contents (Elt F)) ]
/-- The buffers stretch B writes. -/
abbrev rv_WB : List (Ref sig .tc) := [main_v4, main_v5, main_v6, main_v7, main_cst, main_v8, main_cst_0, main_v9, main_v10, main_v11, main_v12, main_v13, main_v14, main_cst_1, main_v15, main_v16, main_v17, main_v18, main_v19, main_v20]

/-- Stretch C: the start indices and the two gathers. -/
def rv_opsC : List (HloOp τ sig (Elt F)) :=
  [ StableHlo.nullary main_c (constantI S_ 32 0#32),
    StableHlo.unary main_c main_v21 (broadcastInDim S640000 ![] bcast_S_S640000 : (⟨S_, .i32⟩ : BufTy).Contents (Elt F) → (⟨S640000, .i32⟩ : BufTy).Contents (Elt F)),
    StableHlo.binary main_v1 main_v21 main_v22 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 50000#32),
    StableHlo.unary main_c_2 main_v23 (broadcastInDim S640000 ![] bcast_S_S640000 : (⟨S_, .i32⟩ : BufTy).Contents (Elt F) → (⟨S640000, .i32⟩ : BufTy).Contents (Elt F)),
    StableHlo.binary main_v1 main_v23 main_v24 (addi : (⟨S640000, .i32⟩ : BufTy).Contents (Elt F) → (⟨S640000, .i32⟩ : BufTy).Contents (Elt F) → (⟨S640000, .i32⟩ : BufTy).Contents (Elt F)),
    StableHlo.ternary main_v22 main_v24 main_v1 main_v25 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v25 main_v26 (broadcastInDim S640000x1 ![0] bcast_S640000_S640000x1_0 : (⟨S640000, .i32⟩ : BufTy).Contents (Elt F) → (⟨S640000x1, .i32⟩ : BufTy).Contents (Elt F)),
    StableHlo.binary main_arg0 main_v26 main_v27 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.nullary main_c_3 (constantI S_ 32 0#32),
    StableHlo.unary main_c_3 main_v28 (broadcastInDim S640000 ![] bcast_S_S640000 : (⟨S_, .i32⟩ : BufTy).Contents (Elt F) → (⟨S640000, .i32⟩ : BufTy).Contents (Elt F)),
    StableHlo.binary main_v3 main_v28 main_v29 (cmpi .slt : (⟨S640000, .i32⟩ : BufTy).Contents (Elt F) → (⟨S640000, .i32⟩ : BufTy).Contents (Elt F) → (⟨S640000, .i1⟩ : BufTy).Contents (Elt F)),
    StableHlo.nullary main_c_4 (constantI S_ 32 50000#32),
    StableHlo.unary main_c_4 main_v30 (broadcastInDim S640000 ![] bcast_S_S640000 : (⟨S_, .i32⟩ : BufTy).Contents (Elt F) → (⟨S640000, .i32⟩ : BufTy).Contents (Elt F)),
    StableHlo.binary main_v3 main_v30 main_v31 (addi : (⟨S640000, .i32⟩ : BufTy).Contents (Elt F) → (⟨S640000, .i32⟩ : BufTy).Contents (Elt F) → (⟨S640000, .i32⟩ : BufTy).Contents (Elt F)),
    StableHlo.ternary main_v29 main_v31 main_v3 main_v32 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v32 main_v33 (broadcastInDim S640000x1 ![0] bcast_S640000_S640000x1_0 : (⟨S640000, .i32⟩ : BufTy).Contents (Elt F) → (⟨S640000x1, .i32⟩ : BufTy).Contents (Elt F)),
    StableHlo.binary main_arg0 main_v33 main_v34 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)) ]
/-- The buffers stretch C writes. -/
abbrev rv_WC : List (Ref sig .tc) := [main_c, main_v21, main_v22, main_c_2, main_v23, main_v24, main_v25, main_v26, main_v27, main_c_3, main_v28, main_v29, main_c_4, main_v30, main_v31, main_v32, main_v33, main_v34]

/-- Stretch D: the edge prompt. -/
def rv_opsD : List (HloOp τ sig (Elt F)) :=
  [ StableHlo.binary main_v27 main_v34 main_v35 ((fun a b => concatenate S640000x256 1 [⟨S640000x128, a⟩, ⟨S640000x128, b⟩] concatenates_S640000x128_S640000x128_S640000x256_d1) : (⟨S640000x128, .f32⟩ : BufTy).Contents (Elt F) → (⟨S640000x128, .f32⟩ : BufTy).Contents (Elt F) → (⟨S640000x256, .f32⟩ : BufTy).Contents (Elt F)),
    StableHlo.binary main_v35 main_arg5 main_v36 ((fun l r => Host.dotGeneral dot_S640000x256_S256x5_S640000x5_1_0_0_1_n_n none l r) : (⟨S640000x256, .f32⟩ : BufTy).Contents (Elt F) → (⟨S256x5, .f32⟩ : BufTy).Contents (Elt F) → (⟨S640000x5, .f32⟩ : BufTy).Contents (Elt F)),
    StableHlo.unary main_arg6 main_v37 (broadcastInDim S1x5 ![1] bcast_S5_S1x5_1 : (⟨S5, .f32⟩ : BufTy).Contents (Elt F) → (⟨S1x5, .f32⟩ : BufTy).Contents (Elt F)),
    StableHlo.unary main_v37 main_v38 (broadcastInDim S640000x5 ![0, 1] bcast_S1x5_S640000x5_0_1 : (⟨S1x5, .f32⟩ : BufTy).Contents (Elt F) → (⟨S640000x5, .f32⟩ : BufTy).Contents (Elt F)),
    StableHlo.binary main_v36 main_v38 main_v39 (addf : (⟨S640000x5, .f32⟩ : BufTy).Contents (Elt F) → (⟨S640000x5, .f32⟩ : BufTy).Contents (Elt F) → (⟨S640000x5, .f32⟩ : BufTy).Contents (Elt F)),
    StableHlo.TRef.nullary main_call0.cst (constant S_ .f32 0x00000000#32),
    StableHlo.TRef.unary main_call0.cst main_call0.v0 (broadcastInDim S640000x5 ![] bcast_S_S640000x5),
    StableHlo.TRef.binary (.of main_v39) main_call0.v0 main_call0.v1 (cmpf .oge),
    StableHlo.TRef.nullary main_call0.cst_0 (constant S_ .f32 0x3C23D70A#32),
    StableHlo.TRef.unary main_call0.cst_0 main_call0.v2 (broadcastInDim S640000x5 ![] bcast_S_S640000x5),
    StableHlo.TRef.binary main_call0.v2 (.of main_v39) main_call0.v3 mulf,
    StableHlo.TRef.ternary main_call0.v1 (.of main_v39) main_call0.v3 main_call0.call0.v0 select,
    StableHlo.nullary main_cst_5 (constant S_ .f32 0xFF800000#32),
    StableHlo.binary main_v40 main_cst_5 main_v41 ((fun x v => Host.reduce FloatOps.maximumf x v reducesTo_S640000x5_S640000_d1 h_S_) : (⟨S640000x5, .f32⟩ : BufTy).Contents (Elt F) → (⟨S_, .f32⟩ : BufTy).Contents (Elt F) → (⟨S640000, .f32⟩ : BufTy).Contents (Elt F)),
    StableHlo.nullary main_cst_6 (constant S_ .f32 0xFF800000#32),
    StableHlo.unary main_cst_6 main_v42 (broadcastInDim S640000 ![] bcast_S_S640000 : (⟨S_, .f32⟩ : BufTy).Contents (Elt F) → (⟨S640000, .f32⟩ : BufTy).Contents (Elt F)),
    StableHlo.binary main_v42 main_v41 main_v43 (maximumf : (⟨S640000, .f32⟩ : BufTy).Contents (Elt F) → (⟨S640000, .f32⟩ : BufTy).Contents (Elt F) → (⟨S640000, .f32⟩ : BufTy).Contents (Elt F)),
    StableHlo.unary main_v43 main_v44 (broadcastInDim S640000x1 ![0] bcast_S640000_S640000x1_0 : (⟨S640000, .f32⟩ : BufTy).Contents (Elt F) → (⟨S640000x1, .f32⟩ : BufTy).Contents (Elt F)),
    StableHlo.unary main_v44 main_v45 (broadcastInDim S640000x5 ![0, 1] bcast_S640000x1_S640000x5_0_1 : (⟨S640000x1, .f32⟩ : BufTy).Contents (Elt F) → (⟨S640000x5, .f32⟩ : BufTy).Contents (Elt F)),
    StableHlo.binary main_v40 main_v45 main_v46 (subf : (⟨S640000x5, .f32⟩ : BufTy).Contents (Elt F) → (⟨S640000x5, .f32⟩ : BufTy).Contents (Elt F) → (⟨S640000x5, .f32⟩ : BufTy).Contents (Elt F)),
    StableHlo.unary main_v46 main_v47 (Host.exp : (⟨S640000x5, .f32⟩ : BufTy).Contents (Elt F) → (⟨S640000x5, .f32⟩ : BufTy).Contents (Elt F)),
    StableHlo.nullary main_cst_7 (constant S_ .f32 0x00000000#32),
    StableHlo.binary main_v47 main_cst_7 main_v48 ((fun x v => Host.reduceAdd x v reducesTo_S640000x5_S640000_d1 h_S_) : (⟨S640000x5, .f32⟩ : BufTy).Contents (Elt F) → (⟨S_, .f32⟩ : BufTy).Contents (Elt F) → (⟨S640000, .f32⟩ : BufTy).Contents (Elt F)),
    StableHlo.unary main_v48 main_v49 (broadcastInDim S640000x1 ![0] bcast_S640000_S640000x1_0 : (⟨S640000, .f32⟩ : BufTy).Contents (Elt F) → (⟨S640000x1, .f32⟩ : BufTy).Contents (Elt F)),
    StableHlo.unary main_v49 main_v50 (broadcastInDim S640000x5 ![0, 1] bcast_S640000x1_S640000x5_0_1 : (⟨S640000x1, .f32⟩ : BufTy).Contents (Elt F) → (⟨S640000x5, .f32⟩ : BufTy).Contents (Elt F)),
    StableHlo.binary main_v47 main_v50 main_v51 (Host.divf : (⟨S640000x5, .f32⟩ : BufTy).Contents (Elt F) → (⟨S640000x5, .f32⟩ : BufTy).Contents (Elt F) → (⟨S640000x5, .f32⟩ : BufTy).Contents (Elt F)),
    StableHlo.binary main_v51 main_arg4 main_v52 ((fun l r => Host.dotGeneral dot_S640000x5_S5x128_S640000x128_1_0_0_1_n_n none l r) : (⟨S640000x5, .f32⟩ : BufTy).Contents (Elt F) → (⟨S5x128, .f32⟩ : BufTy).Contents (Elt F) → (⟨S640000x128, .f32⟩ : BufTy).Contents (Elt F)) ]
/-- The buffers stretch D writes. -/
abbrev rv_WD : List (Ref sig .tc) := [main_v35, main_v36, main_v37, main_v38, main_v39, main_call0_cst, main_call0_v0, main_call0_v1, main_call0_cst_0, main_call0_v2, main_call0_v3, main_v40, main_cst_5, main_v41, main_cst_6, main_v42, main_v43, main_v44, main_v45, main_v46, main_v47, main_cst_7, main_v48, main_v49, main_v50, main_v51, main_v52]

/-- Stretch E: the zeros and the two scatter-adds. -/
def rv_opsE : List (HloOp τ sig (Elt F)) :=
  [ StableHlo.nullary main_cst_8 (constant S_ .f32 0x00000000#32),
    StableHlo.unary main_cst_8 main_v53 (broadcastInDim S50000x128 ![] bcast_S_S50000x128 : (⟨S_, .f32⟩ : BufTy).Contents (Elt F) → (⟨S50000x128, .f32⟩ : BufTy).Contents (Elt F)),
    StableHlo.nullary main_c_9 (constantI S_ 32 0#32),
    StableHlo.unary main_c_9 main_v54 (broadcastInDim S640000 ![] bcast_S_S640000 : (⟨S_, .i32⟩ : BufTy).Contents (Elt F) → (⟨S640000, .i32⟩ : BufTy).Contents (Elt F)),
    StableHlo.binary main_v1 main_v54 main_v55 (cmpi .slt : (⟨S640000, .i32⟩ : BufTy).Contents (Elt F) → (⟨S640000, .i32⟩ : BufTy).Contents (Elt F) → (⟨S640000, .i1⟩ : BufTy).Contents (Elt F)),
    StableHlo.nullary main_c_10 (constantI S_ 32 50000#32),
    StableHlo.unary main_c_10 main_v56 (broadcastInDim S640000 ![] bcast_S_S640000 : (⟨S_, .i32⟩ : BufTy).Contents (Elt F) → (⟨S640000, .i32⟩ : BufTy).Contents (Elt F)),
    StableHlo.binary main_v1 main_v56 main_v57 (addi : (⟨S640000, .i32⟩ : BufTy).Contents (Elt F) → (⟨S640000, .i32⟩ : BufTy).Contents (Elt F) → (⟨S640000, .i32⟩ : BufTy).Contents (Elt F)),
    StableHlo.ternary main_v55 main_v57 main_v1 main_v58 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v58 main_v59 (broadcastInDim S640000x1 ![0] bcast_S640000_S640000x1_0 : (⟨S640000, .i32⟩ : BufTy).Contents (Elt F) → (⟨S640000x1, .i32⟩ : BufTy).Contents (Elt F)),
    StableHlo.ternary main_v53 main_v59 main_v52 main_v60 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.nullary main_c_11 (constantI S_ 32 0#32),
    StableHlo.unary main_c_11 main_v61 (broadcastInDim S640000 ![] bcast_S_S640000 : (⟨S_, .i32⟩ : BufTy).Contents (Elt F) → (⟨S640000, .i32⟩ : BufTy).Contents (Elt F)),
    StableHlo.binary main_v3 main_v61 main_v62 (cmpi .slt : (⟨S640000, .i32⟩ : BufTy).Contents (Elt F) → (⟨S640000, .i32⟩ : BufTy).Contents (Elt F) → (⟨S640000, .i1⟩ : BufTy).Contents (Elt F)),
    StableHlo.nullary main_c_12 (constantI S_ 32 50000#32),
    StableHlo.unary main_c_12 main_v63 (broadcastInDim S640000 ![] bcast_S_S640000 : (⟨S_, .i32⟩ : BufTy).Contents (Elt F) → (⟨S640000, .i32⟩ : BufTy).Contents (Elt F)),
    StableHlo.binary main_v3 main_v63 main_v64 (addi : (⟨S640000, .i32⟩ : BufTy).Contents (Elt F) → (⟨S640000, .i32⟩ : BufTy).Contents (Elt F) → (⟨S640000, .i32⟩ : BufTy).Contents (Elt F)),
    StableHlo.ternary main_v62 main_v64 main_v3 main_v65 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v65 main_v66 (broadcastInDim S640000x1 ![0] bcast_S640000_S640000x1_0 : (⟨S640000, .i32⟩ : BufTy).Contents (Elt F) → (⟨S640000x1, .i32⟩ : BufTy).Contents (Elt F)),
    StableHlo.ternary main_v60 main_v66 main_v52 main_v67 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]
/-- The buffers stretch E writes. -/
abbrev rv_WE : List (Ref sig .tc) := [main_cst_8, main_v53, main_c_9, main_v54, main_v55, main_c_10, main_v56, main_v57, main_v58, main_v59, main_v60, main_c_11, main_v61, main_v62, main_c_12, main_v63, main_v64, main_v65, main_v66, main_v67]

/-- Stretch F: the fusion. -/
def rv_opsF : List (HloOp τ sig (Elt F)) :=
  [ StableHlo.binary main_v20 main_v67 main_v68 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v68 main_arg7 main_v69 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg8 main_v70 (broadcastInDim S1x2 ![1] bcast_S2_S1x2_1 : (⟨S2, .f32⟩ : BufTy).Contents (Elt F) → (⟨S1x2, .f32⟩ : BufTy).Contents (Elt F)),
    StableHlo.unary main_v70 main_v71 (broadcastInDim S50000x2 ![0, 1] bcast_S1x2_S50000x2_0_1 : (⟨S1x2, .f32⟩ : BufTy).Contents (Elt F) → (⟨S50000x2, .f32⟩ : BufTy).Contents (Elt F)),
    StableHlo.binary main_v69 main_v71 main_v72 (addf : (⟨S50000x2, .f32⟩ : BufTy).Contents (Elt F) → (⟨S50000x2, .f32⟩ : BufTy).Contents (Elt F) → (⟨S50000x2, .f32⟩ : BufTy).Contents (Elt F)),
    StableHlo.nullary main_cst_13 (constant S_ .f32 0xFF800000#32),
    StableHlo.binary main_v72 main_cst_13 main_v73 ((fun x v => Host.reduce FloatOps.maximumf x v reducesTo_S50000x2_S50000_d1 h_S_) : (⟨S50000x2, .f32⟩ : BufTy).Contents (Elt F) → (⟨S_, .f32⟩ : BufTy).Contents (Elt F) → (⟨S50000, .f32⟩ : BufTy).Contents (Elt F)),
    StableHlo.nullary main_cst_14 (constant S_ .f32 0xFF800000#32),
    StableHlo.unary main_cst_14 main_v74 (broadcastInDim S50000 ![] bcast_S_S50000 : (⟨S_, .f32⟩ : BufTy).Contents (Elt F) → (⟨S50000, .f32⟩ : BufTy).Contents (Elt F)),
    StableHlo.binary main_v74 main_v73 main_v75 (maximumf : (⟨S50000, .f32⟩ : BufTy).Contents (Elt F) → (⟨S50000, .f32⟩ : BufTy).Contents (Elt F) → (⟨S50000, .f32⟩ : BufTy).Contents (Elt F)),
    StableHlo.unary main_v75 main_v76 (broadcastInDim S50000x1 ![0] bcast_S50000_S50000x1_0 : (⟨S50000, .f32⟩ : BufTy).Contents (Elt F) → (⟨S50000x1, .f32⟩ : BufTy).Contents (Elt F)),
    StableHlo.unary main_v76 main_v77 (broadcastInDim S50000x2 ![0, 1] bcast_S50000x1_S50000x2_0_1 : (⟨S50000x1, .f32⟩ : BufTy).Contents (Elt F) → (⟨S50000x2, .f32⟩ : BufTy).Contents (Elt F)),
    StableHlo.binary main_v72 main_v77 main_v78 (subf : (⟨S50000x2, .f32⟩ : BufTy).Contents (Elt F) → (⟨S50000x2, .f32⟩ : BufTy).Contents (Elt F) → (⟨S50000x2, .f32⟩ : BufTy).Contents (Elt F)),
    StableHlo.unary main_v78 main_v79 (Host.exp : (⟨S50000x2, .f32⟩ : BufTy).Contents (Elt F) → (⟨S50000x2, .f32⟩ : BufTy).Contents (Elt F)),
    StableHlo.nullary main_cst_15 (constant S_ .f32 0x00000000#32),
    StableHlo.binary main_v79 main_cst_15 main_v80 ((fun x v => Host.reduceAdd x v reducesTo_S50000x2_S50000_d1 h_S_) : (⟨S50000x2, .f32⟩ : BufTy).Contents (Elt F) → (⟨S_, .f32⟩ : BufTy).Contents (Elt F) → (⟨S50000, .f32⟩ : BufTy).Contents (Elt F)),
    StableHlo.unary main_v80 main_v81 (broadcastInDim S50000x1 ![0] bcast_S50000_S50000x1_0 : (⟨S50000, .f32⟩ : BufTy).Contents (Elt F) → (⟨S50000x1, .f32⟩ : BufTy).Contents (Elt F)),
    StableHlo.unary main_v81 main_v82 (broadcastInDim S50000x2 ![0, 1] bcast_S50000x1_S50000x2_0_1 : (⟨S50000x1, .f32⟩ : BufTy).Contents (Elt F) → (⟨S50000x2, .f32⟩ : BufTy).Contents (Elt F)),
    StableHlo.binary main_v79 main_v82 main_v83 (Host.divf : (⟨S50000x2, .f32⟩ : BufTy).Contents (Elt F) → (⟨S50000x2, .f32⟩ : BufTy).Contents (Elt F) → (⟨S50000x2, .f32⟩ : BufTy).Contents (Elt F)),
    StableHlo.unary main_v83 main_v84 ((extractStridedSlice S50000x1 ![0, 0] · slices_S50000x2_S50000x1_0_0) : (⟨S50000x2, .f32⟩ : BufTy).Contents (Elt F) → (⟨S50000x1, .f32⟩ : BufTy).Contents (Elt F)),
    StableHlo.unary main_v84 main_v85 (broadcastInDim S50000x128 ![0, 1] bcast_S50000x1_S50000x128_0_1 : (⟨S50000x1, .f32⟩ : BufTy).Contents (Elt F) → (⟨S50000x128, .f32⟩ : BufTy).Contents (Elt F)),
    StableHlo.binary main_v85 main_v20 main_v86 (mulf : (⟨S50000x128, .f32⟩ : BufTy).Contents (Elt F) → (⟨S50000x128, .f32⟩ : BufTy).Contents (Elt F) → (⟨S50000x128, .f32⟩ : BufTy).Contents (Elt F)),
    StableHlo.unary main_v83 main_v87 ((extractStridedSlice S50000x1 ![0, 1] · slices_S50000x2_S50000x1_0_1) : (⟨S50000x2, .f32⟩ : BufTy).Contents (Elt F) → (⟨S50000x1, .f32⟩ : BufTy).Contents (Elt F)),
    StableHlo.unary main_v87 main_v88 (broadcastInDim S50000x128 ![0, 1] bcast_S50000x1_S50000x128_0_1 : (⟨S50000x1, .f32⟩ : BufTy).Contents (Elt F) → (⟨S50000x128, .f32⟩ : BufTy).Contents (Elt F)),
    StableHlo.binary main_v88 main_v67 main_v89 (mulf : (⟨S50000x128, .f32⟩ : BufTy).Contents (Elt F) → (⟨S50000x128, .f32⟩ : BufTy).Contents (Elt F) → (⟨S50000x128, .f32⟩ : BufTy).Contents (Elt F)),
    StableHlo.binary main_v86 main_v89 main_v90 (addf : (⟨S50000x128, .f32⟩ : BufTy).Contents (Elt F) → (⟨S50000x128, .f32⟩ : BufTy).Contents (Elt F) → (⟨S50000x128, .f32⟩ : BufTy).Contents (Elt F)) ]
/-- The buffers stretch F writes. -/
abbrev rv_WF : List (Ref sig .tc) := [main_v68, main_v69, main_v70, main_v71, main_v72, main_cst_13, main_v73, main_cst_14, main_v74, main_v75, main_v76, main_v77, main_v78, main_v79, main_cst_15, main_v80, main_v81, main_v82, main_v83, main_v84, main_v85, main_v86, main_v87, main_v88, main_v89, main_v90]

/-- The operations are the six stretches in order. -/
theorem rv_ops_split : (ops : List (HloOp τ sig (Elt F))) = rv_opsA ++ (rv_opsB ++ (rv_opsC ++ (rv_opsD ++ (rv_opsE ++ rv_opsF)))) := rfl

/-- The fold of all the operations is the six folds one after another. -/
theorem rv_after_ops (V : Valuation τ sig (Elt F)) :
    after ops V = after rv_opsF (after rv_opsE (after rv_opsD (after rv_opsC (after rv_opsB (after rv_opsA V))))) := by
  rw [rv_ops_split, after_append, after_append, after_append, after_append, after_append]

/-- Every operation of stretch A writes one of the listed buffers. -/
theorem rv_writesA : (rv_opsA : List (HloOp τ sig (Elt F))).Forall fun op => op.writes ⊆ (rv_WA.map (Proc.devRef (τ := τ) .tc)).toFinset := by
  simp only [rv_opsA, List.Forall, nullary_writes, unary_writes, binary_writes, ternary_writes, reshape_writes, Finset.singleton_subset_iff, List.mem_toFinset]
  repeat' apply And.intro
  all_goals exact List.mem_map_of_mem (by decide)

/-- A buffer stretch A does not write keeps its contents. -/
theorem rv_keepA (X : Valuation τ sig (Elt F)) (r : Ref sig .tc) (h : r ∉ rv_WA) :
    after rv_opsA X (no_index (Proc.devRef .tc r)) = X (Proc.devRef .tc r) :=
  after_of_writes_sub rv_opsA X rv_writesA h

/-- Every operation of stretch B writes one of the listed buffers. -/
theorem rv_writesB : (rv_opsB : List (HloOp τ sig (Elt F))).Forall fun op => op.writes ⊆ (rv_WB.map (Proc.devRef (τ := τ) .tc)).toFinset := by
  simp only [rv_opsB, List.Forall, nullary_writes, unary_writes, binary_writes, ternary_writes, reshape_writes, Finset.singleton_subset_iff, List.mem_toFinset]
  repeat' apply And.intro
  all_goals exact List.mem_map_of_mem (by decide)

/-- A buffer stretch B does not write keeps its contents. -/
theorem rv_keepB (X : Valuation τ sig (Elt F)) (r : Ref sig .tc) (h : r ∉ rv_WB) :
    after rv_opsB X (no_index (Proc.devRef .tc r)) = X (Proc.devRef .tc r) :=
  after_of_writes_sub rv_opsB X rv_writesB h

/-- Every operation of stretch C writes one of the listed buffers. -/
theorem rv_writesC : (rv_opsC : List (HloOp τ sig (Elt F))).Forall fun op => op.writes ⊆ (rv_WC.map (Proc.devRef (τ := τ) .tc)).toFinset := by
  simp only [rv_opsC, List.Forall, nullary_writes, unary_writes, binary_writes, ternary_writes, reshape_writes, Finset.singleton_subset_iff, List.mem_toFinset]
  repeat' apply And.intro
  all_goals exact List.mem_map_of_mem (by decide)

/-- A buffer stretch C does not write keeps its contents. -/
theorem rv_keepC (X : Valuation τ sig (Elt F)) (r : Ref sig .tc) (h : r ∉ rv_WC) :
    after rv_opsC X (no_index (Proc.devRef .tc r)) = X (Proc.devRef .tc r) :=
  after_of_writes_sub rv_opsC X rv_writesC h

/-- Every operation of stretch D writes one of the listed buffers. -/
theorem rv_writesD : (rv_opsD : List (HloOp τ sig (Elt F))).Forall fun op => op.writes ⊆ (rv_WD.map (Proc.devRef (τ := τ) .tc)).toFinset := by
  simp only [rv_opsD, List.Forall, nullary_writes, unary_writes, binary_writes, ternary_writes, reshape_writes, Finset.singleton_subset_iff, List.mem_toFinset]
  repeat' apply And.intro
  all_goals exact List.mem_map_of_mem (by decide)

/-- A buffer stretch D does not write keeps its contents. -/
theorem rv_keepD (X : Valuation τ sig (Elt F)) (r : Ref sig .tc) (h : r ∉ rv_WD) :
    after rv_opsD X (no_index (Proc.devRef .tc r)) = X (Proc.devRef .tc r) :=
  after_of_writes_sub rv_opsD X rv_writesD h

/-- Every operation of stretch E writes one of the listed buffers. -/
theorem rv_writesE : (rv_opsE : List (HloOp τ sig (Elt F))).Forall fun op => op.writes ⊆ (rv_WE.map (Proc.devRef (τ := τ) .tc)).toFinset := by
  simp only [rv_opsE, List.Forall, nullary_writes, unary_writes, binary_writes, ternary_writes, reshape_writes, Finset.singleton_subset_iff, List.mem_toFinset]
  repeat' apply And.intro
  all_goals exact List.mem_map_of_mem (by decide)

/-- A buffer stretch E does not write keeps its contents. -/
theorem rv_keepE (X : Valuation τ sig (Elt F)) (r : Ref sig .tc) (h : r ∉ rv_WE) :
    after rv_opsE X (no_index (Proc.devRef .tc r)) = X (Proc.devRef .tc r) :=
  after_of_writes_sub rv_opsE X rv_writesE h

/-- Every operation of stretch F writes one of the listed buffers. -/
theorem rv_writesF : (rv_opsF : List (HloOp τ sig (Elt F))).Forall fun op => op.writes ⊆ (rv_WF.map (Proc.devRef (τ := τ) .tc)).toFinset := by
  simp only [rv_opsF, List.Forall, nullary_writes, unary_writes, binary_writes, ternary_writes, reshape_writes, Finset.singleton_subset_iff, List.mem_toFinset]
  repeat' apply And.intro
  all_goals exact List.mem_map_of_mem (by decide)

/-- A buffer stretch F does not write keeps its contents. -/
theorem rv_keepF (X : Valuation τ sig (Elt F)) (r : Ref sig .tc) (h : r ∉ rv_WF) :
    after rv_opsF X (no_index (Proc.devRef .tc r)) = X (Proc.devRef .tc r) :=
  after_of_writes_sub rv_opsF X rv_writesF h

/-- Stretch A leaves the sources' row of the edge list at its second buffer. -/
theorem rv_A_v1 (X : Valuation τ sig (Elt F)) : after rv_opsA X (no_index (main_v1 : DevRef τ sig)) = srcRow (X (main_arg9 : DevRef τ sig)) := by
  unfold rv_opsA
  after_results_simp
  rfl
/-- Stretch A leaves the destinations' row of the edge list at its last buffer. -/
theorem rv_A_v3 (X : Valuation τ sig (Elt F)) : after rv_opsA X (no_index (main_v3 : DevRef τ sig)) = dstRow (X (main_arg9 : DevRef τ sig)) := by
  unfold rv_opsA
  after_results_simp
  rfl
/-- Stretch B leaves the host's node prompt of the four arguments it reads. -/
theorem rv_B_v20 (X : Valuation τ sig (Elt F)) : after rv_opsB X (no_index (main_v20 : DevRef τ sig))
    = hostNP (X (main_arg0 : DevRef τ sig)) (X (main_arg1 : DevRef τ sig)) (X (main_arg2 : DevRef τ sig)) (X (main_arg3 : DevRef τ sig)) := by
  unfold rv_opsB
  after_results_simp
  rfl
/-- Stretch C leaves the rows of x gathered at the sources' start indices. -/
theorem rv_C_v27 (X : Valuation τ sig (Elt F)) : after rv_opsC X (no_index (main_v27 : DevRef τ sig))
    = gatherRows (X (main_arg0 : DevRef τ sig)) (endIdx (X (main_v1 : DevRef τ sig))) := by
  unfold rv_opsC
  after_results_simp
  rfl
/-- Stretch C leaves the rows of x gathered at the destinations' start indices. -/
theorem rv_C_v34 (X : Valuation τ sig (Elt F)) : after rv_opsC X (no_index (main_v34 : DevRef τ sig))
    = gatherRows (X (main_arg0 : DevRef τ sig)) (endIdx (X (main_v3 : DevRef τ sig))) := by
  unfold rv_opsC
  after_results_simp
  rfl
/-- Stretch D leaves the host's edge prompt of the two gathered arrays and the three arguments it reads. -/
theorem rv_D_v52 (X : Valuation τ sig (Elt F)) : after rv_opsD X (no_index (main_v52 : DevRef τ sig))
    = hostEP (X (main_v27 : DevRef τ sig)) (X (main_v34 : DevRef τ sig)) (X (main_arg4 : DevRef τ sig)) (X (main_arg5 : DevRef τ sig)) (X (main_arg6 : DevRef τ sig)) := by
  unfold rv_opsD
  after_results_simp
  rfl
/-- Stretch E leaves the edge prompt added into zeros at the sources' start indices, then at the destinations'. -/
theorem rv_E_v67 (X : Valuation τ sig (Elt F)) : after rv_opsE X (no_index (main_v67 : DevRef τ sig))
    = scatter2 (endIdx (X (main_v1 : DevRef τ sig))) (endIdx (X (main_v3 : DevRef τ sig))) (X (main_v52 : DevRef τ sig)) := by
  unfold rv_opsE
  after_results_simp
  rfl
/-- Stretch F leaves the host's fusion of the node prompt and the aggregated edge prompts. -/
theorem rv_F_v90 (X : Valuation τ sig (Elt F)) : after rv_opsF X (no_index (main_v90 : DevRef τ sig))
    = hostFU (X (main_v20 : DevRef τ sig)) (X (main_v67 : DevRef τ sig)) (X (main_arg7 : DevRef τ sig)) (X (main_arg8 : DevRef τ sig)) := by
  unfold rv_opsF
  after_results_simp
  rfl

end Stages

/-! ## The fold of the operations at the result buffers and at the arguments -/

section Fold
variable (V : Valuation τ sig (Elt Ideal))

/-- Reads the whole fold at a buffer: the six folds one after another, each stretch's result at its own last
    buffer, every other buffer passed through the stretches that do not write it. -/
local macro "rv_read" : tactic =>
  `(tactic| simp (disch := decide) only [rv_after_ops, rv_A_v1, rv_A_v3, rv_B_v20, rv_C_v27, rv_C_v34, rv_D_v52, rv_E_v67, rv_F_v90,
      rv_keepA, rv_keepB, rv_keepC, rv_keepD, rv_keepE, rv_keepF])

/-- The node-prompted x after the operations: the host's node-prompt stage of the arguments. -/
theorem out_v20 : after (ops (F := Ideal)) V (main_v20 : DevRef τ sig) = hostNP (F := Ideal) (V (main_arg0 : DevRef τ sig)) (V (main_arg1 : DevRef τ sig)) (V (main_arg2 : DevRef τ sig)) (V (main_arg3 : DevRef τ sig)) := by
  rv_read
/-- The edge prompt after the operations: the host's edge-prompt stage of the rows of x gathered at the endpoints. -/
theorem out_v52 : after (ops (F := Ideal)) V (main_v52 : DevRef τ sig) = hostEP (F := Ideal) (gatherRows (F := Ideal) (V (main_arg0 : DevRef τ sig)) (endIdx (srcRow (V (main_arg9 : DevRef τ sig))))) (gatherRows (F := Ideal) (V (main_arg0 : DevRef τ sig)) (endIdx (dstRow (V (main_arg9 : DevRef τ sig))))) (V (main_arg4 : DevRef τ sig)) (V (main_arg5 : DevRef τ sig)) (V (main_arg6 : DevRef τ sig)) := by
  rv_read
/-- The aggregated edge prompts after the operations: the two scatter-adds of the edge prompt into zeros. -/
theorem out_v67 : after (ops (F := Ideal)) V (main_v67 : DevRef τ sig) = scatter2 (F := Ideal) (endIdx (srcRow (V (main_arg9 : DevRef τ sig)))) (endIdx (dstRow (V (main_arg9 : DevRef τ sig)))) (hostEP (F := Ideal) (gatherRows (F := Ideal) (V (main_arg0 : DevRef τ sig)) (endIdx (srcRow (V (main_arg9 : DevRef τ sig))))) (gatherRows (F := Ideal) (V (main_arg0 : DevRef τ sig)) (endIdx (dstRow (V (main_arg9 : DevRef τ sig))))) (V (main_arg4 : DevRef τ sig)) (V (main_arg5 : DevRef τ sig)) (V (main_arg6 : DevRef τ sig))) := by
  rv_read
/-- The fused result after the operations: the host's fusion stage of the two results above. -/
theorem out_v90 : after (ops (F := Ideal)) V (main_v90 : DevRef τ sig)
    = hostFU (F := Ideal) (hostNP (F := Ideal) (V (main_arg0 : DevRef τ sig)) (V (main_arg1 : DevRef τ sig)) (V (main_arg2 : DevRef τ sig)) (V (main_arg3 : DevRef τ sig))) (scatter2 (F := Ideal) (endIdx (srcRow (V (main_arg9 : DevRef τ sig)))) (endIdx (dstRow (V (main_arg9 : DevRef τ sig)))) (hostEP (F := Ideal) (gatherRows (F := Ideal) (V (main_arg0 : DevRef τ sig)) (endIdx (srcRow (V (main_arg9 : DevRef τ sig))))) (gatherRows (F := Ideal) (V (main_arg0 : DevRef τ sig)) (endIdx (dstRow (V (main_arg9 : DevRef τ sig))))) (V (main_arg4 : DevRef τ sig)) (V (main_arg5 : DevRef τ sig)) (V (main_arg6 : DevRef τ sig)))) (V (main_arg7 : DevRef τ sig)) (V (main_arg8 : DevRef τ sig)) := by
  rv_read
/-- No operation writes argument 0. -/
theorem out_arg0 : after (ops (F := Ideal)) V (main_arg0 : DevRef τ sig) = (V (main_arg0 : DevRef τ sig)) := by
  rv_read
/-- No operation writes argument 1. -/
theorem out_arg1 : after (ops (F := Ideal)) V (main_arg1 : DevRef τ sig) = (V (main_arg1 : DevRef τ sig)) := by
  rv_read
/-- No operation writes argument 2. -/
theorem out_arg2 : after (ops (F := Ideal)) V (main_arg2 : DevRef τ sig) = (V (main_arg2 : DevRef τ sig)) := by
  rv_read
/-- No operation writes argument 3. -/
theorem out_arg3 : after (ops (F := Ideal)) V (main_arg3 : DevRef τ sig) = (V (main_arg3 : DevRef τ sig)) := by
  rv_read
/-- No operation writes argument 4. -/
theorem out_arg4 : after (ops (F := Ideal)) V (main_arg4 : DevRef τ sig) = (V (main_arg4 : DevRef τ sig)) := by
  rv_read
/-- No operation writes argument 5. -/
theorem out_arg5 : after (ops (F := Ideal)) V (main_arg5 : DevRef τ sig) = (V (main_arg5 : DevRef τ sig)) := by
  rv_read
/-- No operation writes argument 6. -/
theorem out_arg6 : after (ops (F := Ideal)) V (main_arg6 : DevRef τ sig) = (V (main_arg6 : DevRef τ sig)) := by
  rv_read
/-- No operation writes argument 7. -/
theorem out_arg7 : after (ops (F := Ideal)) V (main_arg7 : DevRef τ sig) = (V (main_arg7 : DevRef τ sig)) := by
  rv_read
/-- No operation writes argument 8. -/
theorem out_arg8 : after (ops (F := Ideal)) V (main_arg8 : DevRef τ sig) = (V (main_arg8 : DevRef τ sig)) := by
  rv_read
/-- No operation writes argument 9. -/
theorem out_arg9 : after (ops (F := Ideal)) V (main_arg9 : DevRef τ sig) = (V (main_arg9 : DevRef τ sig)) := by
  rv_read

end Fold

/-! ## The run, in the row functions -/

/-- From any memory with zero counters every weakly fair execution of the reference terminates with its four results
    at the four result functions of the argument arrays, the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90) = fused (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v52) = eprompt (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg9))
      ∧ r.2.mem ((c.tc : Thread nD τ).loc main_v20) = npx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v67) = eagg (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (run_main (F := Ideal) m ρ)
  refine ⟨(h c main_v90).trans ((out_v90 _).trans ?_), (h c main_v52).trans ((out_v52 _).trans ?_),
    (h c main_v20).trans ((out_v20 _).trans ?_), (h c main_v67).trans ((out_v67 _).trans ?_),
    (h c main_arg0).trans (out_arg0 _), (h c main_arg1).trans (out_arg1 _), (h c main_arg2).trans (out_arg2 _), (h c main_arg3).trans (out_arg3 _), (h c main_arg4).trans (out_arg4 _), (h c main_arg5).trans (out_arg5 _), (h c main_arg6).trans (out_arg6 _), (h c main_arg7).trans (out_arg7 _), (h c main_arg8).trans (out_arg8 _), (h c main_arg9).trans (out_arg9 _)⟩
  · rw [hostNP_eq, hostEP_eq, hostFU_eq]; rfl
  · rw [hostEP_eq]; rfl
  · rw [hostNP_eq]
  · rw [hostEP_eq]; rfl

end Cert.ReferenceIdeal.RVal

end
-- ==== Proof.Bridge.lean ====
/-
  The two programs' result functions are the same functions: each side states them through the same row functions,
  the gathers and scatter-adds being the same host operations with the same dimension numbers, only named in each
  program's own vocabulary.
-/
import proofs.«175747_j34248069218340_1_alg».proof.Proof.KDefs
import proofs.«175747_j34248069218340_1_alg».proof.Proof.RDefs

noncomputable section

namespace Cert.Proof.Bridge

open Idealize.ShloMosaic

theorem npx_eq (a0 : FVec Ideal Cert.KernelIdeal.S50000x128 .f32) (a1 : FVec Ideal Cert.KernelIdeal.S5x128 .f32) (a2 : FVec Ideal Cert.KernelIdeal.S128x5 .f32)
    (a3 : FVec Ideal Cert.KernelIdeal.S5 .f32) : Cert.KernelIdeal.Fold.npx a0 a1 a2 a3 = Cert.ReferenceIdeal.RVal.npx a0 a1 a2 a3 := rfl

theorem eprompt_eq (a0 : FVec Ideal Cert.KernelIdeal.S50000x128 .f32) (a4 : FVec Ideal Cert.KernelIdeal.S5x128 .f32) (a5 : FVec Ideal Cert.KernelIdeal.S256x5 .f32)
    (a6 : FVec Ideal Cert.KernelIdeal.S5 .f32) (a9 : IVec Cert.KernelIdeal.S2x640000 32) :
    Cert.KernelIdeal.Fold.eprompt a0 a4 a5 a6 a9 = Cert.ReferenceIdeal.RVal.eprompt a0 a4 a5 a6 a9 := rfl

theorem eagg_eq (a0 : FVec Ideal Cert.KernelIdeal.S50000x128 .f32) (a4 : FVec Ideal Cert.KernelIdeal.S5x128 .f32) (a5 : FVec Ideal Cert.KernelIdeal.S256x5 .f32)
    (a6 : FVec Ideal Cert.KernelIdeal.S5 .f32) (a9 : IVec Cert.KernelIdeal.S2x640000 32) :
    Cert.KernelIdeal.Fold.eagg a0 a4 a5 a6 a9 = Cert.ReferenceIdeal.RVal.eagg a0 a4 a5 a6 a9 := rfl

theorem fused_eq (a0 : FVec Ideal Cert.KernelIdeal.S50000x128 .f32) (a1 : FVec Ideal Cert.KernelIdeal.S5x128 .f32) (a2 : FVec Ideal Cert.KernelIdeal.S128x5 .f32)
    (a3 : FVec Ideal Cert.KernelIdeal.S5 .f32) (a4 : FVec Ideal Cert.KernelIdeal.S5x128 .f32) (a5 : FVec Ideal Cert.KernelIdeal.S256x5 .f32) (a6 : FVec Ideal Cert.KernelIdeal.S5 .f32)
    (a7 : FVec Ideal Cert.KernelIdeal.S256x2 .f32) (a8 : FVec Ideal Cert.KernelIdeal.S2 .f32) (a9 : IVec Cert.KernelIdeal.S2x640000 32) :
    Cert.KernelIdeal.Fold.fused a0 a1 a2 a3 a4 a5 a6 a7 a8 a9 = Cert.ReferenceIdeal.RVal.fused a0 a1 a2 a3 a4 a5 a6 a7 a8 a9 := rfl

end Cert.Proof.Bridge

end
-- ==== Proof.lean ====
/-
  The certificate: a node-prompt, edge-prompt and gated-fusion message-passing layer, computed by three blocked kernels
  with the row gathers and the scatter-adds left to the host between them, against its plain array reference.

  All three kernels are row-wise. Row r of the node prompt is x_r + softmax (x_r · W + b) · A; row e of the edge prompt is
  softmax (leaky (x_src(e) · W_top + x_dst(e) · W_bottom + b)) · A; row r of the fusion is g_0 · n_r + g_1 · s_r with
  g = softmax (n_r · G_top + s_r · G_bottom + gb). The reference sets the two rows side by side and contracts with the
  whole 256-row matrix; on the extended reals that contraction is the sum of the two contractions over 128 rows, by
  commutativity and associativity of addition alone, so no finiteness of the inputs is used. The gathers and the two
  scatter-adds are the same host operations in both programs; the softmax is spelt identically (a row maximum from -∞,
  joined once more with -∞; exponentials; their sum; the quotient), and the leaky slope is the same f32 pattern.

  Kernel side: each region's output array is the row function of the arrays the region finds at entry (its blocks tile
  the rows); the launch names the four results at the last boundary's contents, and the fold is read back through the
  host stretches to the arguments. Reference side: the run of its straight line of operations, each stage read index
  by index. The two sets of result functions agree definitionally. The frames of the two kernel programs are the
  generated ones; the reference's frame is its run with the results dropped; nothing was rewritten by the ideal pass.
-/
import proofs.«175747_j34248069218340_1_alg».proof.Defs
import proofs.«175747_j34248069218340_1_alg».proof.Proof.Gen.Kernel
import proofs.«175747_j34248069218340_1_alg».proof.Proof.Gen.Kernel.Frame
import proofs.«175747_j34248069218340_1_alg».proof.Proof.Gen.KernelIdeal
import proofs.«175747_j34248069218340_1_alg».proof.Proof.Gen.KernelIdeal.Frame
import proofs.«175747_j34248069218340_1_alg».proof.Proof.Gen.ReferenceIdeal
import proofs.«175747_j34248069218340_1_alg».proof.Proof.Gen.Pre_finite_inputs
import proofs.«175747_j34248069218340_1_alg».proof.Proof.KVal
import proofs.«175747_j34248069218340_1_alg».proof.Proof.RVal
import proofs.«175747_j34248069218340_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the four results dropped. -/
theorem frame_ri : Cert.frame_ReferenceIdeal := fun m ρ _ =>
  (θ_run Cert.ReferenceIdeal.defs _ _).mono (fun _ h c => (h c).2.2.2.2) (Cert.ReferenceIdeal.RVal.run m ρ)

/-- The ideal pass rewrote nothing: there is no conjunct to prove. -/
theorem preserves : Cert.preserves_Kernel_KernelIdeal := trivial

/-- From memories agreeing on the ten arguments both programs end with the same four results: the kernel program's
    four result functions of its arguments, which are the reference's of its own. -/
theorem algebraic : Cert.algebraic_KernelIdeal_ReferenceIdeal := by
  intro m ρ m' ρ' _ hagree
  refine ⟨fun c => Cert.KernelIdeal.Fold.fused (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.Fold.eprompt (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)),
    fun c => Cert.KernelIdeal.Fold.npx (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.KernelIdeal.Fold.eagg (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)),
    Cert.KernelIdeal.Fold.run m ρ, ?_⟩
  refine (θ_run Cert.ReferenceIdeal.defs _ _).mono (fun r h c => ?_) (Cert.ReferenceIdeal.RVal.run m' ρ')
  obtain ⟨h0, h1, h2, h3, hargs⟩ := h c
  obtain ⟨e0, e1, e2, e3, e4, e5, e6, e7, e8, e9⟩ := hagree c
  refine ⟨h0.trans ?_, h1.trans ?_, h2.trans ?_, h3.trans ?_, hargs⟩
  · rw [e0, e1, e2, e3, e4, e5, e6, e7, e8, e9]; exact (Cert.Proof.Bridge.fused_eq _ _ _ _ _ _ _ _ _ _).symm
  · rw [e0, e4, e5, e6, e9]; exact (Cert.Proof.Bridge.eprompt_eq _ _ _ _ _).symm
  · rw [e0, e1, e2, e3]; exact (Cert.Proof.Bridge.npx_eq _ _ _ _).symm
  · rw [e0, e4, e5, e6, e9]; exact (Cert.Proof.Bridge.eagg_eq _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
